-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S1600000 : Shape := ⟨1, ![1600000]⟩
abbrev S1600000x4 : Shape := ⟨2, ![1600000, 4]⟩
abbrev S2x128 : Shape := ⟨2, ![2, 128]⟩
abbrev S128 : Shape := ⟨1, ![128]⟩
abbrev S3x134x128 : Shape := ⟨3, ![3, 134, 128]⟩
abbrev S3x128 : Shape := ⟨2, ![3, 128]⟩
abbrev S3x128x2 : Shape := ⟨3, ![3, 128, 2]⟩
abbrev S3x2 : Shape := ⟨2, ![3, 2]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S1600000x4 : S_.BroadcastsInDim S1600000x4 (![] : Fin 0 → Fin S1600000x4.rank)
  reducesTo_S1600000x4_S_d0_1 : S1600000x4.ReducesTo [0, 1] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S3x134x128 : S_.BroadcastsInDim S3x134x128 (![] : Fin 0 → Fin S3x134x128.rank)
  reducesTo_S3x134x128_S_d0_1_2 : S3x134x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x2 : S_.BroadcastsInDim S3x128x2 (![] : Fin 0 → Fin S3x128x2.rank)
  reducesTo_S3x128x2_S_d0_1_2 : S3x128x2.ReducesTo [0, 1, 2] S_
  bcast_S_S3x2 : S_.BroadcastsInDim S3x2 (![] : Fin 0 → Fin S3x2.rank)
  reducesTo_S3x2_S_d0_1 : S3x2.ReducesTo [0, 1] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S1600000 32) (main_arg9 : FVec F S3x2 .f32) (main_v33 : IVec S_ 1) : IVec S_ 1 :=
  let main_v34 : FVec F S3x2 .f32 := Host.absf main_arg9
  let main_cst_12 : FVec F S_ .f32 := constant S_ .f32 0x7F800000#32
  let main_v35 : FVec F S3x2 .f32 := broadcastInDim S3x2 ![] bcast_S_S3x2 main_cst_12
  let main_v36 : IVec S3x2 1 := cmpf .olt main_v34 main_v35
  let main_c_13 : IVec S_ 1 := constantI S_ 1 1#1
  let main_v37 : IVec S_ 1 := (fun x v => Host.reduce IntOp.andi x v reducesTo_S3x2_S_d0_1 h_S_) main_v36 main_c_13
  let main_v38 : IVec S_ 1 := andi main_v33 main_v37
  let main_c_14 : IVec S_ 32 := constantI S_ 32 0#32
  let main_v39 : IVec S1600000 32 := broadcastInDim S1600000 ![] bcast_S_S1600000 main_c_14
  let main_v40 : IVec S1600000 1 := cmpi .sge main_arg1 main_v39
  let main_c_15 : IVec S_ 1 := constantI S_ 1 1#1
  let main_v41 : IVec S_ 1 := (fun x v => Host.reduce IntOp.andi x v reducesTo_S1600000_S_d0 h_S_) main_v40 main_c_15
  let main_v42 : IVec S_ 1 := andi main_v38 main_v41
  let main_c_16 : IVec S_ 32 := constantI S_ 32 100000#32
  let main_v43 : IVec S1600000 32 := broadcastInDim S1600000 ![] bcast_S_S1600000 main_c_16
  let main_v44 : IVec S1600000 1 := cmpi .slt main_arg1 main_v43
  let main_c_17 : IVec S_ 1 := constantI S_ 1 1#1
  let main_v45 : IVec S_ 1 := (fun x v => Host.reduce IntOp.andi x v reducesTo_S1600000_S_d0 h_S_) main_v44 main_c_17
  let main_v46 : IVec S_ 1 := andi main_v42 main_v45
  main_v46

def fn_part1 {F : FTy → Type} [FloatOps F] (main_arg1 : IVec S1600000 32) (main_arg6 : FVec F S3x134x128 .f32) (main_arg7 : FVec F S3x128 .f32) (main_arg8 : FVec F S3x128x2 .f32) (main_arg9 : FVec F S3x2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x134x128 .f32 := Host.absf main_arg6
  let main_cst_6 : FVec F S_ .f32 := constant S_ .f32 0x7F800000#32
  let main_v20 : FVec F S3x134x128 .f32 := broadcastInDim S3x134x128 ![] bcast_S_S3x134x128 main_cst_6
  let main_v21 : IVec S3x134x128 1 := cmpf .olt main_v19 main_v20
  let main_c_7 : IVec S_ 1 := constantI S_ 1 1#1
  let main_v22 : IVec S_ 1 := (fun x v => Host.reduce IntOp.andi x v reducesTo_S3x134x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128x2 .f32 := Host.absf main_arg8
  let main_cst_10 : FVec F S_ .f32 := constant S_ .f32 0x7F800000#32
  let main_v30 : FVec F S3x128x2 .f32 := broadcastInDim S3x128x2 ![] bcast_S_S3x128x2 main_cst_10
  let main_v31 : IVec S3x128x2 1 := cmpf .olt main_v29 main_v30
  let main_c_11 : IVec S_ 1 := constantI S_ 1 1#1
  let main_v32 : IVec S_ 1 := (fun x v => Host.reduce IntOp.andi x v reducesTo_S3x128x2_S_d0_1_2 h_S_) main_v31 main_c_11
  let main_v33 : IVec S_ 1 := andi main_v28 main_v32
  fn_part2 (F := F) main_arg1 main_arg9 main_v33

def fn {F : FTy → Type} [FloatOps F] (main_arg0 : FVec F S100000x2 .f32) (main_arg1 : IVec S1600000 32) (main_arg2 : IVec S1600000 32) (main_arg3 : FVec F S1600000x4 .f32) (main_arg4 : FVec F S2x128 .f32) (main_arg5 : FVec F S128 .f32) (main_arg6 : FVec F S3x134x128 .f32) (main_arg7 : FVec F S3x128 .f32) (main_arg8 : FVec F S3x128x2 .f32) (main_arg9 : FVec F S3x2 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S1600000x4 .f32 := Host.absf main_arg3
  let main_cst_0 : FVec F S_ .f32 := constant S_ .f32 0x7F800000#32
  let main_v5 : FVec F S1600000x4 .f32 := broadcastInDim S1600000x4 ![] bcast_S_S1600000x4 main_cst_0
  let main_v6 : IVec S1600000x4 1 := cmpf .olt main_v4 main_v5
  let main_c_1 : IVec S_ 1 := constantI S_ 1 1#1
  let main_v7 : IVec S_ 1 := (fun x v => Host.reduce IntOp.andi x v reducesTo_S1600000x4_S_d0_1 h_S_) main_v6 main_c_1
  let main_v8 : IVec S_ 1 := andi main_v3 main_v7
  let main_v9 : FVec F S2x128 .f32 := Host.absf main_arg4
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_arg8 main_arg9 main_v13 main_v16
-- ==== Kernel.lean ====
abbrev S100000x2 : Shape := ⟨2, ![100000, 2]⟩
abbrev S1600000 : Shape := ⟨1, ![1600000]⟩
abbrev S1600000x4 : Shape := ⟨2, ![1600000, 4]⟩
abbrev S2x128 : Shape := ⟨2, ![2, 128]⟩
abbrev S128 : Shape := ⟨1, ![128]⟩
abbrev S3x134x128 : Shape := ⟨3, ![3, 134, 128]⟩
abbrev S3x128 : Shape := ⟨2, ![3, 128]⟩
abbrev S3x128x2 : Shape := ⟨3, ![3, 128, 2]⟩
abbrev S3x2 : Shape := ⟨2, ![3, 2]⟩
abbrev S_ : Shape := ⟨0, ![]⟩
abbrev S1 : Shape := ⟨1, ![1]⟩
abbrev S100000 : Shape := ⟨1, ![100000]⟩
abbrev S100000x128 : Shape := ⟨2, ![100000, 128]⟩
abbrev S1x128 : Shape := ⟨2, ![1, 128]⟩
abbrev S100000x130 : Shape := ⟨2, ![100000, 130]⟩
abbrev S1600000x1 : Shape := ⟨2, ![1600000, 1]⟩
abbrev S1x1 : Shape := ⟨2, ![1, 1]⟩
abbrev S1600000x130 : Shape := ⟨2, ![1600000, 130]⟩
abbrev S1x134x128 : Shape := ⟨3, ![1, 134, 128]⟩
abbrev S134x128 : Shape := ⟨2, ![134, 128]⟩
abbrev S130x128 : Shape := ⟨2, ![130, 128]⟩
abbrev S4x128 : Shape := ⟨2, ![4, 128]⟩
abbrev S1600000x128 : Shape := ⟨2, ![1600000, 128]⟩
abbrev S16000x130 : Shape := ⟨2, ![16000, 130]⟩
abbrev S16000x4 : Shape := ⟨2, ![16000, 4]⟩
abbrev S16000x128 : Shape := ⟨2, ![16000, 128]⟩
abbrev S1x128x2 : Shape := ⟨3, ![1, 128, 2]⟩
abbrev S128x2 : Shape := ⟨2, ![128, 2]⟩
abbrev S1x2 : Shape := ⟨2, ![1, 2]⟩
abbrev S2 : Shape := ⟨1, ![2]⟩

abbrev nBuf : Space → Nat
  | .hbm => 162
  | .vmem => 27
  | .smem => 0
  | _ => 0

abbrev hbmTy0_0 (i : Nat) : BufTy := match i % 128 with
  | 0 => ⟨S100000x2, .f32⟩
  | 1 => ⟨S1600000, .i32⟩
  | 2 => ⟨S1600000, .i32⟩
  | 3 => ⟨S1600000x4, .f32⟩
  | 4 => ⟨S2x128, .f32⟩
  | 5 => ⟨S128, .f32⟩
  | 6 => ⟨S3x134x128, .f32⟩
  | 7 => ⟨S3x128, .f32⟩
  | 8 => ⟨S3x128x2, .f32⟩
  | 9 => ⟨S3x2, .f32⟩
  | 10 => ⟨S_, .f32⟩
  | 11 => ⟨S100000x2, .f32⟩
  | 12 => ⟨S_, .i32⟩
  | 13 => ⟨S1, .i32⟩
  | 14 => ⟨S_, .f32⟩
  | 15 => ⟨S100000, .f32⟩
  | 16 => ⟨S100000x2, .f32⟩
  | 17 => ⟨S100000x128, .f32⟩
  | 18 => ⟨S1x128, .f32⟩
  | 19 => ⟨S100000x128, .f32⟩
  | 20 => ⟨S100000x128, .f32⟩
  | 21 => ⟨S100000x130, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1, .i32⟩
  | 31 => ⟨S_, .i32⟩
  | 32 => ⟨S1600000x1, .i32⟩
  | 33 => ⟨S1600000x1, .i1⟩
  | 34 => ⟨S1x1, .i32⟩
  | 35 => ⟨S1600000x1, .i32⟩
  | 36 => ⟨S1600000x1, .i1⟩
  | 37 => ⟨S1600000x1, .i1⟩
  | 38 => ⟨S_, .i1⟩
  | 39 => ⟨S1600000, .i1⟩
  | 40 => ⟨S1600000x130, .f32⟩
  | 41 => ⟨S1600000x130, .i1⟩
  | 42 => ⟨S_, .f32⟩
  | 43 => ⟨S1600000x130, .f32⟩
  | 44 => ⟨S1600000x130, .f32⟩
  | 45 => ⟨S1x134x128, .f32⟩
  | 46 => ⟨S134x128, .f32⟩
  | 47 => ⟨S130x128, .f32⟩
  | 48 => ⟨S4x128, .f32⟩
  | 49 => ⟨S1x128, .f32⟩
  | 50 => ⟨S128, .f32⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S_, .f32⟩
  | 57 => ⟨S100000x128, .f32⟩
  | 58 => ⟨S100000x128, .f32⟩
  | 59 => ⟨S1x128x2, .f32⟩
  | 60 => ⟨S128x2, .f32⟩
  | 61 => ⟨S100000x2, .f32⟩
  | 62 => ⟨S1x2, .f32⟩
  | 63 => ⟨S2, .f32⟩
  | 64 => ⟨S1x2, .f32⟩
  | 65 => ⟨S100000x2, .f32⟩
  | 66 => ⟨S100000x2, .f32⟩
  | 67 => ⟨S100000x2, .f32⟩
  | 68 => ⟨S100000x130, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1, .i32⟩
  | 78 => ⟨S_, .i32⟩
  | 79 => ⟨S1600000x1, .i32⟩
  | 80 => ⟨S1600000x1, .i1⟩
  | 81 => ⟨S1x1, .i32⟩
  | 82 => ⟨S1600000x1, .i32⟩
  | 83 => ⟨S1600000x1, .i1⟩
  | 84 => ⟨S1600000x1, .i1⟩
  | 85 => ⟨S_, .i1⟩
  | 86 => ⟨S1600000, .i1⟩
  | 87 => ⟨S1600000x130, .f32⟩
  | 88 => ⟨S1600000x130, .i1⟩
  | 89 => ⟨S_, .f32⟩
  | 90 => ⟨S1600000x130, .f32⟩
  | 91 => ⟨S1600000x130, .f32⟩
  | 92 => ⟨S1x134x128, .f32⟩
  | 93 => ⟨S134x128, .f32⟩
  | 94 => ⟨S130x128, .f32⟩
  | 95 => ⟨S4x128, .f32⟩
  | 96 => ⟨S1x128, .f32⟩
  | 97 => ⟨S128, .f32⟩
  | 98 => ⟨S1600000x128, .f32⟩
  | 99 => ⟨S_, .f32⟩
  | 100 => ⟨S100000x128, .f32⟩
  | 101 => ⟨S1600000x1, .i32⟩
  | 102 => ⟨S100000x128, .f32⟩
  | 103 => ⟨S_, .f32⟩
  | 104 => ⟨S100000x128, .f32⟩
  | 105 => ⟨S100000x128, .f32⟩
  | 106 => ⟨S1x128x2, .f32⟩
  | 107 => ⟨S128x2, .f32⟩
  | 108 => ⟨S100000x2, .f32⟩
  | 109 => ⟨S1x2, .f32⟩
  | 110 => ⟨S2, .f32⟩
  | 111 => ⟨S1x2, .f32⟩
  | 112 => ⟨S100000x2, .f32⟩
  | 113 => ⟨S100000x2, .f32⟩
  | 114 => ⟨S100000x2, .f32⟩
  | 115 => ⟨S100000x130, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1, .i32⟩
  | 125 => ⟨S_, .i32⟩
  | 126 => ⟨S1600000x1, .i32⟩
  | 127 => ⟨S1600000x1, .i1⟩
  | _ => ⟨S100000x2, .f32⟩

abbrev hbmTy0_1 (i : Nat) : BufTy := match i % 128 with
  | 0 => ⟨S1x1, .i32⟩
  | 1 => ⟨S1600000x1, .i32⟩
  | 2 => ⟨S1600000x1, .i1⟩
  | 3 => ⟨S1600000x1, .i1⟩
  | 4 => ⟨S_, .i1⟩
  | 5 => ⟨S1600000, .i1⟩
  | 6 => ⟨S1600000x130, .f32⟩
  | 7 => ⟨S1600000x130, .i1⟩
  | 8 => ⟨S_, .f32⟩
  | 9 => ⟨S1600000x130, .f32⟩
  | 10 => ⟨S1600000x130, .f32⟩
  | 11 => ⟨S1x134x128, .f32⟩
  | 12 => ⟨S134x128, .f32⟩
  | 13 => ⟨S130x128, .f32⟩
  | 14 => ⟨S4x128, .f32⟩
  | 15 => ⟨S1x128, .f32⟩
  | 16 => ⟨S128, .f32⟩
  | 17 => ⟨S1600000x128, .f32⟩
  | 18 => ⟨S_, .f32⟩
  | 19 => ⟨S100000x128, .f32⟩
  | 20 => ⟨S1600000x1, .i32⟩
  | 21 => ⟨S100000x128, .f32⟩
  | 22 => ⟨S_, .f32⟩
  | 23 => ⟨S100000x128, .f32⟩
  | 24 => ⟨S100000x128, .f32⟩
  | 25 => ⟨S1x128x2, .f32⟩
  | 26 => ⟨S128x2, .f32⟩
  | 27 => ⟨S100000x2, .f32⟩
  | 28 => ⟨S1x2, .f32⟩
  | 29 => ⟨S2, .f32⟩
  | 30 => ⟨S1x2, .f32⟩
  | 31 => ⟨S100000x2, .f32⟩
  | 32 => ⟨S100000x2, .f32⟩
  | 33 => ⟨S100000x2, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | .local _ .vmem, ⟨0, _⟩ => ⟨S16000x130, .f32⟩
  | .local _ .vmem, ⟨1, _⟩ => ⟨S16000x130, .f32⟩
  | .local _ .vmem, ⟨2, _⟩ => ⟨S16000x4, .f32⟩
  | .local _ .vmem, ⟨3, _⟩ => ⟨S16000x4, .f32⟩
  | .local _ .vmem, ⟨4, _⟩ => ⟨S130x128, .f32⟩
  | .local _ .vmem, ⟨5, _⟩ => ⟨S4x128, .f32⟩
  | .local _ .vmem, ⟨6, _⟩ => ⟨S128, .f32⟩
  | .local _ .vmem, ⟨7, _⟩ => ⟨S16000x128, .f32⟩
  | .local _ .vmem, ⟨8, _⟩ => ⟨S16000x128, .f32⟩
  | .local _ .vmem, ⟨9, _⟩ => ⟨S16000x130, .f32⟩
  | .local _ .vmem, ⟨10, _⟩ => ⟨S16000x130, .f32⟩
  | .local _ .vmem, ⟨11, _⟩ => ⟨S16000x4, .f32⟩
  | .local _ .vmem, ⟨12, _⟩ => ⟨S16000x4, .f32⟩
  | .local _ .vmem, ⟨13, _⟩ => ⟨S130x128, .f32⟩
  | .local _ .vmem, ⟨14, _⟩ => ⟨S4x128, .f32⟩
  | .local _ .vmem, ⟨15, _⟩ => ⟨S128, .f32⟩
  | .local _ .vmem, ⟨16, _⟩ => ⟨S16000x128, .f32⟩
  | .local _ .vmem, ⟨17, _⟩ => ⟨S16000x128, .f32⟩
  | .local _ .vmem, ⟨18, _⟩ => ⟨S16000x130, .f32⟩
  | .local _ .vmem, ⟨19, _⟩ => ⟨S16000x130, .f32⟩
  | .local _ .vmem, ⟨20, _⟩ => ⟨S16000x4, .f32⟩
  | .local _ .vmem, ⟨21, _⟩ => ⟨S16000x4, .f32⟩
  | .local _ .vmem, ⟨22, _⟩ => ⟨S130x128, .f32⟩
  | .local _ .vmem, ⟨23, _⟩ => ⟨S4x128, .f32⟩
  | .local _ .vmem, ⟨24, _⟩ => ⟨S128, .f32⟩
  | .local _ .vmem, ⟨25, _⟩ => ⟨S16000x128, .f32⟩
  | .local _ .vmem, ⟨26, _⟩ => ⟨S16000x128, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_cst_1 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_call1_cst : Ref sig .tc := ⟨.hbm, 56, rfl⟩
abbrev main_call1_v0 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_cst : Ref sig .tc := ⟨.hbm, 89, rfl⟩
abbrev main_call2_v15 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_cst_2 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_call3_cst : Ref sig .tc := ⟨.hbm, 103, rfl⟩
abbrev main_call3_v0 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_call4_c : Ref sig .tc := ⟨.hbm, 116, rfl⟩
abbrev main_call4_v0 : Ref sig .tc := ⟨.hbm, 117, rfl⟩
abbrev main_call4_v1 : Ref sig .tc := ⟨.hbm, 118, rfl⟩
abbrev main_call4_c_0 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_call4_v5 : Ref sig .tc := ⟨.hbm, 123, rfl⟩
abbrev main_call4_c_1 : Ref sig .tc := ⟨.hbm, 124, rfl⟩
abbrev main_call4_c_2 : Ref sig .tc := ⟨.hbm, 125, rfl⟩
abbrev main_call4_v6 : Ref sig .tc := ⟨.hbm, 126, rfl⟩
abbrev main_call4_v7 : Ref sig .tc := ⟨.hbm, 127, rfl⟩
abbrev main_call4_v8 : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_c_3 : Ref sig .tc := ⟨.hbm, 132, rfl⟩
abbrev main_call4_v12 : Ref sig .tc := ⟨.hbm, 133, rfl⟩
abbrev main_call4_v13 : Ref sig .tc := ⟨.hbm, 134, rfl⟩
abbrev main_call4_v14 : Ref sig .tc := ⟨.hbm, 135, rfl⟩
abbrev main_call4_cst : Ref sig .tc := ⟨.hbm, 136, rfl⟩
abbrev main_call4_v15 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_cst_3 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_call5_cst : Ref sig .tc := ⟨.hbm, 150, rfl⟩
abbrev main_call5_v0 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_v73 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x130 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S130x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x130 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S130x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S16000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x130 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16000x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S130x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S16000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S100000x2 : S_.BroadcastsInDim S100000x2 (![] : Fin 0 → Fin S100000x2.rank)
  bcast_S_S1 : S_.BroadcastsInDim S1 (![] : Fin 0 → Fin S1.rank)
  bcast_S_S100000 : S_.BroadcastsInDim S100000 (![] : Fin 0 → Fin S100000.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x2_S100000x128_S100000x130_d1 : Shape.Concatenates [S100000x2, S100000x128] S100000x130 1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x130_0 : S1600000.BroadcastsInDim S1600000x130 (![0] : Fin 1 → Fin S1600000x130.rank)
  bcast_S_S1600000x130 : S_.BroadcastsInDim S1600000x130 (![] : Fin 0 → Fin S1600000x130.rank)
  slices_S3x134x128_S1x134x128_0_0_0 : S3x134x128.Slices ![0, 0, 0] S1x134x128
  shapeCasts_S1x134x128_S134x128 : S1x134x128.ShapeCasts S134x128
  slices_S134x128_S130x128_0_0 : S134x128.Slices ![0, 0] S130x128
  slices_S134x128_S4x128_130_0 : S134x128.Slices ![130, 0] S4x128
  slices_S3x128_S1x128_0_0 : S3x128.Slices ![0, 0] S1x128
  shapeCasts_S1x128_S128 : S1x128.ShapeCasts S128
  inb_S16000x130_S16000x130_0_0 : ∀ a, (![0, 0] : Fin 2 → Nat) a + S16000x130.size a ≤ S16000x130.size a
  h_S16000x130 : 0 < S16000x130.numel
  shapeCasts_S16000x130_S16000x130 : S16000x130.ShapeCasts S16000x130
  bitsLt_bf16_f32 : FTy.bits .bf16 < FTy.bits .f32
  inb_S16000x4_S16000x4_0_0 : ∀ a, (![0, 0] : Fin 2 → Nat) a + S16000x4.size a ≤ S16000x4.size a
  h_S16000x4 : 0 < S16000x4.numel
  inb_S130x128_S130x128_0_0 : ∀ a, (![0, 0] : Fin 2 → Nat) a + S130x128.size a ≤ S130x128.size a
  h_S130x128 : 0 < S130x128.numel
  shapeCasts_S130x128_S130x128 : S130x128.ShapeCasts S130x128
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S16000x128 : S1x128.Broadcasts S16000x128
  inb_S16000x128_S16000x128_0_0 : ∀ a, (![0, 0] : Fin 2 → Nat) a + S16000x128.size a ≤ S16000x128.size a
  h_S16000x128 : 0 < S16000x128.numel
  bcast_S_S100000x128 : S_.BroadcastsInDim S100000x128 (![] : Fin 0 → Fin S100000x128.rank)
  slices_S3x128x2_S1x128x2_0_0_0 : S3x128x2.Slices ![0, 0, 0] S1x128x2
  shapeCasts_S1x128x2_S128x2 : S1x128x2.ShapeCasts S128x2
  slices_S3x2_S1x2_0_0 : S3x2.Slices ![0, 0] S1x2
  shapeCasts_S1x2_S2 : S1x2.ShapeCasts S2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  slices_S3x134x128_S1x134x128_1_0_0 : S3x134x128.Slices ![1, 0, 0] S1x134x128
  slices_S3x128_S1x128_1_0 : S3x128.Slices ![1, 0] S1x128
  slices_S3x128x2_S1x128x2_1_0_0 : S3x128x2.Slices ![1, 0, 0] S1x128x2
  slices_S3x2_S1x2_1_0 : S3x2.Slices ![1, 0] S1x2
  slices_S3x134x128_S1x134x128_2_0_0 : S3x134x128.Slices ![2, 0, 0] S1x134x128
  slices_S3x128_S1x128_2_0 : S3x128.Slices ![2, 0] S1x128
  slices_S3x128x2_S1x128x2_2_0_0 : S3x128x2.Slices ![2, 0, 0] S1x128x2
  slices_S3x2_S1x2_2_0 : S3x2.Slices ![2, 0] S1x2
  scatter_S100000x2_S1_S100000_0_1_1_0_wf : ScatterDims.WF S100000x2 S1 S100000 [0] [1] [1] 0
  dot_S100000x2_S2x128_S100000x128_1_0_0_1_n_n_wf : DotDims.WF S100000x2 S2x128 S100000x128 [1] [0] [0] [1] [] []
  gather_S100000x130_S1600000x1_S1600000x130_1_0_n_n_0_1_1130_wf : GatherDims.WF S100000x130 S1600000x1 S1600000x130 [1] [0] [] [0] [] 1 ![1, 130]
  dot_S16000x130_S130x128_S16000x128_1_0_0_1_n_n_wf : DotDims.WF S16000x130 S130x128 S16000x128 [1] [0] [0] [1] [] []
  dot_S16000x4_S4x128_S16000x128_1_0_0_1_n_n_wf : DotDims.WF S16000x4 S4x128 S16000x128 [1] [0] [0] [1] [] []
  scatter_S100000x128_S1600000x1_S1600000x128_1_0_0_1_wf : ScatterDims.WF S100000x128 S1600000x1 S1600000x128 [1] [0] [0] 1
  dot_S100000x128_S128x2_S100000x2_1_0_0_1_n_n_wf : DotDims.WF S100000x128 S128x2 S100000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x130.size a ≤ S1600000x130.size a
  hwx0_0 : ∀ i : grid0.Coords, EltTy.bits .f32 = 32 ∨ (Rect.block (s := S1600000x130) S16000x130.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x4.size a ≤ S1600000x4.size a
  hwx0_1 : ∀ i : grid0.Coords, EltTy.bits .f32 = 32 ∨ (Rect.block (s := S1600000x4) S16000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S130x128.size a ≤ S130x128.size a
  hwx0_2 : ∀ i : grid0.Coords, EltTy.bits .f32 = 32 ∨ (Rect.block (s := S130x128) S130x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x128.size a ≤ S4x128.size a
  hwx0_3 : ∀ i : grid0.Coords, EltTy.bits .f32 = 32 ∨ (Rect.block (s := S4x128) S4x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16000x128.size a ≤ S1600000x128.size a
  hwx0_5 : ∀ i : grid0.Coords, EltTy.bits .f32 = 32 ∨ (Rect.block (s := S1600000x128) S16000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x130.size a ≤ S1600000x130.size a
  hwx1_0 : ∀ i : grid1.Coords, EltTy.bits .f32 = 32 ∨ (Rect.block (s := S1600000x130) S16000x130.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16000x4.size a ≤ S1600000x4.size a
  hwx1_1 : ∀ i : grid1.Coords, EltTy.bits .f32 = 32 ∨ (Rect.block (s := S1600000x4) S16000x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S130x128.size a ≤ S130x128.size a
  hwx1_2 : ∀ i : grid1.Coords, EltTy.bits .f32 = 32 ∨ (Rect.block (s := S130x128) S130x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x128.size a ≤ S4x128.size a
  hwx1_3 : ∀ i : grid1.Coords, EltTy.bits .f32 = 32 ∨ (Rect.block (s := S4x128) S4x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16000x128.size a ≤ S1600000x128.size a
  hwx1_5 : ∀ i : grid1.Coords, EltTy.bits .f32 = 32 ∨ (Rect.block (s := S1600000x128) S16000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x130.size a ≤ S1600000x130.size a
  hwx2_0 : ∀ i : grid2.Coords, EltTy.bits .f32 = 32 ∨ (Rect.block (s := S1600000x130) S16000x130.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16000x4.size a ≤ S1600000x4.size a
  hwx2_1 : ∀ i : grid2.Coords, EltTy.bits .f32 = 32 ∨ (Rect.block (s := S1600000x4) S16000x4.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S130x128.size a ≤ S130x128.size a
  hwx2_2 : ∀ i : grid2.Coords, EltTy.bits .f32 = 32 ∨ (Rect.block (s := S130x128) S130x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4x128.size a ≤ S4x128.size a
  hwx2_3 : ∀ i : grid2.Coords, EltTy.bits .f32 = 32 ∨ (Rect.block (s := S4x128) S4x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S16000x128.size a ≤ S1600000x128.size a
  hwx2_5 : ∀ i : grid2.Coords, EltTy.bits .f32 = 32 ∨ (Rect.block (s := S1600000x128) S16000x128.size (cc2_transform_5 i) (hinb2_5 i)).WholeWords (EltTy.packing .f32)

variable [Facts₀]

def scatter_S100000x2_S1_S100000_0_1_1_0 : ScatterDims S100000x2 S1 S100000 where
  updateWindowDims := [0]
  insertedWindowDims := [1]
  scatterDimsToOperandDims := [1]
  indexVectorDim := 0
  wf := scatter_S100000x2_S1_S100000_0_1_1_0_wf
def dot_S100000x2_S2x128_S100000x128_1_0_0_1_n_n : DotDims S100000x2 S2x128 S100000x128 where
  lhsContracting := [1]
  rhsContracting := [0]
  lhsNonContracting := [0]
  rhsNonContracting := [1]
  lhsBatch := []
  rhsBatch := []
  wf := dot_S100000x2_S2x128_S100000x128_1_0_0_1_n_n_wf
def gather_S100000x130_S1600000x1_S1600000x130_1_0_n_n_0_1_1130 : GatherDims S100000x130 S1600000x1 S1600000x130 where
  offsetDims := [1]
  collapsedSliceDims := [0]
  operandBatchingDims := []
  startIndicesBatchingDims := []
  startIndexMap := [0]
  indexVectorDim := 1
  sliceSizes := ![1, 130]
  wf := gather_S100000x130_S1600000x1_S1600000x130_1_0_n_n_0_1_1130_wf
def dot_S16000x130_S130x128_S16000x128_1_0_0_1_n_n : DotDims S16000x130 S130x128 S16000x128 where
  lhsContracting := [1]
  rhsContracting := [0]
  lhsNonContracting := [0]
  rhsNonContracting := [1]
  lhsBatch := []
  rhsBatch := []
  wf := dot_S16000x130_S130x128_S16000x128_1_0_0_1_n_n_wf
def dot_S16000x4_S4x128_S16000x128_1_0_0_1_n_n : DotDims S16000x4 S4x128 S16000x128 where
  lhsContracting := [1]
  rhsContracting := [0]
  lhsNonContracting := [0]
  rhsNonContracting := [1]
  lhsBatch := []
  rhsBatch := []
  wf := dot_S16000x4_S4x128_S16000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

abbrev win0_0 : Pipeline.Window sig grid0 :=
  Pipeline.Window.ofSpec (Memref.whole main_v9) S16000x130.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S130x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S4x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S16000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S16000x130.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S130x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S4x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S16000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S16000x130.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S16000x4.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S130x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S4x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S16000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x2 : Shape := ⟨2, ![100000, 2]⟩
abbrev S1600000 : Shape := ⟨1, ![1600000]⟩
abbrev S1600000x4 : Shape := ⟨2, ![1600000, 4]⟩
abbrev S2x128 : Shape := ⟨2, ![2, 128]⟩
abbrev S128 : Shape := ⟨1, ![128]⟩
abbrev S3x134x128 : Shape := ⟨3, ![3, 134, 128]⟩
abbrev S3x128 : Shape := ⟨2, ![3, 128]⟩
abbrev S3x128x2 : Shape := ⟨3, ![3, 128, 2]⟩
abbrev S3x2 : Shape := ⟨2, ![3, 2]⟩
abbrev S_ : Shape := ⟨0, ![]⟩
abbrev S1 : Shape := ⟨1, ![1]⟩
abbrev S100000 : Shape := ⟨1, ![100000]⟩
abbrev S100000x128 : Shape := ⟨2, ![100000, 128]⟩
abbrev S1x128 : Shape := ⟨2, ![1, 128]⟩
abbrev S100000x130 : Shape := ⟨2, ![100000, 130]⟩
abbrev S1600000x1 : Shape := ⟨2, ![1600000, 1]⟩
abbrev S1600000x130 : Shape := ⟨2, ![1600000, 130]⟩
abbrev S1600000x134 : Shape := ⟨2, ![1600000, 134]⟩
abbrev S1x134x128 : Shape := ⟨3, ![1, 134, 128]⟩
abbrev S134x128 : Shape := ⟨2, ![134, 128]⟩
abbrev S1600000x128 : Shape := ⟨2, ![1600000, 128]⟩
abbrev S1x128x2 : Shape := ⟨3, ![1, 128, 2]⟩
abbrev S128x2 : Shape := ⟨2, ![128, 2]⟩
abbrev S1x2 : Shape := ⟨2, ![1, 2]⟩
abbrev S2 : Shape := ⟨1, ![2]⟩

abbrev nBuf : Space → Nat
  | .hbm => 126
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S1600000, .i32⟩
  | .hbm, ⟨2, _⟩ => ⟨S1600000, .i32⟩
  | .hbm, ⟨3, _⟩ => ⟨S1600000x4, .f32⟩
  | .hbm, ⟨4, _⟩ => ⟨S2x128, .f32⟩
  | .hbm, ⟨5, _⟩ => ⟨S128, .f32⟩
  | .hbm, ⟨6, _⟩ => ⟨S3x134x128, .f32⟩
  | .hbm, ⟨7, _⟩ => ⟨S3x128, .f32⟩
  | .hbm, ⟨8, _⟩ => ⟨S3x128x2, .f32⟩
  | .hbm, ⟨9, _⟩ => ⟨S3x2, .f32⟩
  | .hbm, ⟨10, _⟩ => ⟨S_, .f32⟩
  | .hbm, ⟨11, _⟩ => ⟨S100000x2, .f32⟩
  | .hbm, ⟨12, _⟩ => ⟨S_, .i32⟩
  | .hbm, ⟨13, _⟩ => ⟨S1, .i32⟩
  | .hbm, ⟨14, _⟩ => ⟨S_, .f32⟩
  | .hbm, ⟨15, _⟩ => ⟨S100000, .f32⟩
  | .hbm, ⟨16, _⟩ => ⟨S100000x2, .f32⟩
  | .hbm, ⟨17, _⟩ => ⟨S100000x128, .f32⟩
  | .hbm, ⟨18, _⟩ => ⟨S1x128, .f32⟩
  | .hbm, ⟨19, _⟩ => ⟨S100000x128, .f32⟩
  | .hbm, ⟨20, _⟩ => ⟨S100000x128, .f32⟩
  | .hbm, ⟨21, _⟩ => ⟨S100000x130, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x130, .f32⟩
  | .hbm, ⟨31, _⟩ => ⟨S1600000x134, .f32⟩
  | .hbm, ⟨32, _⟩ => ⟨S1x134x128, .f32⟩
  | .hbm, ⟨33, _⟩ => ⟨S134x128, .f32⟩
  | .hbm, ⟨34, _⟩ => ⟨S1600000x128, .f32⟩
  | .hbm, ⟨35, _⟩ => ⟨S1x128, .f32⟩
  | .hbm, ⟨36, _⟩ => ⟨S128, .f32⟩
  | .hbm, ⟨37, _⟩ => ⟨S1x128, .f32⟩
  | .hbm, ⟨38, _⟩ => ⟨S1600000x128, .f32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S1x128x2, .f32⟩
  | .hbm, ⟨48, _⟩ => ⟨S128x2, .f32⟩
  | .hbm, ⟨49, _⟩ => ⟨S100000x2, .f32⟩
  | .hbm, ⟨50, _⟩ => ⟨S1x2, .f32⟩
  | .hbm, ⟨51, _⟩ => ⟨S2, .f32⟩
  | .hbm, ⟨52, _⟩ => ⟨S1x2, .f32⟩
  | .hbm, ⟨53, _⟩ => ⟨S100000x2, .f32⟩
  | .hbm, ⟨54, _⟩ => ⟨S100000x2, .f32⟩
  | .hbm, ⟨55, _⟩ => ⟨S100000x2, .f32⟩
  | .hbm, ⟨56, _⟩ => ⟨S100000x130, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x130, .f32⟩
  | .hbm, ⟨66, _⟩ => ⟨S1600000x134, .f32⟩
  | .hbm, ⟨67, _⟩ => ⟨S1x134x128, .f32⟩
  | .hbm, ⟨68, _⟩ => ⟨S134x128, .f32⟩
  | .hbm, ⟨69, _⟩ => ⟨S1600000x128, .f32⟩
  | .hbm, ⟨70, _⟩ => ⟨S1x128, .f32⟩
  | .hbm, ⟨71, _⟩ => ⟨S128, .f32⟩
  | .hbm, ⟨72, _⟩ => ⟨S1x128, .f32⟩
  | .hbm, ⟨73, _⟩ => ⟨S1600000x128, .f32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S1x128x2, .f32⟩
  | .hbm, ⟨83, _⟩ => ⟨S128x2, .f32⟩
  | .hbm, ⟨84, _⟩ => ⟨S100000x2, .f32⟩
  | .hbm, ⟨85, _⟩ => ⟨S1x2, .f32⟩
  | .hbm, ⟨86, _⟩ => ⟨S2, .f32⟩
  | .hbm, ⟨87, _⟩ => ⟨S1x2, .f32⟩
  | .hbm, ⟨88, _⟩ => ⟨S100000x2, .f32⟩
  | .hbm, ⟨89, _⟩ => ⟨S100000x2, .f32⟩
  | .hbm, ⟨90, _⟩ => ⟨S100000x2, .f32⟩
  | .hbm, ⟨91, _⟩ => ⟨S100000x130, .f32⟩
  | .hbm, ⟨92, _⟩ => ⟨S_, .i32⟩
  | .hbm, ⟨93, _⟩ => ⟨S1600000, .i32⟩
  | .hbm, ⟨94, _⟩ => ⟨S1600000, .i1⟩
  | .hbm, ⟨95, _⟩ => ⟨S_, .i32⟩
  | .hbm, ⟨96, _⟩ => ⟨S1600000, .i32⟩
  | .hbm, ⟨97, _⟩ => ⟨S1600000, .i32⟩
  | .hbm, ⟨98, _⟩ => ⟨S1600000, .i32⟩
  | .hbm, ⟨99, _⟩ => ⟨S1600000x1, .i32⟩
  | .hbm, ⟨100, _⟩ => ⟨S1600000x130, .f32⟩
  | .hbm, ⟨101, _⟩ => ⟨S1600000x134, .f32⟩
  | .hbm, ⟨102, _⟩ => ⟨S1x134x128, .f32⟩
  | .hbm, ⟨103, _⟩ => ⟨S134x128, .f32⟩
  | .hbm, ⟨104, _⟩ => ⟨S1600000x128, .f32⟩
  | .hbm, ⟨105, _⟩ => ⟨S1x128, .f32⟩
  | .hbm, ⟨106, _⟩ => ⟨S128, .f32⟩
  | .hbm, ⟨107, _⟩ => ⟨S1x128, .f32⟩
  | .hbm, ⟨108, _⟩ => ⟨S1600000x128, .f32⟩
  | .hbm, ⟨109, _⟩ => ⟨S1600000x128, .f32⟩
  | .hbm, ⟨110, _⟩ => ⟨S_, .f32⟩
  | .hbm, ⟨111, _⟩ => ⟨S100000x128, .f32⟩
  | .hbm, ⟨112, _⟩ => ⟨S1600000x1, .i32⟩
  | .hbm, ⟨113, _⟩ => ⟨S100000x128, .f32⟩
  | .hbm, ⟨114, _⟩ => ⟨S_, .f32⟩
  | .hbm, ⟨115, _⟩ => ⟨S100000x128, .f32⟩
  | .hbm, ⟨116, _⟩ => ⟨S100000x128, .f32⟩
  | .hbm, ⟨117, _⟩ => ⟨S1x128x2, .f32⟩
  | .hbm, ⟨118, _⟩ => ⟨S128x2, .f32⟩
  | .hbm, ⟨119, _⟩ => ⟨S100000x2, .f32⟩
  | .hbm, ⟨120, _⟩ => ⟨S1x2, .f32⟩
  | .hbm, ⟨121, _⟩ => ⟨S2, .f32⟩
  | .hbm, ⟨122, _⟩ => ⟨S1x2, .f32⟩
  | .hbm, ⟨123, _⟩ => ⟨S100000x2, .f32⟩
  | .hbm, ⟨124, _⟩ => ⟨S100000x2, .f32⟩
  | .hbm, ⟨125, _⟩ => ⟨S100000x2, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_4 : Ref sig .tc := ⟨.hbm, 57, rfl⟩
abbrev main_v39 : Ref sig .tc := ⟨.hbm, 58, rfl⟩
abbrev main_v40 : Ref sig .tc := ⟨.hbm, 59, rfl⟩
abbrev main_c_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_6 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_call1_cst : Ref sig .tc := ⟨.hbm, 79, rfl⟩
abbrev main_call1_v0 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_7 : Ref sig .tc := ⟨.hbm, 92, rfl⟩
abbrev main_v69 : Ref sig .tc := ⟨.hbm, 93, rfl⟩
abbrev main_v70 : Ref sig .tc := ⟨.hbm, 94, rfl⟩
abbrev main_c_8 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_9 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_call2_cst : Ref sig .tc := ⟨.hbm, 114, rfl⟩
abbrev main_call2_v0 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩

abbrev nD : Nat := 1
abbrev τ : Topo := Topo.v7x

variable {F : FTy → Type} [FloatOps F]

class Facts₀ : Prop where
  bcast_S_S100000x2 : S_.BroadcastsInDim S100000x2 (![] : Fin 0 → Fin S100000x2.rank)
  bcast_S_S1 : S_.BroadcastsInDim S1 (![] : Fin 0 → Fin S1.rank)
  bcast_S_S100000 : S_.BroadcastsInDim S100000 (![] : Fin 0 → Fin S100000.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x2_S100000x128_S100000x130_d1 : Shape.Concatenates [S100000x2, S100000x128] S100000x130 1
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x130_S1600000x4_S1600000x134_d1 : Shape.Concatenates [S1600000x130, S1600000x4] S1600000x134 1
  slices_S3x134x128_S1x134x128_0_0_0 : S3x134x128.Slices ![0, 0, 0] S1x134x128
  shapeCasts_S1x134x128_S134x128 : S1x134x128.ShapeCasts S134x128
  slices_S3x128_S1x128_0_0 : S3x128.Slices ![0, 0] S1x128
  shapeCasts_S1x128_S128 : S1x128.ShapeCasts S128
  bcast_S1x128_S1600000x128_0_1 : S1x128.BroadcastsInDim S1600000x128 (![0, 1] : Fin 2 → Fin S1600000x128.rank)
  bcast_S_S100000x128 : S_.BroadcastsInDim S100000x128 (![] : Fin 0 → Fin S100000x128.rank)
  slices_S3x128x2_S1x128x2_0_0_0 : S3x128x2.Slices ![0, 0, 0] S1x128x2
  shapeCasts_S1x128x2_S128x2 : S1x128x2.ShapeCasts S128x2
  slices_S3x2_S1x2_0_0 : S3x2.Slices ![0, 0] S1x2
  shapeCasts_S1x2_S2 : S1x2.ShapeCasts S2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  slices_S3x134x128_S1x134x128_1_0_0 : S3x134x128.Slices ![1, 0, 0] S1x134x128
  slices_S3x128_S1x128_1_0 : S3x128.Slices ![1, 0] S1x128
  slices_S3x128x2_S1x128x2_1_0_0 : S3x128x2.Slices ![1, 0, 0] S1x128x2
  slices_S3x2_S1x2_1_0 : S3x2.Slices ![1, 0] S1x2
  slices_S3x134x128_S1x134x128_2_0_0 : S3x134x128.Slices ![2, 0, 0] S1x134x128
  slices_S3x128_S1x128_2_0 : S3x128.Slices ![2, 0] S1x128
  slices_S3x128x2_S1x128x2_2_0_0 : S3x128x2.Slices ![2, 0, 0] S1x128x2
  slices_S3x2_S1x2_2_0 : S3x2.Slices ![2, 0] S1x2
  scatter_S100000x2_S1_S100000_0_1_1_0_wf : ScatterDims.WF S100000x2 S1 S100000 [0] [1] [1] 0
  dot_S100000x2_S2x128_S100000x128_1_0_0_1_n_n_wf : DotDims.WF S100000x2 S2x128 S100000x128 [1] [0] [0] [1] [] []
  gather_S100000x130_S1600000x1_S1600000x130_1_0_n_n_0_1_1130_wf : GatherDims.WF S100000x130 S1600000x1 S1600000x130 [1] [0] [] [0] [] 1 ![1, 130]
  dot_S1600000x134_S134x128_S1600000x128_1_0_0_1_n_n_wf : DotDims.WF S1600000x134 S134x128 S1600000x128 [1] [0] [0] [1] [] []
  scatter_S100000x128_S1600000x1_S1600000x128_1_0_0_1_wf : ScatterDims.WF S100000x128 S1600000x1 S1600000x128 [1] [0] [0] 1
  dot_S100000x128_S128x2_S100000x2_1_0_0_1_n_n_wf : DotDims.WF S100000x128 S128x2 S100000x2 [1] [0] [0] [1] [] []

variable [Facts₀]

def scatter_S100000x2_S1_S100000_0_1_1_0 : ScatterDims S100000x2 S1 S100000 where
  updateWindowDims := [0]
  insertedWindowDims := [1]
  scatterDimsToOperandDims := [1]
  indexVectorDim := 0
  wf := scatter_S100000x2_S1_S100000_0_1_1_0_wf
def dot_S100000x2_S2x128_S100000x128_1_0_0_1_n_n : DotDims S100000x2 S2x128 S100000x128 where
  lhsContracting := [1]
  rhsContracting := [0]
  lhsNonContracting := [0]
  rhsNonContracting := [1]
  lhsBatch := []
  rhsBatch := []
  wf := dot_S100000x2_S2x128_S100000x128_1_0_0_1_n_n_wf
def gather_S100000x130_S1600000x1_S1600000x130_1_0_n_n_0_1_1130 : GatherDims S100000x130 S1600000x1 S1600000x130 where
  offsetDims := [1]
  collapsedSliceDims := [0]
  operandBatchingDims := []
  startIndicesBatchingDims := []
  startIndexMap := [0]
  indexVectorDim := 1
  sliceSizes := ![1, 130]
  wf := gather_S100000x130_S1600000x1_S1600000x130_1_0_n_n_0_1_1130_wf
def dot_S1600000x134_S134x128_S1600000x128_1_0_0_1_n_n : DotDims S1600000x134 S134x128 S1600000x128 where
  lhsContracting := [1]
  rhsContracting := [0]
  lhsNonContracting := [0]
  rhsNonContracting := [1]
  lhsBatch := []
  rhsBatch := []
  wf := dot_S1600000x134_S134x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.Layers.lean ====
/-
  One round of message passing on a graph of 100000 nodes and 1600000 edges, as both programs compute it on the host,
  written as functions of the arrays involved. A node carries its two voltage components `v` and 128 hidden features `h`;
  `nodeIn v h` is the row `[v | h]` of 130 entries. An edge `e` reads the row of its sender node, `rowIdx s` being
  the sender index with a negative index counted from the end; `msgOf` is the edge's message, the row
  `[nodeIn[sender e] | edge features e]` of 134 entries times the layer's 134 x 128 weight matrix, plus the layer's
  bias. `hid` sums the messages of the edges arriving at each node and clips the sum at zero from below; `vStep` adds
  the hidden features times the layer's 128 x 2 read-out matrix, plus its bias, to the voltages. Three rounds, with
  the three layers' weights, give the result `net`.
-/
import proofs.«402375_j12678743458344_1_alg».proof.Proof.Gen.ReferenceIdeal

noncomputable section

namespace Cert.Layers

open Cert.ReferenceIdeal Cert.ReferenceIdeal.Gen Idealize.ShloMosaic Idealize.ShloMosaic.TcCoe

variable {F : FTy → Type} [FloatOps F]

/-- The first voltages: component 0 is one, component 1 is zero, at every node. -/
def v0 : FVec F S100000x2 .f32 :=
  Host.scatter scatter_S100000x2_S1_S100000_0_1_1_0 (fun _ b => b) (broadcastInDim S100000x2 ![] bcast_S_S100000x2 (constant S_ .f32 0x00000000#32)) (broadcastInDim S1 ![] bcast_S_S1 (constantI S_ 32 0#32)) (broadcastInDim S100000 ![] bcast_S_S100000 (constant S_ .f32 0x3F800000#32))

/-- The first hidden features: the injections times the input matrix, plus the input bias. -/
def h0 (p : FVec F S100000x2 .f32) (win : FVec F S2x128 .f32) (bin : FVec F S128 .f32) : FVec F S100000x128 .f32 :=
  addf (Host.dotGeneral dot_S100000x2_S2x128_S100000x128_1_0_0_1_n_n none p win) (broadcastInDim S100000x128 ![0, 1] bcast_S1x128_S100000x128_0_1 (broadcastInDim S1x128 ![1] bcast_S128_S1x128_1 bin))

/-- A node's row: its voltages, then its hidden features. -/
def nodeIn (v : FVec F S100000x2 .f32) (h : FVec F S100000x128 .f32) : FVec F S100000x130 .f32 :=
  concatenate S100000x130 1 [⟨S100000x2, v⟩, ⟨S100000x128, h⟩] concatenates_S100000x2_S100000x128_S100000x130_d1

/-- The sender index of each edge as a row index: a negative index has the number of nodes added. -/
def rowIdx (s : IVec S1600000 32) : IVec S1600000x1 32 :=
  broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)

/-- The row of each edge's sender node. -/
def senderRows (ni : FVec F S100000x130 .f32) (s : IVec S1600000 32) : FVec F S1600000x130 .f32 :=
  Host.gather gather_S100000x130_S1600000x1_S1600000x130_1_0_n_n_0_1_1130 ni (rowIdx s)

/-- The messages from the sender rows `g`: `[g | edge features]` times the layer's weights, plus its bias. -/
def msgOfRows (g : FVec F S1600000x130 .f32) (ef : FVec F S1600000x4 .f32) (wl : FVec F S134x128 .f32) (bl : FVec F S128 .f32) : FVec F S1600000x128 .f32 :=
  addf (Host.dotGeneral dot_S1600000x134_S134x128_S1600000x128_1_0_0_1_n_n none (concatenate S1600000x134 1 [⟨S1600000x130, g⟩, ⟨S1600000x4, ef⟩] concatenates_S1600000x130_S1600000x4_S1600000x134_d1) wl) (broadcastInDim S1600000x128 ![0, 1] bcast_S1x128_S1600000x128_0_1 (broadcastInDim S1x128 ![1] bcast_S128_S1x128_1 bl))

/-- The messages of a layer. -/
def msgOf (ni : FVec F S100000x130 .f32) (s : IVec S1600000 32) (ef : FVec F S1600000x4 .f32) (wl : FVec F S134x128 .f32) (bl : FVec F S128 .f32) : FVec F S1600000x128 .f32 :=
  msgOfRows (senderRows ni s) ef wl bl

/-- The new hidden features: each node's incoming messages summed, clipped at zero from below. -/
def hid (r : IVec S1600000 32) (msg : FVec F S1600000x128 .f32) : FVec F S100000x128 .f32 :=
  maximumf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 r) msg) (broadcastInDim S100000x128 ![] bcast_S_S100000x128 (constant S_ .f32 0x00000000#32))

/-- The new voltages: the old ones plus the hidden features times the read-out matrix, plus its bias. -/
def vStep (v : FVec F S100000x2 .f32) (h : FVec F S100000x128 .f32) (wo : FVec F S128x2 .f32) (bo : FVec F S2 .f32) : FVec F S100000x2 .f32 :=
  addf v (addf (Host.dotGeneral dot_S100000x128_S128x2_S100000x2_1_0_0_1_n_n none h wo) (broadcastInDim S100000x2 ![0, 1] bcast_S1x2_S100000x2_0_1 (broadcastInDim S1x2 ![1] bcast_S2_S1x2_1 bo)))

/-! ## The three layers' weights, cut out of the stacked arrays -/

def wMsg0 (w : FVec F S3x134x128 .f32) : FVec F S134x128 .f32 := shapeCast _ (extractStridedSlice S1x134x128 ![0, 0, 0] w slices_S3x134x128_S1x134x128_0_0_0) shapeCasts_S1x134x128_S134x128
def wMsg1 (w : FVec F S3x134x128 .f32) : FVec F S134x128 .f32 := shapeCast _ (extractStridedSlice S1x134x128 ![1, 0, 0] w slices_S3x134x128_S1x134x128_1_0_0) shapeCasts_S1x134x128_S134x128
def wMsg2 (w : FVec F S3x134x128 .f32) : FVec F S134x128 .f32 := shapeCast _ (extractStridedSlice S1x134x128 ![2, 0, 0] w slices_S3x134x128_S1x134x128_2_0_0) shapeCasts_S1x134x128_S134x128
def bMsg0 (b : FVec F S3x128 .f32) : FVec F S128 .f32 := shapeCast _ (extractStridedSlice S1x128 ![0, 0] b slices_S3x128_S1x128_0_0) shapeCasts_S1x128_S128
def bMsg1 (b : FVec F S3x128 .f32) : FVec F S128 .f32 := shapeCast _ (extractStridedSlice S1x128 ![1, 0] b slices_S3x128_S1x128_1_0) shapeCasts_S1x128_S128
def bMsg2 (b : FVec F S3x128 .f32) : FVec F S128 .f32 := shapeCast _ (extractStridedSlice S1x128 ![2, 0] b slices_S3x128_S1x128_2_0) shapeCasts_S1x128_S128
def wOut0 (w : FVec F S3x128x2 .f32) : FVec F S128x2 .f32 := shapeCast _ (extractStridedSlice S1x128x2 ![0, 0, 0] w slices_S3x128x2_S1x128x2_0_0_0) shapeCasts_S1x128x2_S128x2
def wOut1 (w : FVec F S3x128x2 .f32) : FVec F S128x2 .f32 := shapeCast _ (extractStridedSlice S1x128x2 ![1, 0, 0] w slices_S3x128x2_S1x128x2_1_0_0) shapeCasts_S1x128x2_S128x2
def wOut2 (w : FVec F S3x128x2 .f32) : FVec F S128x2 .f32 := shapeCast _ (extractStridedSlice S1x128x2 ![2, 0, 0] w slices_S3x128x2_S1x128x2_2_0_0) shapeCasts_S1x128x2_S128x2
def bOut0 (b : FVec F S3x2 .f32) : FVec F S2 .f32 := shapeCast _ (extractStridedSlice S1x2 ![0, 0] b slices_S3x2_S1x2_0_0) shapeCasts_S1x2_S2
def bOut1 (b : FVec F S3x2 .f32) : FVec F S2 .f32 := shapeCast _ (extractStridedSlice S1x2 ![1, 0] b slices_S3x2_S1x2_1_0) shapeCasts_S1x2_S2
def bOut2 (b : FVec F S3x2 .f32) : FVec F S2 .f32 := shapeCast _ (extractStridedSlice S1x2 ![2, 0] b slices_S3x2_S1x2_2_0) shapeCasts_S1x2_S2

/-! ## The three rounds -/

section Net
variable (p : FVec F S100000x2 .f32) (s r : IVec S1600000 32) (ef : FVec F S1600000x4 .f32) (win : FVec F S2x128 .f32) (bin : FVec F S128 .f32)
  (wm : FVec F S3x134x128 .f32) (bm : FVec F S3x128 .f32) (wo : FVec F S3x128x2 .f32) (bo : FVec F S3x2 .f32)

def msg1 : FVec F S1600000x128 .f32 := msgOf (nodeIn v0 (h0 p win bin)) s ef (wMsg0 wm) (bMsg0 bm)
def h1 : FVec F S100000x128 .f32 := hid r (msg1 p s ef win bin wm bm)
def v1 : FVec F S100000x2 .f32 := vStep v0 (h1 p s r ef win bin wm bm) (wOut0 wo) (bOut0 bo)
def msg2 : FVec F S1600000x128 .f32 := msgOf (nodeIn (v1 p s r ef win bin wm bm wo bo) (h1 p s r ef win bin wm bm)) s ef (wMsg1 wm) (bMsg1 bm)
def h2 : FVec F S100000x128 .f32 := hid r (msg2 p s r ef win bin wm bm wo bo)
def v2 : FVec F S100000x2 .f32 := vStep (v1 p s r ef win bin wm bm wo bo) (h2 p s r ef win bin wm bm wo bo) (wOut1 wo) (bOut1 bo)
def msg3 : FVec F S1600000x128 .f32 := msgOf (nodeIn (v2 p s r ef win bin wm bm wo bo) (h2 p s r ef win bin wm bm wo bo)) s ef (wMsg2 wm) (bMsg2 bm)
def h3 : FVec F S100000x128 .f32 := hid r (msg3 p s r ef win bin wm bm wo bo)
/-- The voltages after three rounds. -/
def net : FVec F S100000x2 .f32 := vStep (v2 p s r ef win bin wm bm wo bo) (h3 p s r ef win bin wm bm wo bo) (wOut2 wo) (bOut2 bo)
end Net

end Cert.Layers

end
-- ==== Proof.FoldTac.lean ====
/-
  Reading a buffer after a stretch of host operations: the tactics the fold lemmas share, and the one fact about
  typed references they need — contents moved to a reference's own buffer type and back are unchanged.
-/
import proofs.«402375_j12678743458344_1_alg».proof.Proof.Gen.KernelIdeal.Launch
import Idealize.ShloMosaic.Lib.StableHlo.Run

noncomputable section

namespace Cert.KernelIdeal.Fold

open Idealize.ShloMosaic Idealize.ShloMosaic.TcCoe Idealize.SL.Sem Idealize.ShloMosaic.StableHlo

/-- Contents moved to a typed reference's own buffer type and back are unchanged. -/
theorem ofBuf_toBuf {sig : RefSig} {Val : EltTy → Type} {T : BufTy} (x : TRef sig T) (v : T.Contents Val) : x.ofBuf (x.toBuf v) = v := by
  obtain ⟨r, h, h1, h2⟩ := x
  subst h
  rfl

/-- Each operation's result at its own buffer, and at any other buffer what was there: the rewriting loop, for
    what a simplifier pass leaves inside a concatenate's list of operands. -/
macro "results_rw" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

/-- Read a buffer after a stretch: unfold the operations' results; drop the typed references' moves, first the
    there-and-back pairs, then the few single ones at the ends; compare. -/
macro "fold_val" : tactic =>
  `(tactic| (after_results_simp; results_rw; (try simp only [ofBuf_toBuf]); (try simp only [TRef.ofBuf, TRef.toBuf, cast_eq]);
             first | done | rfl))

end Cert.KernelIdeal.Fold

end
-- ==== Proof.RefFold.lean ====
/-
  The reference program's run, stretch by stretch. Its 116 host operations fall into a prelude (the first node rows)
  and, for each of the three layers, a message stretch (the row index of each edge's sender, the fetch of the sender
  rows, the row `[sender row | edge features]` times the layer's weights, plus its bias) and a node stretch (the sum
  of the messages into the receiving nodes, the clip at zero, the voltage step, the next node rows). Each lemma says what
  one buffer holds after a stretch, from whatever the buffers held when it was entered; the stretches in order are the
  program's operation list, so chaining the lemmas gives the result buffer after the whole list: three rounds of
  message passing on the arguments.
-/
import proofs.«402375_j12678743458344_1_alg».proof.Proof.RefOps
import proofs.«402375_j12678743458344_1_alg».proof.Proof.Layers
import proofs.«402375_j12678743458344_1_alg».proof.Proof.FoldTac
import Idealize.ShloMosaic.Lib.Pipeline.Frame

set_option maxRecDepth 16384
set_option Elab.async false

noncomputable section

namespace Cert.ReferenceIdeal.RefFold

open Cert.ReferenceIdeal Cert.ReferenceIdeal.Gen Cert.ReferenceIdeal.ValueP Cert.Layers Cert.KernelIdeal.Fold
open Idealize.ShloMosaic Idealize.ShloMosaic.TcCoe Idealize.SL.Sem Idealize.ShloMosaic.StableHlo

variable {F : FTy → Type} [FloatOps F]

/-! ## The stretches: the program's operations, in order -/

abbrev cP : List (HloOp τ sig (Elt F)) :=
  [ nullary main_cst (constant S_ .f32 0x00000000#32),
    unary main_cst main_v0 (broadcastInDim S100000x2 ![] bcast_S_S100000x2 : (⟨S_, .f32⟩ : BufTy).Contents (Elt F) → (⟨S100000x2, .f32⟩ : BufTy).Contents (Elt F)),
    nullary main_c (constantI S_ 32 0#32),
    unary main_c main_v1 (broadcastInDim S1 ![] bcast_S_S1 : (⟨S_, .i32⟩ : BufTy).Contents (Elt F) → (⟨S1, .i32⟩ : BufTy).Contents (Elt F)),
    nullary main_cst_0 (constant S_ .f32 0x3F800000#32),
    unary main_cst_0 main_v2 (broadcastInDim S100000 ![] bcast_S_S100000 : (⟨S_, .f32⟩ : BufTy).Contents (Elt F) → (⟨S100000, .f32⟩ : BufTy).Contents (Elt F)),
    ternary main_v0 main_v1 main_v2 main_v3 ((fun x i u => Host.scatter scatter_S100000x2_S1_S100000_0_1_1_0 (fun _ b => b) x i u) : (⟨S100000x2, .f32⟩ : BufTy).Contents (Elt F) → (⟨S1, .i32⟩ : BufTy).Contents (Elt F) → (⟨S100000, .f32⟩ : BufTy).Contents (Elt F) → (⟨S100000x2, .f32⟩ : BufTy).Contents (Elt F)),
    binary main_arg0 main_arg4 main_v4 ((fun l r => Host.dotGeneral dot_S100000x2_S2x128_S100000x128_1_0_0_1_n_n none l r) : (⟨S100000x2, .f32⟩ : BufTy).Contents (Elt F) → (⟨S2x128, .f32⟩ : BufTy).Contents (Elt F) → (⟨S100000x128, .f32⟩ : BufTy).Contents (Elt F)),
    unary main_arg5 main_v5 (broadcastInDim S1x128 ![1] bcast_S128_S1x128_1 : (⟨S128, .f32⟩ : BufTy).Contents (Elt F) → (⟨S1x128, .f32⟩ : BufTy).Contents (Elt F)),
    unary main_v5 main_v6 (broadcastInDim S100000x128 ![0, 1] bcast_S1x128_S100000x128_0_1 : (⟨S1x128, .f32⟩ : BufTy).Contents (Elt F) → (⟨S100000x128, .f32⟩ : BufTy).Contents (Elt F)),
    binary main_v4 main_v6 main_v7 (addf : (⟨S100000x128, .f32⟩ : BufTy).Contents (Elt F) → (⟨S100000x128, .f32⟩ : BufTy).Contents (Elt F) → (⟨S100000x128, .f32⟩ : BufTy).Contents (Elt F)),
    binary main_v3 main_v7 main_v8 ((fun a b => concatenate S100000x130 1 [⟨S100000x2, a⟩, ⟨S100000x128, b⟩] concatenates_S100000x2_S100000x128_S100000x130_d1) : (⟨S100000x2, .f32⟩ : BufTy).Contents (Elt F) → (⟨S100000x128, .f32⟩ : BufTy).Contents (Elt F) → (⟨S100000x130, .f32⟩ : BufTy).Contents (Elt F)) ]

abbrev cA0 : List (HloOp τ sig (Elt F)) :=
  [ nullary main_c_1 (constantI S_ 32 0#32),
    unary main_c_1 main_v9 (broadcastInDim S1600000 ![] bcast_S_S1600000 : (⟨S_, .i32⟩ : BufTy).Contents (Elt F) → (⟨S1600000, .i32⟩ : BufTy).Contents (Elt F)),
    binary main_arg1 main_v9 main_v10 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v11 (broadcastInDim S1600000 ![] bcast_S_S1600000 : (⟨S_, .i32⟩ : BufTy).Contents (Elt F) → (⟨S1600000, .i32⟩ : BufTy).Contents (Elt F)),
    binary main_arg1 main_v11 main_v12 (addi : (⟨S1600000, .i32⟩ : BufTy).Contents (Elt F) → (⟨S1600000, .i32⟩ : BufTy).Contents (Elt F) → (⟨S1600000, .i32⟩ : BufTy).Contents (Elt F)),
    ternary main_v10 main_v12 main_arg1 main_v13 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v13 main_v14 (broadcastInDim S1600000x1 ![0] bcast_S1600000_S1600000x1_0 : (⟨S1600000, .i32⟩ : BufTy).Contents (Elt F) → (⟨S1600000x1, .i32⟩ : BufTy).Contents (Elt F)),
    binary main_v8 main_v14 main_v15 ((fun x i => Host.gather gather_S100000x130_S1600000x1_S1600000x130_1_0_n_n_0_1_1130 x i) : (⟨S100000x130, .f32⟩ : BufTy).Contents (Elt F) → (⟨S1600000x1, .i32⟩ : BufTy).Contents (Elt F) → (⟨S1600000x130, .f32⟩ : BufTy).Contents (Elt F)),
    binary main_v15 main_arg3 main_v16 ((fun a b => concatenate S1600000x134 1 [⟨S1600000x130, a⟩, ⟨S1600000x4, b⟩] concatenates_S1600000x130_S1600000x4_S1600000x134_d1) : (⟨S1600000x130, .f32⟩ : BufTy).Contents (Elt F) → (⟨S1600000x4, .f32⟩ : BufTy).Contents (Elt F) → (⟨S1600000x134, .f32⟩ : BufTy).Contents (Elt F)),
    unary main_arg6 main_v17 ((extractStridedSlice S1x134x128 ![0, 0, 0] · slices_S3x134x128_S1x134x128_0_0_0) : (⟨S3x134x128, .f32⟩ : BufTy).Contents (Elt F) → (⟨S1x134x128, .f32⟩ : BufTy).Contents (Elt F)),
    reshape main_v17 main_v18 rfl shapeCasts_S1x134x128_S134x128,
    binary main_v16 main_v18 main_v19 ((fun l r => Host.dotGeneral dot_S1600000x134_S134x128_S1600000x128_1_0_0_1_n_n none l r) : (⟨S1600000x134, .f32⟩ : BufTy).Contents (Elt F) → (⟨S134x128, .f32⟩ : BufTy).Contents (Elt F) → (⟨S1600000x128, .f32⟩ : BufTy).Contents (Elt F)),
    unary main_arg7 main_v20 ((extractStridedSlice S1x128 ![0, 0] · slices_S3x128_S1x128_0_0) : (⟨S3x128, .f32⟩ : BufTy).Contents (Elt F) → (⟨S1x128, .f32⟩ : BufTy).Contents (Elt F)),
    reshape main_v20 main_v21 rfl shapeCasts_S1x128_S128,
    unary main_v21 main_v22 (broadcastInDim S1x128 ![1] bcast_S128_S1x128_1 : (⟨S128, .f32⟩ : BufTy).Contents (Elt F) → (⟨S1x128, .f32⟩ : BufTy).Contents (Elt F)),
    unary main_v22 main_v23 (broadcastInDim S1600000x128 ![0, 1] bcast_S1x128_S1600000x128_0_1 : (⟨S1x128, .f32⟩ : BufTy).Contents (Elt F) → (⟨S1600000x128, .f32⟩ : BufTy).Contents (Elt F)),
    binary main_v19 main_v23 main_v24 (addf : (⟨S1600000x128, .f32⟩ : BufTy).Contents (Elt F) → (⟨S1600000x128, .f32⟩ : BufTy).Contents (Elt F) → (⟨S1600000x128, .f32⟩ : BufTy).Contents (Elt F)) ]

abbrev cB0 : List (HloOp τ sig (Elt F)) :=
  [ nullary main_cst_3 (constant S_ .f32 0x00000000#32),
    unary main_cst_3 main_v25 (broadcastInDim S100000x128 ![] bcast_S_S100000x128 : (⟨S_, .f32⟩ : BufTy).Contents (Elt F) → (⟨S100000x128, .f32⟩ : BufTy).Contents (Elt F)),
    unary main_arg2 main_v26 (broadcastInDim S1600000x1 ![0] bcast_S1600000_S1600000x1_0 : (⟨S1600000, .i32⟩ : BufTy).Contents (Elt F) → (⟨S1600000x1, .i32⟩ : BufTy).Contents (Elt F)),
    ternary main_v25 main_v26 main_v24 main_v27 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v27) (TRef.of (T := ⟨S100000x128, .f32⟩) main_call0_v0) (TRef.of (T := ⟨S100000x128, .f32⟩) main_v28) maximumf,
    unary main_arg8 main_v29 ((extractStridedSlice S1x128x2 ![0, 0, 0] · slices_S3x128x2_S1x128x2_0_0_0) : (⟨S3x128x2, .f32⟩ : BufTy).Contents (Elt F) → (⟨S1x128x2, .f32⟩ : BufTy).Contents (Elt F)),
    reshape main_v29 main_v30 rfl shapeCasts_S1x128x2_S128x2,
    binary main_v28 main_v30 main_v31 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    unary main_arg9 main_v32 ((extractStridedSlice S1x2 ![0, 0] · slices_S3x2_S1x2_0_0) : (⟨S3x2, .f32⟩ : BufTy).Contents (Elt F) → (⟨S1x2, .f32⟩ : BufTy).Contents (Elt F)),
    reshape main_v32 main_v33 rfl shapeCasts_S1x2_S2,
    unary main_v33 main_v34 (broadcastInDim S1x2 ![1] bcast_S2_S1x2_1 : (⟨S2, .f32⟩ : BufTy).Contents (Elt F) → (⟨S1x2, .f32⟩ : BufTy).Contents (Elt F)),
    unary main_v34 main_v35 (broadcastInDim S100000x2 ![0, 1] bcast_S1x2_S100000x2_0_1 : (⟨S1x2, .f32⟩ : BufTy).Contents (Elt F) → (⟨S100000x2, .f32⟩ : BufTy).Contents (Elt F)),
    binary main_v31 main_v35 main_v36 (addf : (⟨S100000x2, .f32⟩ : BufTy).Contents (Elt F) → (⟨S100000x2, .f32⟩ : BufTy).Contents (Elt F) → (⟨S100000x2, .f32⟩ : BufTy).Contents (Elt F)),
    binary main_v3 main_v36 main_v37 (addf : (⟨S100000x2, .f32⟩ : BufTy).Contents (Elt F) → (⟨S100000x2, .f32⟩ : BufTy).Contents (Elt F) → (⟨S100000x2, .f32⟩ : BufTy).Contents (Elt F)),
    binary main_v37 main_v28 main_v38 ((fun a b => concatenate S100000x130 1 [⟨S100000x2, a⟩, ⟨S100000x128, b⟩] concatenates_S100000x2_S100000x128_S100000x130_d1) : (⟨S100000x2, .f32⟩ : BufTy).Contents (Elt F) → (⟨S100000x128, .f32⟩ : BufTy).Contents (Elt F) → (⟨S100000x130, .f32⟩ : BufTy).Contents (Elt F)) ]

abbrev cA1 : List (HloOp τ sig (Elt F)) :=
  [ nullary main_c_4 (constantI S_ 32 0#32),
    unary main_c_4 main_v39 (broadcastInDim S1600000 ![] bcast_S_S1600000 : (⟨S_, .i32⟩ : BufTy).Contents (Elt F) → (⟨S1600000, .i32⟩ : BufTy).Contents (Elt F)),
    binary main_arg1 main_v39 main_v40 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v41 (broadcastInDim S1600000 ![] bcast_S_S1600000 : (⟨S_, .i32⟩ : BufTy).Contents (Elt F) → (⟨S1600000, .i32⟩ : BufTy).Contents (Elt F)),
    binary main_arg1 main_v41 main_v42 (addi : (⟨S1600000, .i32⟩ : BufTy).Contents (Elt F) → (⟨S1600000, .i32⟩ : BufTy).Contents (Elt F) → (⟨S1600000, .i32⟩ : BufTy).Contents (Elt F)),
    ternary main_v40 main_v42 main_arg1 main_v43 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v43 main_v44 (broadcastInDim S1600000x1 ![0] bcast_S1600000_S1600000x1_0 : (⟨S1600000, .i32⟩ : BufTy).Contents (Elt F) → (⟨S1600000x1, .i32⟩ : BufTy).Contents (Elt F)),
    binary main_v38 main_v44 main_v45 ((fun x i => Host.gather gather_S100000x130_S1600000x1_S1600000x130_1_0_n_n_0_1_1130 x i) : (⟨S100000x130, .f32⟩ : BufTy).Contents (Elt F) → (⟨S1600000x1, .i32⟩ : BufTy).Contents (Elt F) → (⟨S1600000x130, .f32⟩ : BufTy).Contents (Elt F)),
    binary main_v45 main_arg3 main_v46 ((fun a b => concatenate S1600000x134 1 [⟨S1600000x130, a⟩, ⟨S1600000x4, b⟩] concatenates_S1600000x130_S1600000x4_S1600000x134_d1) : (⟨S1600000x130, .f32⟩ : BufTy).Contents (Elt F) → (⟨S1600000x4, .f32⟩ : BufTy).Contents (Elt F) → (⟨S1600000x134, .f32⟩ : BufTy).Contents (Elt F)),
    unary main_arg6 main_v47 ((extractStridedSlice S1x134x128 ![1, 0, 0] · slices_S3x134x128_S1x134x128_1_0_0) : (⟨S3x134x128, .f32⟩ : BufTy).Contents (Elt F) → (⟨S1x134x128, .f32⟩ : BufTy).Contents (Elt F)),
    reshape main_v47 main_v48 rfl shapeCasts_S1x134x128_S134x128,
    binary main_v46 main_v48 main_v49 ((fun l r => Host.dotGeneral dot_S1600000x134_S134x128_S1600000x128_1_0_0_1_n_n none l r) : (⟨S1600000x134, .f32⟩ : BufTy).Contents (Elt F) → (⟨S134x128, .f32⟩ : BufTy).Contents (Elt F) → (⟨S1600000x128, .f32⟩ : BufTy).Contents (Elt F)),
    unary main_arg7 main_v50 ((extractStridedSlice S1x128 ![1, 0] · slices_S3x128_S1x128_1_0) : (⟨S3x128, .f32⟩ : BufTy).Contents (Elt F) → (⟨S1x128, .f32⟩ : BufTy).Contents (Elt F)),
    reshape main_v50 main_v51 rfl shapeCasts_S1x128_S128,
    unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S1600000x128 ![0, 1] bcast_S1x128_S1600000x128_0_1 : (⟨S1x128, .f32⟩ : BufTy).Contents (Elt F) → (⟨S1600000x128, .f32⟩ : BufTy).Contents (Elt F)),
    binary main_v49 main_v53 main_v54 (addf : (⟨S1600000x128, .f32⟩ : BufTy).Contents (Elt F) → (⟨S1600000x128, .f32⟩ : BufTy).Contents (Elt F) → (⟨S1600000x128, .f32⟩ : BufTy).Contents (Elt F)) ]

abbrev cB1 : List (HloOp τ sig (Elt F)) :=
  [ nullary main_cst_6 (constant S_ .f32 0x00000000#32),
    unary main_cst_6 main_v55 (broadcastInDim S100000x128 ![] bcast_S_S100000x128 : (⟨S_, .f32⟩ : BufTy).Contents (Elt F) → (⟨S100000x128, .f32⟩ : BufTy).Contents (Elt F)),
    unary main_arg2 main_v56 (broadcastInDim S1600000x1 ![0] bcast_S1600000_S1600000x1_0 : (⟨S1600000, .i32⟩ : BufTy).Contents (Elt F) → (⟨S1600000x1, .i32⟩ : BufTy).Contents (Elt F)),
    ternary main_v55 main_v56 main_v54 main_v57 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v57) (TRef.of (T := ⟨S100000x128, .f32⟩) main_call1_v0) (TRef.of (T := ⟨S100000x128, .f32⟩) main_v58) maximumf,
    unary main_arg8 main_v59 ((extractStridedSlice S1x128x2 ![1, 0, 0] · slices_S3x128x2_S1x128x2_1_0_0) : (⟨S3x128x2, .f32⟩ : BufTy).Contents (Elt F) → (⟨S1x128x2, .f32⟩ : BufTy).Contents (Elt F)),
    reshape main_v59 main_v60 rfl shapeCasts_S1x128x2_S128x2,
    binary main_v58 main_v60 main_v61 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    unary main_arg9 main_v62 ((extractStridedSlice S1x2 ![1, 0] · slices_S3x2_S1x2_1_0) : (⟨S3x2, .f32⟩ : BufTy).Contents (Elt F) → (⟨S1x2, .f32⟩ : BufTy).Contents (Elt F)),
    reshape main_v62 main_v63 rfl shapeCasts_S1x2_S2,
    unary main_v63 main_v64 (broadcastInDim S1x2 ![1] bcast_S2_S1x2_1 : (⟨S2, .f32⟩ : BufTy).Contents (Elt F) → (⟨S1x2, .f32⟩ : BufTy).Contents (Elt F)),
    unary main_v64 main_v65 (broadcastInDim S100000x2 ![0, 1] bcast_S1x2_S100000x2_0_1 : (⟨S1x2, .f32⟩ : BufTy).Contents (Elt F) → (⟨S100000x2, .f32⟩ : BufTy).Contents (Elt F)),
    binary main_v61 main_v65 main_v66 (addf : (⟨S100000x2, .f32⟩ : BufTy).Contents (Elt F) → (⟨S100000x2, .f32⟩ : BufTy).Contents (Elt F) → (⟨S100000x2, .f32⟩ : BufTy).Contents (Elt F)),
    binary main_v37 main_v66 main_v67 (addf : (⟨S100000x2, .f32⟩ : BufTy).Contents (Elt F) → (⟨S100000x2, .f32⟩ : BufTy).Contents (Elt F) → (⟨S100000x2, .f32⟩ : BufTy).Contents (Elt F)),
    binary main_v67 main_v58 main_v68 ((fun a b => concatenate S100000x130 1 [⟨S100000x2, a⟩, ⟨S100000x128, b⟩] concatenates_S100000x2_S100000x128_S100000x130_d1) : (⟨S100000x2, .f32⟩ : BufTy).Contents (Elt F) → (⟨S100000x128, .f32⟩ : BufTy).Contents (Elt F) → (⟨S100000x130, .f32⟩ : BufTy).Contents (Elt F)) ]

abbrev cA2 : List (HloOp τ sig (Elt F)) :=
  [ nullary main_c_7 (constantI S_ 32 0#32),
    unary main_c_7 main_v69 (broadcastInDim S1600000 ![] bcast_S_S1600000 : (⟨S_, .i32⟩ : BufTy).Contents (Elt F) → (⟨S1600000, .i32⟩ : BufTy).Contents (Elt F)),
    binary main_arg1 main_v69 main_v70 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v71 (broadcastInDim S1600000 ![] bcast_S_S1600000 : (⟨S_, .i32⟩ : BufTy).Contents (Elt F) → (⟨S1600000, .i32⟩ : BufTy).Contents (Elt F)),
    binary main_arg1 main_v71 main_v72 (addi : (⟨S1600000, .i32⟩ : BufTy).Contents (Elt F) → (⟨S1600000, .i32⟩ : BufTy).Contents (Elt F) → (⟨S1600000, .i32⟩ : BufTy).Contents (Elt F)),
    ternary main_v70 main_v72 main_arg1 main_v73 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v73 main_v74 (broadcastInDim S1600000x1 ![0] bcast_S1600000_S1600000x1_0 : (⟨S1600000, .i32⟩ : BufTy).Contents (Elt F) → (⟨S1600000x1, .i32⟩ : BufTy).Contents (Elt F)),
    binary main_v68 main_v74 main_v75 ((fun x i => Host.gather gather_S100000x130_S1600000x1_S1600000x130_1_0_n_n_0_1_1130 x i) : (⟨S100000x130, .f32⟩ : BufTy).Contents (Elt F) → (⟨S1600000x1, .i32⟩ : BufTy).Contents (Elt F) → (⟨S1600000x130, .f32⟩ : BufTy).Contents (Elt F)),
    binary main_v75 main_arg3 main_v76 ((fun a b => concatenate S1600000x134 1 [⟨S1600000x130, a⟩, ⟨S1600000x4, b⟩] concatenates_S1600000x130_S1600000x4_S1600000x134_d1) : (⟨S1600000x130, .f32⟩ : BufTy).Contents (Elt F) → (⟨S1600000x4, .f32⟩ : BufTy).Contents (Elt F) → (⟨S1600000x134, .f32⟩ : BufTy).Contents (Elt F)),
    unary main_arg6 main_v77 ((extractStridedSlice S1x134x128 ![2, 0, 0] · slices_S3x134x128_S1x134x128_2_0_0) : (⟨S3x134x128, .f32⟩ : BufTy).Contents (Elt F) → (⟨S1x134x128, .f32⟩ : BufTy).Contents (Elt F)),
    reshape main_v77 main_v78 rfl shapeCasts_S1x134x128_S134x128,
    binary main_v76 main_v78 main_v79 ((fun l r => Host.dotGeneral dot_S1600000x134_S134x128_S1600000x128_1_0_0_1_n_n none l r) : (⟨S1600000x134, .f32⟩ : BufTy).Contents (Elt F) → (⟨S134x128, .f32⟩ : BufTy).Contents (Elt F) → (⟨S1600000x128, .f32⟩ : BufTy).Contents (Elt F)),
    unary main_arg7 main_v80 ((extractStridedSlice S1x128 ![2, 0] · slices_S3x128_S1x128_2_0) : (⟨S3x128, .f32⟩ : BufTy).Contents (Elt F) → (⟨S1x128, .f32⟩ : BufTy).Contents (Elt F)),
    reshape main_v80 main_v81 rfl shapeCasts_S1x128_S128,
    unary main_v81 main_v82 (broadcastInDim S1x128 ![1] bcast_S128_S1x128_1 : (⟨S128, .f32⟩ : BufTy).Contents (Elt F) → (⟨S1x128, .f32⟩ : BufTy).Contents (Elt F)),
    unary main_v82 main_v83 (broadcastInDim S1600000x128 ![0, 1] bcast_S1x128_S1600000x128_0_1 : (⟨S1x128, .f32⟩ : BufTy).Contents (Elt F) → (⟨S1600000x128, .f32⟩ : BufTy).Contents (Elt F)),
    binary main_v79 main_v83 main_v84 (addf : (⟨S1600000x128, .f32⟩ : BufTy).Contents (Elt F) → (⟨S1600000x128, .f32⟩ : BufTy).Contents (Elt F) → (⟨S1600000x128, .f32⟩ : BufTy).Contents (Elt F)) ]

abbrev cB2 : List (HloOp τ sig (Elt F)) :=
  [ nullary main_cst_9 (constant S_ .f32 0x00000000#32),
    unary main_cst_9 main_v85 (broadcastInDim S100000x128 ![] bcast_S_S100000x128 : (⟨S_, .f32⟩ : BufTy).Contents (Elt F) → (⟨S100000x128, .f32⟩ : BufTy).Contents (Elt F)),
    unary main_arg2 main_v86 (broadcastInDim S1600000x1 ![0] bcast_S1600000_S1600000x1_0 : (⟨S1600000, .i32⟩ : BufTy).Contents (Elt F) → (⟨S1600000x1, .i32⟩ : BufTy).Contents (Elt F)),
    ternary main_v85 main_v86 main_v84 main_v87 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v87) (TRef.of (T := ⟨S100000x128, .f32⟩) main_call2_v0) (TRef.of (T := ⟨S100000x128, .f32⟩) main_v88) maximumf,
    unary main_arg8 main_v89 ((extractStridedSlice S1x128x2 ![2, 0, 0] · slices_S3x128x2_S1x128x2_2_0_0) : (⟨S3x128x2, .f32⟩ : BufTy).Contents (Elt F) → (⟨S1x128x2, .f32⟩ : BufTy).Contents (Elt F)),
    reshape main_v89 main_v90 rfl shapeCasts_S1x128x2_S128x2,
    binary main_v88 main_v90 main_v91 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    unary main_arg9 main_v92 ((extractStridedSlice S1x2 ![2, 0] · slices_S3x2_S1x2_2_0) : (⟨S3x2, .f32⟩ : BufTy).Contents (Elt F) → (⟨S1x2, .f32⟩ : BufTy).Contents (Elt F)),
    reshape main_v92 main_v93 rfl shapeCasts_S1x2_S2,
    unary main_v93 main_v94 (broadcastInDim S1x2 ![1] bcast_S2_S1x2_1 : (⟨S2, .f32⟩ : BufTy).Contents (Elt F) → (⟨S1x2, .f32⟩ : BufTy).Contents (Elt F)),
    unary main_v94 main_v95 (broadcastInDim S100000x2 ![0, 1] bcast_S1x2_S100000x2_0_1 : (⟨S1x2, .f32⟩ : BufTy).Contents (Elt F) → (⟨S100000x2, .f32⟩ : BufTy).Contents (Elt F)),
    binary main_v91 main_v95 main_v96 (addf : (⟨S100000x2, .f32⟩ : BufTy).Contents (Elt F) → (⟨S100000x2, .f32⟩ : BufTy).Contents (Elt F) → (⟨S100000x2, .f32⟩ : BufTy).Contents (Elt F)),
    binary main_v67 main_v96 main_v97 (addf : (⟨S100000x2, .f32⟩ : BufTy).Contents (Elt F) → (⟨S100000x2, .f32⟩ : BufTy).Contents (Elt F) → (⟨S100000x2, .f32⟩ : BufTy).Contents (Elt F)) ]

/-- The stretches in order are the program's operation list. -/
theorem ops_split : (ops : List (HloOp τ sig (Elt F))) = cP ++ (cA0 ++ (cB0 ++ (cA1 ++ (cB1 ++ (cA2 ++ cB2))))) := rfl

variable (V : Valuation τ sig (Elt F))

/-! ## The prelude -/

set_option maxHeartbeats 4000000 in
/-- The first voltages. -/
theorem p_v3 : after cP V (Proc.devRef .tc main_v3) = (v0 : FVec F S100000x2 .f32) := by
  dsimp only [cP]
  fold_val
set_option maxHeartbeats 4000000 in
/-- The first node rows. -/
theorem p_v8 : after cP V (Proc.devRef .tc main_v8) = nodeIn v0 (h0 (V (Proc.devRef .tc main_arg0)) (V (Proc.devRef .tc main_arg4)) (V (Proc.devRef .tc main_arg5))) := by
  dsimp only [cP]
  fold_val
theorem p_arg1 : after cP V (Proc.devRef .tc main_arg1) = (V (Proc.devRef .tc main_arg1)) := by
  dsimp only [cP]
  after_results_simp
theorem p_arg2 : after cP V (Proc.devRef .tc main_arg2) = (V (Proc.devRef .tc main_arg2)) := by
  dsimp only [cP]
  after_results_simp
theorem p_arg3 : after cP V (Proc.devRef .tc main_arg3) = (V (Proc.devRef .tc main_arg3)) := by
  dsimp only [cP]
  after_results_simp
theorem p_arg6 : after cP V (Proc.devRef .tc main_arg6) = (V (Proc.devRef .tc main_arg6)) := by
  dsimp only [cP]
  after_results_simp
theorem p_arg7 : after cP V (Proc.devRef .tc main_arg7) = (V (Proc.devRef .tc main_arg7)) := by
  dsimp only [cP]
  after_results_simp
theorem p_arg8 : after cP V (Proc.devRef .tc main_arg8) = (V (Proc.devRef .tc main_arg8)) := by
  dsimp only [cP]
  after_results_simp
theorem p_arg9 : after cP V (Proc.devRef .tc main_arg9) = (V (Proc.devRef .tc main_arg9)) := by
  dsimp only [cP]
  after_results_simp

/-! ## The first layer -/

set_option maxHeartbeats 4000000 in
/-- The first layer's messages. -/
theorem a0_msg : after cA0 V (Proc.devRef .tc main_v24) = msgOf (V (Proc.devRef .tc main_v8)) (V (Proc.devRef .tc main_arg1)) (V (Proc.devRef .tc main_arg3)) (wMsg0 (V (Proc.devRef .tc main_arg6))) (bMsg0 (V (Proc.devRef .tc main_arg7))) := by
  dsimp only [cA0]
  fold_val
theorem a0_vin : after cA0 V (Proc.devRef .tc main_v3) = (V (Proc.devRef .tc main_v3)) := by
  dsimp only [cA0]
  after_results_simp
theorem a0_arg1 : after cA0 V (Proc.devRef .tc main_arg1) = (V (Proc.devRef .tc main_arg1)) := by
  dsimp only [cA0]
  after_results_simp
theorem a0_arg2 : after cA0 V (Proc.devRef .tc main_arg2) = (V (Proc.devRef .tc main_arg2)) := by
  dsimp only [cA0]
  after_results_simp
theorem a0_arg3 : after cA0 V (Proc.devRef .tc main_arg3) = (V (Proc.devRef .tc main_arg3)) := by
  dsimp only [cA0]
  after_results_simp
theorem a0_arg6 : after cA0 V (Proc.devRef .tc main_arg6) = (V (Proc.devRef .tc main_arg6)) := by
  dsimp only [cA0]
  after_results_simp
theorem a0_arg7 : after cA0 V (Proc.devRef .tc main_arg7) = (V (Proc.devRef .tc main_arg7)) := by
  dsimp only [cA0]
  after_results_simp
theorem a0_arg8 : after cA0 V (Proc.devRef .tc main_arg8) = (V (Proc.devRef .tc main_arg8)) := by
  dsimp only [cA0]
  after_results_simp
theorem a0_arg9 : after cA0 V (Proc.devRef .tc main_arg9) = (V (Proc.devRef .tc main_arg9)) := by
  dsimp only [cA0]
  after_results_simp
set_option maxHeartbeats 4000000 in
/-- The voltages after the first round. -/
theorem b0_v : after cB0 V (Proc.devRef .tc main_v37) = (vStep (V (Proc.devRef .tc main_v3)) (hid (V (Proc.devRef .tc main_arg2)) (V (Proc.devRef .tc main_v24))) (wOut0 (V (Proc.devRef .tc main_arg8))) (bOut0 (V (Proc.devRef .tc main_arg9)))) := by
  dsimp only [cB0]
  fold_val
set_option maxHeartbeats 4000000 in
/-- The node rows after the first round. -/
theorem b0_ni : after cB0 V (Proc.devRef .tc main_v38) = nodeIn (vStep (V (Proc.devRef .tc main_v3)) (hid (V (Proc.devRef .tc main_arg2)) (V (Proc.devRef .tc main_v24))) (wOut0 (V (Proc.devRef .tc main_arg8))) (bOut0 (V (Proc.devRef .tc main_arg9)))) (hid (V (Proc.devRef .tc main_arg2)) (V (Proc.devRef .tc main_v24))) := by
  dsimp only [cB0]
  after_results
  try simp only [TRef.ofBuf, TRef.toBuf, cast_eq]
  rfl
theorem b0_arg1 : after cB0 V (Proc.devRef .tc main_arg1) = (V (Proc.devRef .tc main_arg1)) := by
  dsimp only [cB0]
  after_results_simp
theorem b0_arg2 : after cB0 V (Proc.devRef .tc main_arg2) = (V (Proc.devRef .tc main_arg2)) := by
  dsimp only [cB0]
  after_results_simp
theorem b0_arg3 : after cB0 V (Proc.devRef .tc main_arg3) = (V (Proc.devRef .tc main_arg3)) := by
  dsimp only [cB0]
  after_results_simp
theorem b0_arg6 : after cB0 V (Proc.devRef .tc main_arg6) = (V (Proc.devRef .tc main_arg6)) := by
  dsimp only [cB0]
  after_results_simp
theorem b0_arg7 : after cB0 V (Proc.devRef .tc main_arg7) = (V (Proc.devRef .tc main_arg7)) := by
  dsimp only [cB0]
  after_results_simp
theorem b0_arg8 : after cB0 V (Proc.devRef .tc main_arg8) = (V (Proc.devRef .tc main_arg8)) := by
  dsimp only [cB0]
  after_results_simp
theorem b0_arg9 : after cB0 V (Proc.devRef .tc main_arg9) = (V (Proc.devRef .tc main_arg9)) := by
  dsimp only [cB0]
  after_results_simp

/-! ## The second layer -/

set_option maxHeartbeats 4000000 in
/-- The second layer's messages. -/
theorem a1_msg : after cA1 V (Proc.devRef .tc main_v54) = msgOf (V (Proc.devRef .tc main_v38)) (V (Proc.devRef .tc main_arg1)) (V (Proc.devRef .tc main_arg3)) (wMsg1 (V (Proc.devRef .tc main_arg6))) (bMsg1 (V (Proc.devRef .tc main_arg7))) := by
  dsimp only [cA1]
  fold_val
theorem a1_vin : after cA1 V (Proc.devRef .tc main_v37) = (V (Proc.devRef .tc main_v37)) := by
  dsimp only [cA1]
  after_results_simp
theorem a1_arg1 : after cA1 V (Proc.devRef .tc main_arg1) = (V (Proc.devRef .tc main_arg1)) := by
  dsimp only [cA1]
  after_results_simp
theorem a1_arg2 : after cA1 V (Proc.devRef .tc main_arg2) = (V (Proc.devRef .tc main_arg2)) := by
  dsimp only [cA1]
  after_results_simp
theorem a1_arg3 : after cA1 V (Proc.devRef .tc main_arg3) = (V (Proc.devRef .tc main_arg3)) := by
  dsimp only [cA1]
  after_results_simp
theorem a1_arg6 : after cA1 V (Proc.devRef .tc main_arg6) = (V (Proc.devRef .tc main_arg6)) := by
  dsimp only [cA1]
  after_results_simp
theorem a1_arg7 : after cA1 V (Proc.devRef .tc main_arg7) = (V (Proc.devRef .tc main_arg7)) := by
  dsimp only [cA1]
  after_results_simp
theorem a1_arg8 : after cA1 V (Proc.devRef .tc main_arg8) = (V (Proc.devRef .tc main_arg8)) := by
  dsimp only [cA1]
  after_results_simp
theorem a1_arg9 : after cA1 V (Proc.devRef .tc main_arg9) = (V (Proc.devRef .tc main_arg9)) := by
  dsimp only [cA1]
  after_results_simp
set_option maxHeartbeats 4000000 in
/-- The voltages after the second round. -/
theorem b1_v : after cB1 V (Proc.devRef .tc main_v67) = (vStep (V (Proc.devRef .tc main_v37)) (hid (V (Proc.devRef .tc main_arg2)) (V (Proc.devRef .tc main_v54))) (wOut1 (V (Proc.devRef .tc main_arg8))) (bOut1 (V (Proc.devRef .tc main_arg9)))) := by
  dsimp only [cB1]
  fold_val
set_option maxHeartbeats 4000000 in
/-- The node rows after the second round. -/
theorem b1_ni : after cB1 V (Proc.devRef .tc main_v68) = nodeIn (vStep (V (Proc.devRef .tc main_v37)) (hid (V (Proc.devRef .tc main_arg2)) (V (Proc.devRef .tc main_v54))) (wOut1 (V (Proc.devRef .tc main_arg8))) (bOut1 (V (Proc.devRef .tc main_arg9)))) (hid (V (Proc.devRef .tc main_arg2)) (V (Proc.devRef .tc main_v54))) := by
  dsimp only [cB1]
  after_results
  try simp only [TRef.ofBuf, TRef.toBuf, cast_eq]
  rfl
theorem b1_arg1 : after cB1 V (Proc.devRef .tc main_arg1) = (V (Proc.devRef .tc main_arg1)) := by
  dsimp only [cB1]
  after_results_simp
theorem b1_arg2 : after cB1 V (Proc.devRef .tc main_arg2) = (V (Proc.devRef .tc main_arg2)) := by
  dsimp only [cB1]
  after_results_simp
theorem b1_arg3 : after cB1 V (Proc.devRef .tc main_arg3) = (V (Proc.devRef .tc main_arg3)) := by
  dsimp only [cB1]
  after_results_simp
theorem b1_arg6 : after cB1 V (Proc.devRef .tc main_arg6) = (V (Proc.devRef .tc main_arg6)) := by
  dsimp only [cB1]
  after_results_simp
theorem b1_arg7 : after cB1 V (Proc.devRef .tc main_arg7) = (V (Proc.devRef .tc main_arg7)) := by
  dsimp only [cB1]
  after_results_simp
theorem b1_arg8 : after cB1 V (Proc.devRef .tc main_arg8) = (V (Proc.devRef .tc main_arg8)) := by
  dsimp only [cB1]
  after_results_simp
theorem b1_arg9 : after cB1 V (Proc.devRef .tc main_arg9) = (V (Proc.devRef .tc main_arg9)) := by
  dsimp only [cB1]
  after_results_simp

/-! ## The third layer -/

set_option maxHeartbeats 4000000 in
/-- The third layer's messages. -/
theorem a2_msg : after cA2 V (Proc.devRef .tc main_v84) = msgOf (V (Proc.devRef .tc main_v68)) (V (Proc.devRef .tc main_arg1)) (V (Proc.devRef .tc main_arg3)) (wMsg2 (V (Proc.devRef .tc main_arg6))) (bMsg2 (V (Proc.devRef .tc main_arg7))) := by
  dsimp only [cA2]
  fold_val
theorem a2_vin : after cA2 V (Proc.devRef .tc main_v67) = (V (Proc.devRef .tc main_v67)) := by
  dsimp only [cA2]
  after_results_simp
theorem a2_arg2 : after cA2 V (Proc.devRef .tc main_arg2) = (V (Proc.devRef .tc main_arg2)) := by
  dsimp only [cA2]
  after_results_simp
theorem a2_arg8 : after cA2 V (Proc.devRef .tc main_arg8) = (V (Proc.devRef .tc main_arg8)) := by
  dsimp only [cA2]
  after_results_simp
theorem a2_arg9 : after cA2 V (Proc.devRef .tc main_arg9) = (V (Proc.devRef .tc main_arg9)) := by
  dsimp only [cA2]
  after_results_simp
set_option maxHeartbeats 4000000 in
/-- The voltages after the third round. -/
theorem b2_v : after cB2 V (Proc.devRef .tc main_v97) = (vStep (V (Proc.devRef .tc main_v67)) (hid (V (Proc.devRef .tc main_arg2)) (V (Proc.devRef .tc main_v84))) (wOut2 (V (Proc.devRef .tc main_arg8))) (bOut2 (V (Proc.devRef .tc main_arg9)))) := by
  dsimp only [cB2]
  fold_val

end Cert.ReferenceIdeal.RefFold

end
-- ==== Proof.RefResult.lean ====
/-
  The reference program's result buffer after its whole operation list: the stretch lemmas of RefFold.lean chained.
  The list is its stretches in order; what a stretch reads it finds either computed by an earlier stretch or passed
  through untouched, down to the arguments; what is left is the three rounds of message passing written out.
-/
import proofs.«402375_j12678743458344_1_alg».proof.Proof.RefFold

set_option maxRecDepth 16384

noncomputable section

namespace Cert.ReferenceIdeal.RefFold

open Cert.ReferenceIdeal Cert.ReferenceIdeal.Gen Cert.ReferenceIdeal.ValueP Cert.Layers
open Idealize.ShloMosaic Idealize.ShloMosaic.TcCoe Idealize.SL.Sem Idealize.ShloMosaic.StableHlo

variable {F : FTy → Type} [FloatOps F] (V : Valuation τ sig (Elt F))

set_option maxHeartbeats 8000000 in
/-- After the whole operation list the result buffer holds the voltages after three rounds. -/
theorem result : after (ops : List (HloOp τ sig (Elt F))) V (Proc.devRef .tc main_v97) = net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [ops_split]
  simp only [StableHlo.after_append]
  repeat (first
    | rw [b2_v]
    | rw [a2_msg]
    | rw [a2_vin]
    | rw [a2_arg2]
    | rw [a2_arg8]
    | rw [a2_arg9]
    | rw [b1_ni]
    | rw [b1_v]
    | rw [b1_arg1]
    | rw [b1_arg2]
    | rw [b1_arg3]
    | rw [b1_arg6]
    | rw [b1_arg7]
    | rw [b1_arg8]
    | rw [b1_arg9]
    | rw [a1_msg]
    | rw [a1_vin]
    | rw [a1_arg1]
    | rw [a1_arg2]
    | rw [a1_arg3]
    | rw [a1_arg6]
    | rw [a1_arg7]
    | rw [a1_arg8]
    | rw [a1_arg9]
    | rw [b0_ni]
    | rw [b0_v]
    | rw [b0_arg1]
    | rw [b0_arg2]
    | rw [b0_arg3]
    | rw [b0_arg6]
    | rw [b0_arg7]
    | rw [b0_arg8]
    | rw [b0_arg9]
    | rw [a0_msg]
    | rw [a0_vin]
    | rw [a0_arg1]
    | rw [a0_arg2]
    | rw [a0_arg3]
    | rw [a0_arg6]
    | rw [a0_arg7]
    | rw [a0_arg8]
    | rw [a0_arg9]
    | rw [p_v3]
    | rw [p_v8]
    | rw [p_arg1]
    | rw [p_arg2]
    | rw [p_arg3]
    | rw [p_arg6]
    | rw [p_arg7]
    | rw [p_arg8]
    | rw [p_arg9])
  rfl

end Cert.ReferenceIdeal.RefFold

end
-- ==== Proof.KerDefs.lean ====
/-
  The kernel program's own host-side pieces around a message launch, as functions. `takeRows` is how the kernel's
  program fetches the sender rows: the row of node `rowIdx s e` where that index lies in 0 .. 99999, and a row of the
  not-a-number word (read as minus infinity over the extended reals) where it does not. `wNode` and `wEdge` are the
  first 130 and the last 4 rows of a layer's 134 x 128 weight matrix.
-/
import proofs.«402375_j12678743458344_1_alg».proof.Proof.Gen.KernelIdeal
import proofs.«402375_j12678743458344_1_alg».proof.Proof.Layers

noncomputable section

namespace Cert.KernelIdeal.HostFns

open Cert.KernelIdeal Cert.KernelIdeal.Gen Idealize.ShloMosaic Idealize.ShloMosaic.TcCoe

variable {F : FTy → Type} [FloatOps F]

/-- Which edges have their sender index inside the node range, as a mask over the 1600000 x 130 sender rows. -/
def rowMask (s : IVec S1600000 32) : IVec S1600000x130 1 :=
  broadcastInDim S1600000x130 ![0] bcast_S1600000_S1600000x130_0
    (Host.reduce IntOp.andi
      (andi (cmpi .sge (Cert.Layers.rowIdx s) (broadcastInDim S1600000x1 ![] bcast_S_S1600000x1 (constantI S_ 32 0#32)))
        (cmpi .sle (Cert.Layers.rowIdx s) (broadcastInDim S1600000x1 ![0, 1] bcast_S1x1_S1600000x1_0_1 (broadcastInDim S1x1 ![1] bcast_S1_S1x1_1 (constantI S1 32 99999#32)))))
      (constantI S_ 1 1#1) reducesTo_S1600000x1_S1600000_d1 h_S_)

/-- The sender rows as the kernel's program fetches them. -/
def takeRows (ni : FVec F S100000x130 .f32) (s : IVec S1600000 32) : FVec F S1600000x130 .f32 :=
  select (rowMask s) (Host.gather gather_S100000x130_S1600000x1_S1600000x130_1_0_n_n_0_1_1130 ni (Cert.Layers.rowIdx s))
    (broadcastInDim S1600000x130 ![] bcast_S_S1600000x130 (constant S_ .f32 0x7FC00000#32))

/-- The node part of a layer's weights: rows 0 .. 129. -/
def wNode (wl : FVec F S134x128 .f32) : FVec F S130x128 .f32 := extractStridedSlice S130x128 ![0, 0] wl slices_S134x128_S130x128_0_0
/-- The edge part of a layer's weights: rows 130 .. 133. -/
def wEdge (wl : FVec F S134x128 .f32) : FVec F S4x128 .f32 := extractStridedSlice S4x128 ![130, 0] wl slices_S134x128_S4x128_130_0

end Cert.KernelIdeal.HostFns

end
-- ==== Proof.FoldA.lean ====
/-
  The kernel program's host operations between its launches, read back as functions. The program's @main is four
  stretches of host operations around three launches. Each lemma says what one buffer holds after a stretch, from
  whatever the buffers held when the stretch was entered (`Vb`): the stretch before the first launch builds the first
  node rows, fetches the sender rows and cuts the first layer's weights; the stretch after a launch sums that
  launch's messages into the nodes, clips them at zero, takes the voltage step, and (before the next launch) builds
  the next node rows, fetches the sender rows again and cuts the next layer's weights. Buffers a stretch does not
  write keep their contents.
-/
import proofs.«402375_j12678743458344_1_alg».proof.Proof.FoldTac
import proofs.«402375_j12678743458344_1_alg».proof.Proof.Layers
import proofs.«402375_j12678743458344_1_alg».proof.Proof.KerDefs

set_option maxRecDepth 16384
set_option Elab.async false

noncomputable section

namespace Cert.KernelIdeal.Fold

open Cert.KernelIdeal Cert.KernelIdeal.Gen Cert.KernelIdeal.HostFns Cert.Layers
open Idealize.ShloMosaic Idealize.ShloMosaic.TcCoe Idealize.SL.Sem Idealize.ShloMosaic.StableHlo

variable {F : FTy → Type} [FloatOps F] (Vb : Valuation τ sig (Elt F))

/-! ## Before the first launch -/

/-- The first node rows. -/
theorem p_v8 : after hostOps0 Vb (Proc.devRef .tc main_v8) = nodeIn v0 (h0 (Vb (Proc.devRef .tc main_arg0)) (Vb (Proc.devRef .tc main_arg4)) (Vb (Proc.devRef .tc main_arg5))) := by
  dsimp only [hostOps0]
  after_results
  rfl
theorem p_arg1 : after hostOps0 Vb (Proc.devRef .tc main_arg1) = (Vb (Proc.devRef .tc main_arg1)) := by
  dsimp only [hostOps0]
  after_results_simp
set_option maxHeartbeats 4000000 in
/-- The fetch of the sender rows, from whatever node rows the buffer `main_v8` holds. -/
theorem t0_v9 : after hostOps0_2 (after hostOps0_1 Vb) (Proc.devRef .tc main_v9) = takeRows (Vb (Proc.devRef .tc main_v8)) (Vb (Proc.devRef .tc main_arg1)) := by
  dsimp only [hostOps0_1, hostOps0_2]
  fold_val
/-- The sender rows of the first node rows, as the kernel's program fetches them. -/
theorem s0_v9 : after hostOps0_2 (after hostOps0_1 (after hostOps0 Vb)) (Proc.devRef .tc main_v9) = takeRows (nodeIn v0 (h0 (Vb (Proc.devRef .tc main_arg0)) (Vb (Proc.devRef .tc main_arg4)) (Vb (Proc.devRef .tc main_arg5)))) (Vb (Proc.devRef .tc main_arg1)) :=
  (t0_v9 (after hostOps0 Vb)).trans (by rw [p_v8, p_arg1])
set_option maxHeartbeats 4000000 in
/-- The node part of the first layer's weights. -/
theorem s0_v12 : after hostOps0_2 (after hostOps0_1 (after hostOps0 Vb)) (Proc.devRef .tc main_v12) = wNode (wMsg0 (Vb (Proc.devRef .tc main_arg6))) := by
  dsimp only [hostOps0, hostOps0_1, hostOps0_2]
  fold_val
set_option maxHeartbeats 4000000 in
/-- The edge part of the first layer's weights. -/
theorem s0_v13 : after hostOps0_2 (after hostOps0_1 (after hostOps0 Vb)) (Proc.devRef .tc main_v13) = wEdge (wMsg0 (Vb (Proc.devRef .tc main_arg6))) := by
  dsimp only [hostOps0, hostOps0_1, hostOps0_2]
  fold_val
set_option maxHeartbeats 4000000 in
/-- The first layer's bias. -/
theorem s0_v15 : after hostOps0_2 (after hostOps0_1 (after hostOps0 Vb)) (Proc.devRef .tc main_v15) = bMsg0 (Vb (Proc.devRef .tc main_arg7)) := by
  dsimp only [hostOps0, hostOps0_1, hostOps0_2]
  fold_val
set_option maxHeartbeats 4000000 in
/-- The first voltages. -/
theorem s0_v3 : after hostOps0_2 (after hostOps0_1 (after hostOps0 Vb)) (Proc.devRef .tc main_v3) = (v0 : FVec F S100000x2 .f32) := by
  dsimp only [hostOps0, hostOps0_1, hostOps0_2]
  fold_val
set_option maxHeartbeats 4000000 in
theorem s0_arg1 : after hostOps0_2 (after hostOps0_1 (after hostOps0 Vb)) (Proc.devRef .tc main_arg1) = (Vb (Proc.devRef .tc main_arg1)) := by
  dsimp only [hostOps0, hostOps0_1, hostOps0_2]
  after_results_simp
set_option maxHeartbeats 4000000 in
theorem s0_arg2 : after hostOps0_2 (after hostOps0_1 (after hostOps0 Vb)) (Proc.devRef .tc main_arg2) = (Vb (Proc.devRef .tc main_arg2)) := by
  dsimp only [hostOps0, hostOps0_1, hostOps0_2]
  after_results_simp
set_option maxHeartbeats 4000000 in
theorem s0_arg3 : after hostOps0_2 (after hostOps0_1 (after hostOps0 Vb)) (Proc.devRef .tc main_arg3) = (Vb (Proc.devRef .tc main_arg3)) := by
  dsimp only [hostOps0, hostOps0_1, hostOps0_2]
  after_results_simp
set_option maxHeartbeats 4000000 in
theorem s0_arg6 : after hostOps0_2 (after hostOps0_1 (after hostOps0 Vb)) (Proc.devRef .tc main_arg6) = (Vb (Proc.devRef .tc main_arg6)) := by
  dsimp only [hostOps0, hostOps0_1, hostOps0_2]
  after_results_simp
set_option maxHeartbeats 4000000 in
theorem s0_arg7 : after hostOps0_2 (after hostOps0_1 (after hostOps0 Vb)) (Proc.devRef .tc main_arg7) = (Vb (Proc.devRef .tc main_arg7)) := by
  dsimp only [hostOps0, hostOps0_1, hostOps0_2]
  after_results_simp
set_option maxHeartbeats 4000000 in
theorem s0_arg8 : after hostOps0_2 (after hostOps0_1 (after hostOps0 Vb)) (Proc.devRef .tc main_arg8) = (Vb (Proc.devRef .tc main_arg8)) := by
  dsimp only [hostOps0, hostOps0_1, hostOps0_2]
  after_results_simp
set_option maxHeartbeats 4000000 in
theorem s0_arg9 : after hostOps0_2 (after hostOps0_1 (after hostOps0 Vb)) (Proc.devRef .tc main_arg9) = (Vb (Proc.devRef .tc main_arg9)) := by
  dsimp only [hostOps0, hostOps0_1, hostOps0_2]
  after_results_simp

/-! ## Between the first and the second launch -/

set_option maxHeartbeats 4000000 in
/-- The second node rows. -/
theorem q1_v30 : after hostOps1_2 (after hostOps1_1 (after hostOps1 Vb)) (Proc.devRef .tc main_v30) = nodeIn (vStep (Vb (Proc.devRef .tc main_v3)) (hid (Vb (Proc.devRef .tc main_arg2)) (Vb (Proc.devRef .tc main_v16))) (wOut0 (Vb (Proc.devRef .tc main_arg8))) (bOut0 (Vb (Proc.devRef .tc main_arg9)))) (hid (Vb (Proc.devRef .tc main_arg2)) (Vb (Proc.devRef .tc main_v16))) := by
  dsimp only [hostOps1, hostOps1_1, hostOps1_2]
  after_results
  try simp only [TRef.ofBuf, TRef.toBuf, cast_eq]
  rfl
theorem q1_arg1 : after hostOps1_2 (after hostOps1_1 (after hostOps1 Vb)) (Proc.devRef .tc main_arg1) = (Vb (Proc.devRef .tc main_arg1)) := by
  dsimp only [hostOps1, hostOps1_1, hostOps1_2]
  after_results_simp
set_option maxHeartbeats 4000000 in
theorem t1_v31 : after hostOps1_4 (after hostOps1_3 Vb) (Proc.devRef .tc main_v31) = takeRows (Vb (Proc.devRef .tc main_v30)) (Vb (Proc.devRef .tc main_arg1)) := by
  dsimp only [hostOps1_3, hostOps1_4]
  fold_val
/-- The sender rows of the second node rows. -/
theorem s1_v31 : after hostOps1_4 (after hostOps1_3 (after hostOps1_2 (after hostOps1_1 (after hostOps1 Vb)))) (Proc.devRef .tc main_v31) = takeRows (nodeIn (vStep (Vb (Proc.devRef .tc main_v3)) (hid (Vb (Proc.devRef .tc main_arg2)) (Vb (Proc.devRef .tc main_v16))) (wOut0 (Vb (Proc.devRef .tc main_arg8))) (bOut0 (Vb (Proc.devRef .tc main_arg9)))) (hid (Vb (Proc.devRef .tc main_arg2)) (Vb (Proc.devRef .tc main_v16)))) (Vb (Proc.devRef .tc main_arg1)) :=
  (t1_v31 (after hostOps1_2 (after hostOps1_1 (after hostOps1 Vb)))).trans (by rw [q1_v30, q1_arg1])
set_option maxHeartbeats 4000000 in
/-- The node part of the second layer's weights. -/
theorem s1_v34 : after hostOps1_4 (after hostOps1_3 (after hostOps1_2 (after hostOps1_1 (after hostOps1 Vb)))) (Proc.devRef .tc main_v34) = wNode (wMsg1 (Vb (Proc.devRef .tc main_arg6))) := by
  dsimp only [hostOps1, hostOps1_1, hostOps1_2, hostOps1_3, hostOps1_4]
  fold_val
set_option maxHeartbeats 4000000 in
/-- The edge part of the second layer's weights. -/
theorem s1_v35 : after hostOps1_4 (after hostOps1_3 (after hostOps1_2 (after hostOps1_1 (after hostOps1 Vb)))) (Proc.devRef .tc main_v35) = wEdge (wMsg1 (Vb (Proc.devRef .tc main_arg6))) := by
  dsimp only [hostOps1, hostOps1_1, hostOps1_2, hostOps1_3, hostOps1_4]
  fold_val
set_option maxHeartbeats 4000000 in
/-- The second layer's bias. -/
theorem s1_v37 : after hostOps1_4 (after hostOps1_3 (after hostOps1_2 (after hostOps1_1 (after hostOps1 Vb)))) (Proc.devRef .tc main_v37) = bMsg1 (Vb (Proc.devRef .tc main_arg7)) := by
  dsimp only [hostOps1, hostOps1_1, hostOps1_2, hostOps1_3, hostOps1_4]
  fold_val
set_option maxHeartbeats 4000000 in
/-- The voltages after the first round. -/
theorem s1_v29 : after hostOps1_4 (after hostOps1_3 (after hostOps1_2 (after hostOps1_1 (after hostOps1 Vb)))) (Proc.devRef .tc main_v29) = (vStep (Vb (Proc.devRef .tc main_v3)) (hid (Vb (Proc.devRef .tc main_arg2)) (Vb (Proc.devRef .tc main_v16))) (wOut0 (Vb (Proc.devRef .tc main_arg8))) (bOut0 (Vb (Proc.devRef .tc main_arg9)))) := by
  dsimp only [hostOps1, hostOps1_1, hostOps1_2, hostOps1_3, hostOps1_4]
  fold_val
set_option maxHeartbeats 4000000 in
theorem s1_arg1 : after hostOps1_4 (after hostOps1_3 (after hostOps1_2 (after hostOps1_1 (after hostOps1 Vb)))) (Proc.devRef .tc main_arg1) = (Vb (Proc.devRef .tc main_arg1)) := by
  dsimp only [hostOps1, hostOps1_1, hostOps1_2, hostOps1_3, hostOps1_4]
  after_results_simp
set_option maxHeartbeats 4000000 in
theorem s1_arg2 : after hostOps1_4 (after hostOps1_3 (after hostOps1_2 (after hostOps1_1 (after hostOps1 Vb)))) (Proc.devRef .tc main_arg2) = (Vb (Proc.devRef .tc main_arg2)) := by
  dsimp only [hostOps1, hostOps1_1, hostOps1_2, hostOps1_3, hostOps1_4]
  after_results_simp
set_option maxHeartbeats 4000000 in
theorem s1_arg3 : after hostOps1_4 (after hostOps1_3 (after hostOps1_2 (after hostOps1_1 (after hostOps1 Vb)))) (Proc.devRef .tc main_arg3) = (Vb (Proc.devRef .tc main_arg3)) := by
  dsimp only [hostOps1, hostOps1_1, hostOps1_2, hostOps1_3, hostOps1_4]
  after_results_simp
set_option maxHeartbeats 4000000 in
theorem s1_arg6 : after hostOps1_4 (after hostOps1_3 (after hostOps1_2 (after hostOps1_1 (after hostOps1 Vb)))) (Proc.devRef .tc main_arg6) = (Vb (Proc.devRef .tc main_arg6)) := by
  dsimp only [hostOps1, hostOps1_1, hostOps1_2, hostOps1_3, hostOps1_4]
  after_results_simp
set_option maxHeartbeats 4000000 in
theorem s1_arg7 : after hostOps1_4 (after hostOps1_3 (after hostOps1_2 (after hostOps1_1 (after hostOps1 Vb)))) (Proc.devRef .tc main_arg7) = (Vb (Proc.devRef .tc main_arg7)) := by
  dsimp only [hostOps1, hostOps1_1, hostOps1_2, hostOps1_3, hostOps1_4]
  after_results_simp
set_option maxHeartbeats 4000000 in
theorem s1_arg8 : after hostOps1_4 (after hostOps1_3 (after hostOps1_2 (after hostOps1_1 (after hostOps1 Vb)))) (Proc.devRef .tc main_arg8) = (Vb (Proc.devRef .tc main_arg8)) := by
  dsimp only [hostOps1, hostOps1_1, hostOps1_2, hostOps1_3, hostOps1_4]
  after_results_simp
set_option maxHeartbeats 4000000 in
theorem s1_arg9 : after hostOps1_4 (after hostOps1_3 (after hostOps1_2 (after hostOps1_1 (after hostOps1 Vb)))) (Proc.devRef .tc main_arg9) = (Vb (Proc.devRef .tc main_arg9)) := by
  dsimp only [hostOps1, hostOps1_1, hostOps1_2, hostOps1_3, hostOps1_4]
  after_results_simp

end Cert.KernelIdeal.Fold

end
-- ==== Proof.FoldB.lean ====
/-
  The kernel program's host operations after its second and after its third launch, read back as functions (the
  stretches before are in FoldA.lean, with the same conventions).
-/
import proofs.«402375_j12678743458344_1_alg».proof.Proof.FoldTac
import proofs.«402375_j12678743458344_1_alg».proof.Proof.Layers
import proofs.«402375_j12678743458344_1_alg».proof.Proof.KerDefs

set_option maxRecDepth 16384
set_option Elab.async false

noncomputable section

namespace Cert.KernelIdeal.Fold

open Cert.KernelIdeal Cert.KernelIdeal.Gen Cert.KernelIdeal.HostFns Cert.Layers
open Idealize.ShloMosaic Idealize.ShloMosaic.TcCoe Idealize.SL.Sem Idealize.ShloMosaic.StableHlo

variable {F : FTy → Type} [FloatOps F] (Vb : Valuation τ sig (Elt F))

/-! ## Between the second and the third launch -/

set_option maxHeartbeats 4000000 in
/-- The third node rows. -/
theorem q2_v52 : after hostOps2_2 (after hostOps2_1 (after hostOps2 Vb)) (Proc.devRef .tc main_v52) = nodeIn (vStep (Vb (Proc.devRef .tc main_v29)) (hid (Vb (Proc.devRef .tc main_arg2)) (Vb (Proc.devRef .tc main_v38))) (wOut1 (Vb (Proc.devRef .tc main_arg8))) (bOut1 (Vb (Proc.devRef .tc main_arg9)))) (hid (Vb (Proc.devRef .tc main_arg2)) (Vb (Proc.devRef .tc main_v38))) := by
  dsimp only [hostOps2, hostOps2_1, hostOps2_2]
  after_results
  try simp only [TRef.ofBuf, TRef.toBuf, cast_eq]
  rfl
theorem q2_arg1 : after hostOps2_2 (after hostOps2_1 (after hostOps2 Vb)) (Proc.devRef .tc main_arg1) = (Vb (Proc.devRef .tc main_arg1)) := by
  dsimp only [hostOps2, hostOps2_1, hostOps2_2]
  after_results_simp
set_option maxHeartbeats 4000000 in
theorem t2_v53 : after hostOps2_4 (after hostOps2_3 Vb) (Proc.devRef .tc main_v53) = takeRows (Vb (Proc.devRef .tc main_v52)) (Vb (Proc.devRef .tc main_arg1)) := by
  dsimp only [hostOps2_3, hostOps2_4]
  fold_val
/-- The sender rows of the third node rows. -/
theorem s2_v53 : after hostOps2_4 (after hostOps2_3 (after hostOps2_2 (after hostOps2_1 (after hostOps2 Vb)))) (Proc.devRef .tc main_v53) = takeRows (nodeIn (vStep (Vb (Proc.devRef .tc main_v29)) (hid (Vb (Proc.devRef .tc main_arg2)) (Vb (Proc.devRef .tc main_v38))) (wOut1 (Vb (Proc.devRef .tc main_arg8))) (bOut1 (Vb (Proc.devRef .tc main_arg9)))) (hid (Vb (Proc.devRef .tc main_arg2)) (Vb (Proc.devRef .tc main_v38)))) (Vb (Proc.devRef .tc main_arg1)) :=
  (t2_v53 (after hostOps2_2 (after hostOps2_1 (after hostOps2 Vb)))).trans (by rw [q2_v52, q2_arg1])
set_option maxHeartbeats 4000000 in
/-- The node part of the third layer's weights. -/
theorem s2_v56 : after hostOps2_4 (after hostOps2_3 (after hostOps2_2 (after hostOps2_1 (after hostOps2 Vb)))) (Proc.devRef .tc main_v56) = wNode (wMsg2 (Vb (Proc.devRef .tc main_arg6))) := by
  dsimp only [hostOps2, hostOps2_1, hostOps2_2, hostOps2_3, hostOps2_4]
  fold_val
set_option maxHeartbeats 4000000 in
/-- The edge part of the third layer's weights. -/
theorem s2_v57 : after hostOps2_4 (after hostOps2_3 (after hostOps2_2 (after hostOps2_1 (after hostOps2 Vb)))) (Proc.devRef .tc main_v57) = wEdge (wMsg2 (Vb (Proc.devRef .tc main_arg6))) := by
  dsimp only [hostOps2, hostOps2_1, hostOps2_2, hostOps2_3, hostOps2_4]
  fold_val
set_option maxHeartbeats 4000000 in
/-- The third layer's bias. -/
theorem s2_v59 : after hostOps2_4 (after hostOps2_3 (after hostOps2_2 (after hostOps2_1 (after hostOps2 Vb)))) (Proc.devRef .tc main_v59) = bMsg2 (Vb (Proc.devRef .tc main_arg7)) := by
  dsimp only [hostOps2, hostOps2_1, hostOps2_2, hostOps2_3, hostOps2_4]
  fold_val
set_option maxHeartbeats 4000000 in
/-- The voltages after the second round. -/
theorem s2_v51 : after hostOps2_4 (after hostOps2_3 (after hostOps2_2 (after hostOps2_1 (after hostOps2 Vb)))) (Proc.devRef .tc main_v51) = (vStep (Vb (Proc.devRef .tc main_v29)) (hid (Vb (Proc.devRef .tc main_arg2)) (Vb (Proc.devRef .tc main_v38))) (wOut1 (Vb (Proc.devRef .tc main_arg8))) (bOut1 (Vb (Proc.devRef .tc main_arg9)))) := by
  dsimp only [hostOps2, hostOps2_1, hostOps2_2, hostOps2_3, hostOps2_4]
  fold_val
set_option maxHeartbeats 4000000 in
theorem s2_arg2 : after hostOps2_4 (after hostOps2_3 (after hostOps2_2 (after hostOps2_1 (after hostOps2 Vb)))) (Proc.devRef .tc main_arg2) = (Vb (Proc.devRef .tc main_arg2)) := by
  dsimp only [hostOps2, hostOps2_1, hostOps2_2, hostOps2_3, hostOps2_4]
  after_results_simp
set_option maxHeartbeats 4000000 in
theorem s2_arg3 : after hostOps2_4 (after hostOps2_3 (after hostOps2_2 (after hostOps2_1 (after hostOps2 Vb)))) (Proc.devRef .tc main_arg3) = (Vb (Proc.devRef .tc main_arg3)) := by
  dsimp only [hostOps2, hostOps2_1, hostOps2_2, hostOps2_3, hostOps2_4]
  after_results_simp
set_option maxHeartbeats 4000000 in
theorem s2_arg8 : after hostOps2_4 (after hostOps2_3 (after hostOps2_2 (after hostOps2_1 (after hostOps2 Vb)))) (Proc.devRef .tc main_arg8) = (Vb (Proc.devRef .tc main_arg8)) := by
  dsimp only [hostOps2, hostOps2_1, hostOps2_2, hostOps2_3, hostOps2_4]
  after_results_simp
set_option maxHeartbeats 4000000 in
theorem s2_arg9 : after hostOps2_4 (after hostOps2_3 (after hostOps2_2 (after hostOps2_1 (after hostOps2 Vb)))) (Proc.devRef .tc main_arg9) = (Vb (Proc.devRef .tc main_arg9)) := by
  dsimp only [hostOps2, hostOps2_1, hostOps2_2, hostOps2_3, hostOps2_4]
  after_results_simp

/-! ## After the third launch -/

set_option maxHeartbeats 4000000 in
/-- The voltages after the third round: the program's result. -/
theorem s3_v73 : after hostOps3_2 (after hostOps3_1 (after hostOps3 Vb)) (Proc.devRef .tc main_v73) = (vStep (Vb (Proc.devRef .tc main_v51)) (hid (Vb (Proc.devRef .tc main_arg2)) (Vb (Proc.devRef .tc main_v60))) (wOut2 (Vb (Proc.devRef .tc main_arg8))) (bOut2 (Vb (Proc.devRef .tc main_arg9)))) := by
  dsimp only [hostOps3, hostOps3_1, hostOps3_2]
  fold_val

end Cert.KernelIdeal.Fold

end
-- ==== Proof.MsgArr.lean ====
/-
  What one launch of the message kernel leaves in its output array, index by index. The kernel works on 100 blocks of
  16000 edges; on each block it multiplies the block's 16000 x 130 sender rows by the 130 x 128 node part of the
  layer's weights, multiplies the block's 16000 x 4 edge features by the 4 x 128 edge part, adds the two products
  and adds the bias to every row. Entry (e, j) of the whole 1600000 x 128 array is therefore the sum over the 130
  node columns k of g[e, k] * wn[k, j], plus the sum over the 4 edge columns k of ef[e, k] * we[k, j], plus b[j]:
  the blocks partition the edges, and an entry depends on its own edge's row only.
-/
import Idealize.ShloMosaic.PureOps.Ideal
import Idealize.ShloMosaic.Lib.ValueIdx

noncomputable section

open scoped BigOperators

namespace Cert.MsgArr

open Idealize.ShloMosaic Idealize.ShloMosaic.ValueIdx

/-- The message array from the sender rows `g`, the edge features `ef`, the node and edge parts `wn`, `we` of the
    weights and the bias `b`. -/
def msgArr (g : FVec Ideal ⟨2, ![1600000, 130]⟩ .f32) (ef : FVec Ideal ⟨2, ![1600000, 4]⟩ .f32)
    (wn : FVec Ideal ⟨2, ![130, 128]⟩ .f32) (we : FVec Ideal ⟨2, ![4, 128]⟩ .f32) (b : FVec Ideal ⟨1, ![128]⟩ .f32) :
    FVec Ideal ⟨2, ![1600000, 128]⟩ .f32 :=
  fun i => ((∑ k : Fin 130, g (ix2 (n0 := 1600000) (i 0) k) * wn (ix2 k (n1 := 128) (i 1)))
    + ∑ k : Fin 4, ef (ix2 (n0 := 1600000) (i 0) k) * we (ix2 k (n1 := 128) (i 1))) + b (ix1 (n := 128) (i 1))

/-- The same at an index given by its coordinates. -/
theorem msgArr_apply (g : FVec Ideal ⟨2, ![1600000, 130]⟩ .f32) (ef : FVec Ideal ⟨2, ![1600000, 4]⟩ .f32)
    (wn : FVec Ideal ⟨2, ![130, 128]⟩ .f32) (we : FVec Ideal ⟨2, ![4, 128]⟩ .f32) (b : FVec Ideal ⟨1, ![128]⟩ .f32)
    (e : Fin 1600000) (j : Fin 128) :
    msgArr g ef wn we b (ix2 e j) = ((∑ k : Fin 130, g (ix2 e k) * wn (ix2 k j)) + ∑ k : Fin 4, ef (ix2 e k) * we (ix2 k j)) + b (ix1 j) := rfl

end Cert.MsgArr

end
-- ==== Proof.Region0Pay.lean ====
/-
  The arithmetic of the message kernel's body at one entry of its block. The body loads the block's 16000 x 130 sender
  rows x0 and 16000 x 4 edge features x1, the 130 x 128 and 4 x 128 weight matrices x2, x3 and the bias x4, narrows the four
  matrices to bf16 (the identity on extended reals), multiplies x0 by x2 and x1 by x3, each into a zero accumulator, adds
  the two products and adds the bias, made a one-row matrix and repeated down the 16000 rows.

  A product into a zero accumulator read at (p, q) is the sum over the contraction's index; that index has one axis, so
  the sum runs over the contracted columns k, and the operands are read at (p, k) and (k, q) (`dotN_apply`, `dotE_apply`,
  from the four coordinate lemmas of each product). The repeated bias reads x4[q] in every row (`bias_apply`). So entry
  (p, q) is the sum over the 130 node columns k of x0[p, k] * x2[k, q], plus the sum over the 4 edge columns k of
  x1[p, k] * x3[k, q], plus x4[q] (`pay_apply`).
-/
import proofs.«402375_j12678743458344_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx

/-- The node product's left operand is read at the output's row … -/
theorem lhsN_row (i : S16000x128.Idx) (q : dot_S16000x130_S130x128_S16000x128_1_0_0_1_n_n.contr.Idx) :
    (dot_S16000x130_S130x128_S16000x128_1_0_0_1_n_n.lhsIdx i q 0).val = (i 0).val := by
  unfold DotDims.lhsIdx
  rw [dif_neg (show ¬(0 : Fin S16000x130.rank) ∈ dot_S16000x130_S130x128_S16000x128_1_0_0_1_n_n.lhsBatch by decide), dif_pos (show (0 : Fin S16000x130.rank) ∈ dot_S16000x130_S130x128_S16000x128_1_0_0_1_n_n.lhsNonContracting by decide)]
  rfl
/-- … and at the contracted column; -/
theorem lhsN_col (i : S16000x128.Idx) (q : dot_S16000x130_S130x128_S16000x128_1_0_0_1_n_n.contr.Idx) :
    (dot_S16000x130_S130x128_S16000x128_1_0_0_1_n_n.lhsIdx i q 1).val = (q ⟨0, by decide⟩).val :=
  dot_S16000x130_S130x128_S16000x128_1_0_0_1_n_n.lhsIdx_val_of_single rfl i q
/-- its right operand at the contracted row … -/
theorem rhsN_row (i : S16000x128.Idx) (q : dot_S16000x130_S130x128_S16000x128_1_0_0_1_n_n.contr.Idx) :
    (dot_S16000x130_S130x128_S16000x128_1_0_0_1_n_n.rhsIdx i q 0).val = (q ⟨0, by decide⟩).val :=
  dot_S16000x130_S130x128_S16000x128_1_0_0_1_n_n.rhsIdx_val_of_single rfl i q
/-- … and at the output's column. -/
theorem rhsN_col (i : S16000x128.Idx) (q : dot_S16000x130_S130x128_S16000x128_1_0_0_1_n_n.contr.Idx) :
    (dot_S16000x130_S130x128_S16000x128_1_0_0_1_n_n.rhsIdx i q 1).val = (i 1).val := by
  unfold DotDims.rhsIdx
  rw [dif_neg (show ¬(1 : Fin S130x128.rank) ∈ dot_S16000x130_S130x128_S16000x128_1_0_0_1_n_n.rhsBatch by decide), dif_pos (show (1 : Fin S130x128.rank) ∈ dot_S16000x130_S130x128_S16000x128_1_0_0_1_n_n.rhsNonContracting by decide)]
  rfl

/-- The node product into a zero accumulator, read at row `p` and column `q`: the plain sum over the 130
    contracted columns of the left operand's row `p` times the right operand's column `q`. -/
theorem dotN_apply (l : FVec Ideal S16000x130 .bf16) (r : FVec Ideal S130x128 .bf16) (p : Fin 16000) (q : Fin 128) :
    matmul dot_S16000x130_S130x128_S16000x128_1_0_0_1_n_n none l r (constant (F := Ideal) S16000x128 .f32 0x00000000#32) (ix2 p q)
      = ∑ k : Fin 130, l (ix2 p k) * r (ix2 k q) := by
  refine (Ideal.matmul_constant_zero_apply dot_S16000x130_S130x128_S16000x128_1_0_0_1_n_n none l r (ix2 p q)).trans ?_
  rw [← Equiv.sum_comp (contrEquiv1 dot_S16000x130_S130x128_S16000x128_1_0_0_1_n_n 130 rfl rfl).symm]
  refine Finset.sum_congr rfl fun k _ => ?_
  have hk := contrEquiv1_symm_val dot_S16000x130_S130x128_S16000x128_1_0_0_1_n_n 130 rfl rfl k
  have el : dot_S16000x130_S130x128_S16000x128_1_0_0_1_n_n.lhsIdx (ix2 p q) ((contrEquiv1 dot_S16000x130_S130x128_S16000x128_1_0_0_1_n_n 130 rfl rfl).symm k) = ix2 p k := funext fun a => Fin.ext (by
    match a with
    | ⟨0, _⟩ => exact lhsN_row _ _
    | ⟨1, _⟩ => exact (lhsN_col _ _).trans hk)
  have er : dot_S16000x130_S130x128_S16000x128_1_0_0_1_n_n.rhsIdx (ix2 p q) ((contrEquiv1 dot_S16000x130_S130x128_S16000x128_1_0_0_1_n_n 130 rfl rfl).symm k) = ix2 k q := funext fun a => Fin.ext (by
    match a with
    | ⟨0, _⟩ => exact (rhsN_row _ _).trans hk
    | ⟨1, _⟩ => exact rhsN_col _ _)
  rw [el, er]

/-- The edge product's left operand is read at the output's row … -/
theorem lhsE_row (i : S16000x128.Idx) (q : dot_S16000x4_S4x128_S16000x128_1_0_0_1_n_n.contr.Idx) :
    (dot_S16000x4_S4x128_S16000x128_1_0_0_1_n_n.lhsIdx i q 0).val = (i 0).val := by
  unfold DotDims.lhsIdx
  rw [dif_neg (show ¬(0 : Fin S16000x4.rank) ∈ dot_S16000x4_S4x128_S16000x128_1_0_0_1_n_n.lhsBatch by decide), dif_pos (show (0 : Fin S16000x4.rank) ∈ dot_S16000x4_S4x128_S16000x128_1_0_0_1_n_n.lhsNonContracting by decide)]
  rfl
/-- … and at the contracted column; -/
theorem lhsE_col (i : S16000x128.Idx) (q : dot_S16000x4_S4x128_S16000x128_1_0_0_1_n_n.contr.Idx) :
    (dot_S16000x4_S4x128_S16000x128_1_0_0_1_n_n.lhsIdx i q 1).val = (q ⟨0, by decide⟩).val :=
  dot_S16000x4_S4x128_S16000x128_1_0_0_1_n_n.lhsIdx_val_of_single rfl i q
/-- its right operand at the contracted row … -/
theorem rhsE_row (i : S16000x128.Idx) (q : dot_S16000x4_S4x128_S16000x128_1_0_0_1_n_n.contr.Idx) :
    (dot_S16000x4_S4x128_S16000x128_1_0_0_1_n_n.rhsIdx i q 0).val = (q ⟨0, by decide⟩).val :=
  dot_S16000x4_S4x128_S16000x128_1_0_0_1_n_n.rhsIdx_val_of_single rfl i q
/-- … and at the output's column. -/
theorem rhsE_col (i : S16000x128.Idx) (q : dot_S16000x4_S4x128_S16000x128_1_0_0_1_n_n.contr.Idx) :
    (dot_S16000x4_S4x128_S16000x128_1_0_0_1_n_n.rhsIdx i q 1).val = (i 1).val := by
  unfold DotDims.rhsIdx
  rw [dif_neg (show ¬(1 : Fin S4x128.rank) ∈ dot_S16000x4_S4x128_S16000x128_1_0_0_1_n_n.rhsBatch by decide), dif_pos (show (1 : Fin S4x128.rank) ∈ dot_S16000x4_S4x128_S16000x128_1_0_0_1_n_n.rhsNonContracting by decide)]
  rfl

/-- The edge product into a zero accumulator, read at row `p` and column `q`: the plain sum over the 4
    contracted columns of the left operand's row `p` times the right operand's column `q`. -/
theorem dotE_apply (l : FVec Ideal S16000x4 .bf16) (r : FVec Ideal S4x128 .bf16) (p : Fin 16000) (q : Fin 128) :
    matmul dot_S16000x4_S4x128_S16000x128_1_0_0_1_n_n none l r (constant (F := Ideal) S16000x128 .f32 0x00000000#32) (ix2 p q)
      = ∑ k : Fin 4, l (ix2 p k) * r (ix2 k q) := by
  refine (Ideal.matmul_constant_zero_apply dot_S16000x4_S4x128_S16000x128_1_0_0_1_n_n none l r (ix2 p q)).trans ?_
  rw [← Equiv.sum_comp (contrEquiv1 dot_S16000x4_S4x128_S16000x128_1_0_0_1_n_n 4 rfl rfl).symm]
  refine Finset.sum_congr rfl fun k _ => ?_
  have hk := contrEquiv1_symm_val dot_S16000x4_S4x128_S16000x128_1_0_0_1_n_n 4 rfl rfl k
  have el : dot_S16000x4_S4x128_S16000x128_1_0_0_1_n_n.lhsIdx (ix2 p q) ((contrEquiv1 dot_S16000x4_S4x128_S16000x128_1_0_0_1_n_n 4 rfl rfl).symm k) = ix2 p k := funext fun a => Fin.ext (by
    match a with
    | ⟨0, _⟩ => exact lhsE_row _ _
    | ⟨1, _⟩ => exact (lhsE_col _ _).trans hk)
  have er : dot_S16000x4_S4x128_S16000x128_1_0_0_1_n_n.rhsIdx (ix2 p q) ((contrEquiv1 dot_S16000x4_S4x128_S16000x128_1_0_0_1_n_n 4 rfl rfl).symm k) = ix2 k q := funext fun a => Fin.ext (by
    match a with
    | ⟨0, _⟩ => exact (rhsE_row _ _).trans hk
    | ⟨1, _⟩ => exact rhsE_col _ _)
  rw [el, er]

/-- The bias, made a one-row matrix and repeated down the rows, reads the bias's entry `q` in every row. -/
theorem bias_apply (x4 : Vec Ideal S128 .f32) (p : Fin 16000) (q : Fin 128) :
    broadcastTo S16000x128 (shapeCast S1x128 (shapeCast S128 x4 shapeCasts_S128_S128) shapeCasts_S128_S1x128) broadcasts_S1x128_S16000x128 (ix2 p q)
      = x4 (ix1 q) := by
  rw [broadcastTo_apply _ broadcasts_S1x128_S16000x128 (ix2 p q) (ix2 (⟨0, Nat.one_pos⟩ : Fin 1) q) (fun a => by
    match a with
    | ⟨0, _⟩ => rfl
    | ⟨1, _⟩ => rfl)]
  rw [shapeCast_addUnit_apply ![128], shapeCast_self]
  exact congrArg x4 (funext fun a => by match a with | ⟨0, _⟩ => rfl)

/-- What the body stores at row `p`, column `q` of its block, from the five blocks it loads: the change of float format is
    the identity on extended reals, each product into a zero accumulator is the plain sum, and the bias is the same in
    every row. -/
theorem pay_apply (x0 : Vec Ideal S16000x130 .f32) (x1 : Vec Ideal S16000x4 .f32) (x2 : Vec Ideal S130x128 .f32) (x3 : Vec Ideal S4x128 .f32) (x4 : Vec Ideal S128 .f32) (p : Fin 16000) (q : Fin 128) :
    k0_pay1 x0 x1 x2 x3 x4 (ix2 p q)
      = ((∑ k : Fin 130, x0 (ix2 p k) * x2 (ix2 k q)) + ∑ k : Fin 4, x1 (ix2 p k) * x3 (ix2 k q)) + x4 (ix1 q) := by
  unfold k0_pay1
  rw [addf_apply, addf_apply, dotN_apply, dotE_apply, bias_apply]
  simp only [truncf_apply, shapeCast_self]

end Cert.KernelIdeal.Region0

end
-- ==== Proof.Region0.lean ====
/-
  What the first launch of the message kernel leaves in its output array. The grid has 100 points; point t works on rows
  16000 t … 16000 t + 15999 of the 1600000 edges: the sender rows, the edge features and the output are blocked by rows
  at block (t, 0), the two weight matrices and the bias are read whole at every point, and the body stores its 16000 x 128
  block whole.

  The row-blocked windows read rows 16000 t + p of their arrays and the other three read their arrays whole (`blkG_read` …
  `blkB_read`); entry (p, q) of the output block is entry (16000 t + p, q) of the output array (`out_emb`). With the body's
  arithmetic at an entry (`pay_apply`) this makes what point t writes back block t of the message array of the arrays the
  region finds (`flushed_eq`). Row r lies in the block of point r / 16000, so the blocks cover the array (`covered`), and
  the array ends holding the message array (`out_array`).
-/
import proofs.«402375_j12678743458344_1_alg».proof.Proof.Gen.KernelIdeal.Frame
import proofs.«402375_j12678743458344_1_alg».proof.Proof.MsgArr
import proofs.«402375_j12678743458344_1_alg».proof.Proof.Region0Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

/-- The zero offsets of a whole-block access, rank 2 and rank 1. -/
theorem hzz : (![0, 0] : Fin 2 → Nat) = fun _ => 0 := funext fun a => by fin_cases a <;> rfl
theorem hzo : (![0] : Fin 1 → Nat) = fun _ => 0 := funext fun a => by fin_cases a; rfl

/-- The printed index maps at every point of the grid: the two row-blocked inputs and the output are at block `(t, 0)`,
    the two weight matrices and the bias at block `0`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Point `t`'s block of the sender rows is rows `16000 t … 16000 t + 15999` of the array, all its columns. -/
theorem blkG_read (c : Dev nD) (t : Fin cfg0.N) (p : Fin 16000) (k : Fin 130) (e : Fin 1600000)
    (he : e.val = t.val * 16000 + p.val) :
    (iblk0 V c 0 t : Vec Ideal S16000x130 .f32) (ix2 p k) = (V c main_v9 : S1600000x130.Idx → EReal) (ix2 e k) := by
  obtain ⟨ea, eb, ec, ed, -⟩ := idx_facts t
  unfold iblk0
  rw [View.read_apply]
  show V c main_v9 _ = V c main_v9 _
  congr 1
  funext a; apply Fin.ext
  match a with
  | ⟨0, _⟩ => show win0_0.index t (0 : Fin 2) * 16000 + 1 * p.val = e.val; omega
  | ⟨1, _⟩ => show win0_0.index t (1 : Fin 2) * 130 + 1 * k.val = k.val; omega

/-- Point `t`'s block of the edge features is rows `16000 t … 16000 t + 15999` of the array, all its columns. -/
theorem blkF_read (c : Dev nD) (t : Fin cfg0.N) (p : Fin 16000) (k : Fin 4) (e : Fin 1600000)
    (he : e.val = t.val * 16000 + p.val) :
    (iblk0 V c 1 t : Vec Ideal S16000x4 .f32) (ix2 p k) = (V c main_arg3 : S1600000x4.Idx → EReal) (ix2 e k) := by
  obtain ⟨ea, eb, ec, ed, -⟩ := idx_facts t
  unfold iblk0
  rw [View.read_apply]
  show V c main_arg3 _ = V c main_arg3 _
  congr 1
  funext a; apply Fin.ext
  match a with
  | ⟨0, _⟩ => show win0_1.index t (0 : Fin 2) * 16000 + 1 * p.val = e.val; omega
  | ⟨1, _⟩ => show win0_1.index t (1 : Fin 2) * 4 + 1 * k.val = k.val; omega

/-- Every point's block of the node part of the weights is the whole array. -/
theorem blkWn_read (c : Dev nD) (t : Fin cfg0.N) (k : Fin 130) (q : Fin 128) :
    (iblk0 V c 2 t : Vec Ideal S130x128 .f32) (ix2 k q) = (V c main_v12 : S130x128.Idx → EReal) (ix2 k q) := by
  obtain ⟨-, -, -, -, ea, eb, ec, ed, -⟩ := idx_facts t
  unfold iblk0
  rw [View.read_apply]
  show V c main_v12 _ = V c main_v12 _
  congr 1
  funext a; apply Fin.ext
  match a with
  | ⟨0, _⟩ => show win0_2.index t (0 : Fin 2) * 130 + 1 * k.val = k.val; omega
  | ⟨1, _⟩ => show win0_2.index t (1 : Fin 2) * 128 + 1 * q.val = q.val; omega

/-- Every point's block of the edge part of the weights is the whole array. -/
theorem blkWe_read (c : Dev nD) (t : Fin cfg0.N) (k : Fin 4) (q : Fin 128) :
    (iblk0 V c 3 t : Vec Ideal S4x128 .f32) (ix2 k q) = (V c main_v13 : S4x128.Idx → EReal) (ix2 k q) := by
  obtain ⟨-, -, -, -, ea, eb, ec, ed, -⟩ := idx_facts t
  unfold iblk0
  rw [View.read_apply]
  show V c main_v13 _ = V c main_v13 _
  congr 1
  funext a; apply Fin.ext
  match a with
  | ⟨0, _⟩ => show win0_3.index t (0 : Fin 2) * 4 + 1 * k.val = k.val; omega
  | ⟨1, _⟩ => show win0_3.index t (1 : Fin 2) * 128 + 1 * q.val = q.val; omega

/-- Every point's block of the bias is the whole bias. -/
theorem blkB_read (c : Dev nD) (t : Fin cfg0.N) (q : Fin 128) :
    (iblk0 V c 4 t : Vec Ideal S128 .f32) (ix1 q) = (V c main_v15 : S128.Idx → EReal) (ix1 q) := by
  obtain ⟨-, -, -, -, -, -, -, -, ea, -⟩ := idx_facts t
  unfold iblk0
  rw [View.read_apply]
  show V c main_v15 _ = V c main_v15 _
  congr 1
  funext a; apply Fin.ext
  match a with
  | ⟨0, _⟩ => show win0_4.index t (0 : Fin 1) * 128 + 1 * q.val = q.val; omega

/-- Entry `(p, q)` of point `t`'s output block is entry `(16000 t + p, q)` of the output array. -/
theorem out_emb (t : Fin cfg0.N) (p : Fin 16000) (q : Fin 128) (e : Fin 1600000)
    (he : e.val = t.val * 16000 + p.val) :
    ((cfg0.win 5).blk t).view.emb (ix2 p q) = (ix2 e q : S1600000x128.Idx) := by
  obtain ⟨-, -, -, -, -, -, -, -, -, ea, eb⟩ := idx_facts t
  funext a; apply Fin.ext
  match a with
  | ⟨0, _⟩ => show win0_5.index t (0 : Fin 2) * 16000 + 1 * p.val = e.val; omega
  | ⟨1, _⟩ => show win0_5.index t (1 : Fin 2) * 128 + 1 * q.val = q.val; omega

/-- What point `t` writes back is block `t` of the message array of the arrays the region finds. -/
theorem flushed_eq (c : Dev nD) (t : Fin cfg0.N) :
    (dat0 V c).flushed 5 t = ((cfg0.win 5).blk t).view.read (Elt Ideal)
      (Cert.MsgArr.msgArr (V c main_v9) (V c main_arg3) (V c main_v12) (V c main_v13) (V c main_v15)) := by
  show (cfg0.win 5).cut (grid0.coords t) ((dat0 V c).after 5 t) = _
  rw [after0_5]
  unfold out0_5
  rw [View.canon_unit_zero hzz]
  simp only [View.ld_unit_zero (S := S16000x130) hzz, View.ld_unit_zero (S := S16000x4) hzz, View.ld_unit_zero (S := S130x128) hzz, View.ld_unit_zero (S := S4x128) hzz, View.ld_unit_zero (S := S128) hzo]
  refine funext fun (j : S16000x128.Idx) => ?_
  obtain ⟨p, q, rfl⟩ : ∃ (p : Fin 16000) (q : Fin 128), j = ix2 p q := ⟨j 0, j 1, eq_ix2 j⟩
  have ht : t.val < 100 := lt_of_lt_of_eq t.isLt N_0
  have hp : p.val < 16000 := p.isLt
  obtain ⟨e, he⟩ : ∃ e : Fin 1600000, e.val = t.val * 16000 + p.val := ⟨⟨t.val * 16000 + p.val, by omega⟩, rfl⟩
  refine Eq.trans ?_ (congrArg (Cert.MsgArr.msgArr (V c main_v9) (V c main_arg3) (V c main_v12) (V c main_v13) (V c main_v15)) (out_emb t p q e he)).symm
  rw [Cert.MsgArr.msgArr_apply]
  refine (pay_apply (iblk0 V c 0 t) (iblk0 V c 1 t) (iblk0 V c 2 t) (iblk0 V c 3 t) (iblk0 V c 4 t) p q).trans ?_
  rw [blkB_read V c t q]
  refine congrArg₂ (· + ·) (congrArg₂ (· + ·) (Finset.sum_congr rfl fun k _ => ?_) (Finset.sum_congr rfl fun k _ => ?_)) rfl
  · rw [blkG_read V c t p k e he, blkWn_read V c t k q]
  · rw [blkF_read V c t p k e he, blkWe_read V c t k q]

/-- An index of the output array is in point `t`'s block iff each coordinate is in the block's range on its axis. -/
theorem mem_blk (t : Fin cfg0.N) (i : S1600000x128.Idx) :
    i ∈ ((cfg0.win 5).blk t).view.set ↔ ∀ a : Fin 2, win0_5.index t a * S16000x128.size a ≤ (i a).val ∧ (i a).val < win0_5.index t a * S16000x128.size a + S16000x128.size a := by
  show i ∈ ((View.whole main_v16).slice (win0_5.rect t)).set ↔ _
  rw [View.set_slice_whole, Rect.mem_set_unit]
  exact Iff.rfl

/-- The 100 blocks of 16000 rows cover the output array: row `r` is in the block of point `r / 16000`. -/
theorem covered (i : S1600000x128.Idx) :
    ∃ t : Fin cfg0.N, (cfg0.win 5).flush t = true ∧ i ∈ ((cfg0.win 5).blk t).view.set := by
  have hr : (i 0).val < 1600000 := (i 0).isLt
  have hq : (i 1).val < 128 := (i 1).isLt
  have hN : cfg0.N = 100 := N_0
  obtain ⟨t, ht⟩ : ∃ t : Fin cfg0.N, t.val = (i 0).val / 16000 := ⟨⟨(i 0).val / 16000, by rw [hN]; omega⟩, rfl⟩
  obtain ⟨-, -, -, -, -, -, -, -, -, ea, eb⟩ := idx_facts t
  refine ⟨t, flush0_5 t, ?_⟩
  rw [mem_blk]
  intro a
  match a with
  | ⟨0, _⟩ => show win0_5.index t (0 : Fin 2) * 16000 ≤ (i 0).val ∧ (i 0).val < win0_5.index t (0 : Fin 2) * 16000 + 16000; omega
  | ⟨1, _⟩ => show win0_5.index t (1 : Fin 2) * 128 ≤ (i 1).val ∧ (i 1).val < win0_5.index t (1 : Fin 2) * 128 + 128; omega

/-- The output array after the launch is the message array of the arrays the region finds: every point writes back its
    block of it, and the blocks cover the array. -/
theorem out_array (c : Dev nD) :
    (dat0 (F := Ideal) V c).arrAt 5 cfg0.N
      = Cert.MsgArr.msgArr (V c main_v9) (V c main_arg3) (V c main_v12) (V c main_v13) (V c main_v15) :=
  (dat0 (F := Ideal) V c).arrAt_eq_of_cover 5
    (Cert.MsgArr.msgArr (V c main_v9) (V c main_arg3) (V c main_v12) (V c main_v13) (V c main_v15))
    (fun t _ => flushed_eq V c t) covered

end Cert.KernelIdeal.Region0

end
-- ==== Proof.Region1Pay.lean ====
/-
  The arithmetic of the message kernel's body at one entry of its block. The body loads the block's 16000 x 130 sender
  rows x0 and 16000 x 4 edge features x1, the 130 x 128 and 4 x 128 weight matrices x2, x3 and the bias x4, narrows the four
  matrices to bf16 (the identity on extended reals), multiplies x0 by x2 and x1 by x3, each into a zero accumulator, adds
  the two products and adds the bias, made a one-row matrix and repeated down the 16000 rows.

  A product into a zero accumulator read at (p, q) is the sum over the contraction's index; that index has one axis, so
  the sum runs over the contracted columns k, and the operands are read at (p, k) and (k, q) (`dotN_apply`, `dotE_apply`,
  from the four coordinate lemmas of each product). The repeated bias reads x4[q] in every row (`bias_apply`). So entry
  (p, q) is the sum over the 130 node columns k of x0[p, k] * x2[k, q], plus the sum over the 4 edge columns k of
  x1[p, k] * x3[k, q], plus x4[q] (`pay_apply`).
-/
import proofs.«402375_j12678743458344_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx

/-- The node product's left operand is read at the output's row … -/
theorem lhsN_row (i : S16000x128.Idx) (q : dot_S16000x130_S130x128_S16000x128_1_0_0_1_n_n.contr.Idx) :
    (dot_S16000x130_S130x128_S16000x128_1_0_0_1_n_n.lhsIdx i q 0).val = (i 0).val := by
  unfold DotDims.lhsIdx
  rw [dif_neg (show ¬(0 : Fin S16000x130.rank) ∈ dot_S16000x130_S130x128_S16000x128_1_0_0_1_n_n.lhsBatch by decide), dif_pos (show (0 : Fin S16000x130.rank) ∈ dot_S16000x130_S130x128_S16000x128_1_0_0_1_n_n.lhsNonContracting by decide)]
  rfl
/-- … and at the contracted column; -/
theorem lhsN_col (i : S16000x128.Idx) (q : dot_S16000x130_S130x128_S16000x128_1_0_0_1_n_n.contr.Idx) :
    (dot_S16000x130_S130x128_S16000x128_1_0_0_1_n_n.lhsIdx i q 1).val = (q ⟨0, by decide⟩).val :=
  dot_S16000x130_S130x128_S16000x128_1_0_0_1_n_n.lhsIdx_val_of_single rfl i q
/-- its right operand at the contracted row … -/
theorem rhsN_row (i : S16000x128.Idx) (q : dot_S16000x130_S130x128_S16000x128_1_0_0_1_n_n.contr.Idx) :
    (dot_S16000x130_S130x128_S16000x128_1_0_0_1_n_n.rhsIdx i q 0).val = (q ⟨0, by decide⟩).val :=
  dot_S16000x130_S130x128_S16000x128_1_0_0_1_n_n.rhsIdx_val_of_single rfl i q
/-- … and at the output's column. -/
theorem rhsN_col (i : S16000x128.Idx) (q : dot_S16000x130_S130x128_S16000x128_1_0_0_1_n_n.contr.Idx) :
    (dot_S16000x130_S130x128_S16000x128_1_0_0_1_n_n.rhsIdx i q 1).val = (i 1).val := by
  unfold DotDims.rhsIdx
  rw [dif_neg (show ¬(1 : Fin S130x128.rank) ∈ dot_S16000x130_S130x128_S16000x128_1_0_0_1_n_n.rhsBatch by decide), dif_pos (show (1 : Fin S130x128.rank) ∈ dot_S16000x130_S130x128_S16000x128_1_0_0_1_n_n.rhsNonContracting by decide)]
  rfl

/-- The node product into a zero accumulator, read at row `p` and column `q`: the plain sum over the 130
    contracted columns of the left operand's row `p` times the right operand's column `q`. -/
theorem dotN_apply (l : FVec Ideal S16000x130 .bf16) (r : FVec Ideal S130x128 .bf16) (p : Fin 16000) (q : Fin 128) :
    matmul dot_S16000x130_S130x128_S16000x128_1_0_0_1_n_n none l r (constant (F := Ideal) S16000x128 .f32 0x00000000#32) (ix2 p q)
      = ∑ k : Fin 130, l (ix2 p k) * r (ix2 k q) := by
  refine (Ideal.matmul_constant_zero_apply dot_S16000x130_S130x128_S16000x128_1_0_0_1_n_n none l r (ix2 p q)).trans ?_
  rw [← Equiv.sum_comp (contrEquiv1 dot_S16000x130_S130x128_S16000x128_1_0_0_1_n_n 130 rfl rfl).symm]
  refine Finset.sum_congr rfl fun k _ => ?_
  have hk := contrEquiv1_symm_val dot_S16000x130_S130x128_S16000x128_1_0_0_1_n_n 130 rfl rfl k
  have el : dot_S16000x130_S130x128_S16000x128_1_0_0_1_n_n.lhsIdx (ix2 p q) ((contrEquiv1 dot_S16000x130_S130x128_S16000x128_1_0_0_1_n_n 130 rfl rfl).symm k) = ix2 p k := funext fun a => Fin.ext (by
    match a with
    | ⟨0, _⟩ => exact lhsN_row _ _
    | ⟨1, _⟩ => exact (lhsN_col _ _).trans hk)
  have er : dot_S16000x130_S130x128_S16000x128_1_0_0_1_n_n.rhsIdx (ix2 p q) ((contrEquiv1 dot_S16000x130_S130x128_S16000x128_1_0_0_1_n_n 130 rfl rfl).symm k) = ix2 k q := funext fun a => Fin.ext (by
    match a with
    | ⟨0, _⟩ => exact (rhsN_row _ _).trans hk
    | ⟨1, _⟩ => exact rhsN_col _ _)
  rw [el, er]

/-- The edge product's left operand is read at the output's row … -/
theorem lhsE_row (i : S16000x128.Idx) (q : dot_S16000x4_S4x128_S16000x128_1_0_0_1_n_n.contr.Idx) :
    (dot_S16000x4_S4x128_S16000x128_1_0_0_1_n_n.lhsIdx i q 0).val = (i 0).val := by
  unfold DotDims.lhsIdx
  rw [dif_neg (show ¬(0 : Fin S16000x4.rank) ∈ dot_S16000x4_S4x128_S16000x128_1_0_0_1_n_n.lhsBatch by decide), dif_pos (show (0 : Fin S16000x4.rank) ∈ dot_S16000x4_S4x128_S16000x128_1_0_0_1_n_n.lhsNonContracting by decide)]
  rfl
/-- … and at the contracted column; -/
theorem lhsE_col (i : S16000x128.Idx) (q : dot_S16000x4_S4x128_S16000x128_1_0_0_1_n_n.contr.Idx) :
    (dot_S16000x4_S4x128_S16000x128_1_0_0_1_n_n.lhsIdx i q 1).val = (q ⟨0, by decide⟩).val :=
  dot_S16000x4_S4x128_S16000x128_1_0_0_1_n_n.lhsIdx_val_of_single rfl i q
/-- its right operand at the contracted row … -/
theorem rhsE_row (i : S16000x128.Idx) (q : dot_S16000x4_S4x128_S16000x128_1_0_0_1_n_n.contr.Idx) :
    (dot_S16000x4_S4x128_S16000x128_1_0_0_1_n_n.rhsIdx i q 0).val = (q ⟨0, by decide⟩).val :=
  dot_S16000x4_S4x128_S16000x128_1_0_0_1_n_n.rhsIdx_val_of_single rfl i q
/-- … and at the output's column. -/
theorem rhsE_col (i : S16000x128.Idx) (q : dot_S16000x4_S4x128_S16000x128_1_0_0_1_n_n.contr.Idx) :
    (dot_S16000x4_S4x128_S16000x128_1_0_0_1_n_n.rhsIdx i q 1).val = (i 1).val := by
  unfold DotDims.rhsIdx
  rw [dif_neg (show ¬(1 : Fin S4x128.rank) ∈ dot_S16000x4_S4x128_S16000x128_1_0_0_1_n_n.rhsBatch by decide), dif_pos (show (1 : Fin S4x128.rank) ∈ dot_S16000x4_S4x128_S16000x128_1_0_0_1_n_n.rhsNonContracting by decide)]
  rfl

/-- The edge product into a zero accumulator, read at row `p` and column `q`: the plain sum over the 4
    contracted columns of the left operand's row `p` times the right operand's column `q`. -/
theorem dotE_apply (l : FVec Ideal S16000x4 .bf16) (r : FVec Ideal S4x128 .bf16) (p : Fin 16000) (q : Fin 128) :
    matmul dot_S16000x4_S4x128_S16000x128_1_0_0_1_n_n none l r (constant (F := Ideal) S16000x128 .f32 0x00000000#32) (ix2 p q)
      = ∑ k : Fin 4, l (ix2 p k) * r (ix2 k q) := by
  refine (Ideal.matmul_constant_zero_apply dot_S16000x4_S4x128_S16000x128_1_0_0_1_n_n none l r (ix2 p q)).trans ?_
  rw [← Equiv.sum_comp (contrEquiv1 dot_S16000x4_S4x128_S16000x128_1_0_0_1_n_n 4 rfl rfl).symm]
  refine Finset.sum_congr rfl fun k _ => ?_
  have hk := contrEquiv1_symm_val dot_S16000x4_S4x128_S16000x128_1_0_0_1_n_n 4 rfl rfl k
  have el : dot_S16000x4_S4x128_S16000x128_1_0_0_1_n_n.lhsIdx (ix2 p q) ((contrEquiv1 dot_S16000x4_S4x128_S16000x128_1_0_0_1_n_n 4 rfl rfl).symm k) = ix2 p k := funext fun a => Fin.ext (by
    match a with
    | ⟨0, _⟩ => exact lhsE_row _ _
    | ⟨1, _⟩ => exact (lhsE_col _ _).trans hk)
  have er : dot_S16000x4_S4x128_S16000x128_1_0_0_1_n_n.rhsIdx (ix2 p q) ((contrEquiv1 dot_S16000x4_S4x128_S16000x128_1_0_0_1_n_n 4 rfl rfl).symm k) = ix2 k q := funext fun a => Fin.ext (by
    match a with
    | ⟨0, _⟩ => exact (rhsE_row _ _).trans hk
    | ⟨1, _⟩ => exact rhsE_col _ _)
  rw [el, er]

/-- The bias, made a one-row matrix and repeated down the rows, reads the bias's entry `q` in every row. -/
theorem bias_apply (x4 : Vec Ideal S128 .f32) (p : Fin 16000) (q : Fin 128) :
    broadcastTo S16000x128 (shapeCast S1x128 (shapeCast S128 x4 shapeCasts_S128_S128) shapeCasts_S128_S1x128) broadcasts_S1x128_S16000x128 (ix2 p q)
      = x4 (ix1 q) := by
  rw [broadcastTo_apply _ broadcasts_S1x128_S16000x128 (ix2 p q) (ix2 (⟨0, Nat.one_pos⟩ : Fin 1) q) (fun a => by
    match a with
    | ⟨0, _⟩ => rfl
    | ⟨1, _⟩ => rfl)]
  rw [shapeCast_addUnit_apply ![128], shapeCast_self]
  exact congrArg x4 (funext fun a => by match a with | ⟨0, _⟩ => rfl)

/-- What the body stores at row `p`, column `q` of its block, from the five blocks it loads: the change of float format is
    the identity on extended reals, each product into a zero accumulator is the plain sum, and the bias is the same in
    every row. -/
theorem pay_apply (x0 : Vec Ideal S16000x130 .f32) (x1 : Vec Ideal S16000x4 .f32) (x2 : Vec Ideal S130x128 .f32) (x3 : Vec Ideal S4x128 .f32) (x4 : Vec Ideal S128 .f32) (p : Fin 16000) (q : Fin 128) :
    k1_pay1 x0 x1 x2 x3 x4 (ix2 p q)
      = ((∑ k : Fin 130, x0 (ix2 p k) * x2 (ix2 k q)) + ∑ k : Fin 4, x1 (ix2 p k) * x3 (ix2 k q)) + x4 (ix1 q) := by
  unfold k1_pay1
  rw [addf_apply, addf_apply, dotN_apply, dotE_apply, bias_apply]
  simp only [truncf_apply, shapeCast_self]

end Cert.KernelIdeal.Region1

end
-- ==== Proof.Region1.lean ====
/-
  What the second launch of the message kernel leaves in its output array. The grid has 100 points; point t works on rows
  16000 t … 16000 t + 15999 of the 1600000 edges: the sender rows, the edge features and the output are blocked by rows
  at block (t, 0), the two weight matrices and the bias are read whole at every point, and the body stores its 16000 x 128
  block whole.

  The row-blocked windows read rows 16000 t + p of their arrays and the other three read their arrays whole (`blkG_read` …
  `blkB_read`); entry (p, q) of the output block is entry (16000 t + p, q) of the output array (`out_emb`). With the body's
  arithmetic at an entry (`pay_apply`) this makes what point t writes back block t of the message array of the arrays the
  region finds (`flushed_eq`). Row r lies in the block of point r / 16000, so the blocks cover the array (`covered`), and
  the array ends holding the message array (`out_array`).
-/
import proofs.«402375_j12678743458344_1_alg».proof.Proof.Gen.KernelIdeal.Frame
import proofs.«402375_j12678743458344_1_alg».proof.Proof.MsgArr
import proofs.«402375_j12678743458344_1_alg».proof.Proof.Region1Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

/-- The zero offsets of a whole-block access, rank 2 and rank 1. -/
theorem hzz : (![0, 0] : Fin 2 → Nat) = fun _ => 0 := funext fun a => by fin_cases a <;> rfl
theorem hzo : (![0] : Fin 1 → Nat) = fun _ => 0 := funext fun a => by fin_cases a; rfl

/-- The printed index maps at every point of the grid: the two row-blocked inputs and the output are at block `(t, 0)`,
    the two weight matrices and the bias at block `0`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Point `t`'s block of the sender rows is rows `16000 t … 16000 t + 15999` of the array, all its columns. -/
theorem blkG_read (c : Dev nD) (t : Fin cfg1.N) (p : Fin 16000) (k : Fin 130) (e : Fin 1600000)
    (he : e.val = t.val * 16000 + p.val) :
    (iblk1 V c 0 t : Vec Ideal S16000x130 .f32) (ix2 p k) = (V c main_v31 : S1600000x130.Idx → EReal) (ix2 e k) := by
  obtain ⟨ea, eb, ec, ed, -⟩ := idx_facts t
  unfold iblk1
  rw [View.read_apply]
  show V c main_v31 _ = V c main_v31 _
  congr 1
  funext a; apply Fin.ext
  match a with
  | ⟨0, _⟩ => show win1_0.index t (0 : Fin 2) * 16000 + 1 * p.val = e.val; omega
  | ⟨1, _⟩ => show win1_0.index t (1 : Fin 2) * 130 + 1 * k.val = k.val; omega

/-- Point `t`'s block of the edge features is rows `16000 t … 16000 t + 15999` of the array, all its columns. -/
theorem blkF_read (c : Dev nD) (t : Fin cfg1.N) (p : Fin 16000) (k : Fin 4) (e : Fin 1600000)
    (he : e.val = t.val * 16000 + p.val) :
    (iblk1 V c 1 t : Vec Ideal S16000x4 .f32) (ix2 p k) = (V c main_arg3 : S1600000x4.Idx → EReal) (ix2 e k) := by
  obtain ⟨ea, eb, ec, ed, -⟩ := idx_facts t
  unfold iblk1
  rw [View.read_apply]
  show V c main_arg3 _ = V c main_arg3 _
  congr 1
  funext a; apply Fin.ext
  match a with
  | ⟨0, _⟩ => show win1_1.index t (0 : Fin 2) * 16000 + 1 * p.val = e.val; omega
  | ⟨1, _⟩ => show win1_1.index t (1 : Fin 2) * 4 + 1 * k.val = k.val; omega

/-- Every point's block of the node part of the weights is the whole array. -/
theorem blkWn_read (c : Dev nD) (t : Fin cfg1.N) (k : Fin 130) (q : Fin 128) :
    (iblk1 V c 2 t : Vec Ideal S130x128 .f32) (ix2 k q) = (V c main_v34 : S130x128.Idx → EReal) (ix2 k q) := by
  obtain ⟨-, -, -, -, ea, eb, ec, ed, -⟩ := idx_facts t
  unfold iblk1
  rw [View.read_apply]
  show V c main_v34 _ = V c main_v34 _
  congr 1
  funext a; apply Fin.ext
  match a with
  | ⟨0, _⟩ => show win1_2.index t (0 : Fin 2) * 130 + 1 * k.val = k.val; omega
  | ⟨1, _⟩ => show win1_2.index t (1 : Fin 2) * 128 + 1 * q.val = q.val; omega

/-- Every point's block of the edge part of the weights is the whole array. -/
theorem blkWe_read (c : Dev nD) (t : Fin cfg1.N) (k : Fin 4) (q : Fin 128) :
    (iblk1 V c 3 t : Vec Ideal S4x128 .f32) (ix2 k q) = (V c main_v35 : S4x128.Idx → EReal) (ix2 k q) := by
  obtain ⟨-, -, -, -, ea, eb, ec, ed, -⟩ := idx_facts t
  unfold iblk1
  rw [View.read_apply]
  show V c main_v35 _ = V c main_v35 _
  congr 1
  funext a; apply Fin.ext
  match a with
  | ⟨0, _⟩ => show win1_3.index t (0 : Fin 2) * 4 + 1 * k.val = k.val; omega
  | ⟨1, _⟩ => show win1_3.index t (1 : Fin 2) * 128 + 1 * q.val = q.val; omega

/-- Every point's block of the bias is the whole bias. -/
theorem blkB_read (c : Dev nD) (t : Fin cfg1.N) (q : Fin 128) :
    (iblk1 V c 4 t : Vec Ideal S128 .f32) (ix1 q) = (V c main_v37 : S128.Idx → EReal) (ix1 q) := by
  obtain ⟨-, -, -, -, -, -, -, -, ea, -⟩ := idx_facts t
  unfold iblk1
  rw [View.read_apply]
  show V c main_v37 _ = V c main_v37 _
  congr 1
  funext a; apply Fin.ext
  match a with
  | ⟨0, _⟩ => show win1_4.index t (0 : Fin 1) * 128 + 1 * q.val = q.val; omega

/-- Entry `(p, q)` of point `t`'s output block is entry `(16000 t + p, q)` of the output array. -/
theorem out_emb (t : Fin cfg1.N) (p : Fin 16000) (q : Fin 128) (e : Fin 1600000)
    (he : e.val = t.val * 16000 + p.val) :
    ((cfg1.win 5).blk t).view.emb (ix2 p q) = (ix2 e q : S1600000x128.Idx) := by
  obtain ⟨-, -, -, -, -, -, -, -, -, ea, eb⟩ := idx_facts t
  funext a; apply Fin.ext
  match a with
  | ⟨0, _⟩ => show win1_5.index t (0 : Fin 2) * 16000 + 1 * p.val = e.val; omega
  | ⟨1, _⟩ => show win1_5.index t (1 : Fin 2) * 128 + 1 * q.val = q.val; omega

/-- What point `t` writes back is block `t` of the message array of the arrays the region finds. -/
theorem flushed_eq (c : Dev nD) (t : Fin cfg1.N) :
    (dat1 V c).flushed 5 t = ((cfg1.win 5).blk t).view.read (Elt Ideal)
      (Cert.MsgArr.msgArr (V c main_v31) (V c main_arg3) (V c main_v34) (V c main_v35) (V c main_v37)) := by
  show (cfg1.win 5).cut (grid1.coords t) ((dat1 V c).after 5 t) = _
  rw [after1_5]
  unfold out1_5
  rw [View.canon_unit_zero hzz]
  simp only [View.ld_unit_zero (S := S16000x130) hzz, View.ld_unit_zero (S := S16000x4) hzz, View.ld_unit_zero (S := S130x128) hzz, View.ld_unit_zero (S := S4x128) hzz, View.ld_unit_zero (S := S128) hzo]
  refine funext fun (j : S16000x128.Idx) => ?_
  obtain ⟨p, q, rfl⟩ : ∃ (p : Fin 16000) (q : Fin 128), j = ix2 p q := ⟨j 0, j 1, eq_ix2 j⟩
  have ht : t.val < 100 := lt_of_lt_of_eq t.isLt N_1
  have hp : p.val < 16000 := p.isLt
  obtain ⟨e, he⟩ : ∃ e : Fin 1600000, e.val = t.val * 16000 + p.val := ⟨⟨t.val * 16000 + p.val, by omega⟩, rfl⟩
  refine Eq.trans ?_ (congrArg (Cert.MsgArr.msgArr (V c main_v31) (V c main_arg3) (V c main_v34) (V c main_v35) (V c main_v37)) (out_emb t p q e he)).symm
  rw [Cert.MsgArr.msgArr_apply]
  refine (pay_apply (iblk1 V c 0 t) (iblk1 V c 1 t) (iblk1 V c 2 t) (iblk1 V c 3 t) (iblk1 V c 4 t) p q).trans ?_
  rw [blkB_read V c t q]
  refine congrArg₂ (· + ·) (congrArg₂ (· + ·) (Finset.sum_congr rfl fun k _ => ?_) (Finset.sum_congr rfl fun k _ => ?_)) rfl
  · rw [blkG_read V c t p k e he, blkWn_read V c t k q]
  · rw [blkF_read V c t p k e he, blkWe_read V c t k q]

/-- An index of the output array is in point `t`'s block iff each coordinate is in the block's range on its axis. -/
theorem mem_blk (t : Fin cfg1.N) (i : S1600000x128.Idx) :
    i ∈ ((cfg1.win 5).blk t).view.set ↔ ∀ a : Fin 2, win1_5.index t a * S16000x128.size a ≤ (i a).val ∧ (i a).val < win1_5.index t a * S16000x128.size a + S16000x128.size a := by
  show i ∈ ((View.whole main_v38).slice (win1_5.rect t)).set ↔ _
  rw [View.set_slice_whole, Rect.mem_set_unit]
  exact Iff.rfl

/-- The 100 blocks of 16000 rows cover the output array: row `r` is in the block of point `r / 16000`. -/
theorem covered (i : S1600000x128.Idx) :
    ∃ t : Fin cfg1.N, (cfg1.win 5).flush t = true ∧ i ∈ ((cfg1.win 5).blk t).view.set := by
  have hr : (i 0).val < 1600000 := (i 0).isLt
  have hq : (i 1).val < 128 := (i 1).isLt
  have hN : cfg1.N = 100 := N_1
  obtain ⟨t, ht⟩ : ∃ t : Fin cfg1.N, t.val = (i 0).val / 16000 := ⟨⟨(i 0).val / 16000, by rw [hN]; omega⟩, rfl⟩
  obtain ⟨-, -, -, -, -, -, -, -, -, ea, eb⟩ := idx_facts t
  refine ⟨t, flush1_5 t, ?_⟩
  rw [mem_blk]
  intro a
  match a with
  | ⟨0, _⟩ => show win1_5.index t (0 : Fin 2) * 16000 ≤ (i 0).val ∧ (i 0).val < win1_5.index t (0 : Fin 2) * 16000 + 16000; omega
  | ⟨1, _⟩ => show win1_5.index t (1 : Fin 2) * 128 ≤ (i 1).val ∧ (i 1).val < win1_5.index t (1 : Fin 2) * 128 + 128; omega

/-- The output array after the launch is the message array of the arrays the region finds: every point writes back its
    block of it, and the blocks cover the array. -/
theorem out_array (c : Dev nD) :
    (dat1 (F := Ideal) V c).arrAt 5 cfg1.N
      = Cert.MsgArr.msgArr (V c main_v31) (V c main_arg3) (V c main_v34) (V c main_v35) (V c main_v37) :=
  (dat1 (F := Ideal) V c).arrAt_eq_of_cover 5
    (Cert.MsgArr.msgArr (V c main_v31) (V c main_arg3) (V c main_v34) (V c main_v35) (V c main_v37))
    (fun t _ => flushed_eq V c t) covered

end Cert.KernelIdeal.Region1

end
-- ==== Proof.Region2Pay.lean ====
/-
  The arithmetic of the message kernel's body at one entry of its block. The body loads the block's 16000 x 130 sender
  rows x0 and 16000 x 4 edge features x1, the 130 x 128 and 4 x 128 weight matrices x2, x3 and the bias x4, narrows the four
  matrices to bf16 (the identity on extended reals), multiplies x0 by x2 and x1 by x3, each into a zero accumulator, adds
  the two products and adds the bias, made a one-row matrix and repeated down the 16000 rows.

  A product into a zero accumulator read at (p, q) is the sum over the contraction's index; that index has one axis, so
  the sum runs over the contracted columns k, and the operands are read at (p, k) and (k, q) (`dotN_apply`, `dotE_apply`,
  from the four coordinate lemmas of each product). The repeated bias reads x4[q] in every row (`bias_apply`). So entry
  (p, q) is the sum over the 130 node columns k of x0[p, k] * x2[k, q], plus the sum over the 4 edge columns k of
  x1[p, k] * x3[k, q], plus x4[q] (`pay_apply`).
-/
import proofs.«402375_j12678743458344_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx

/-- The node product's left operand is read at the output's row … -/
theorem lhsN_row (i : S16000x128.Idx) (q : dot_S16000x130_S130x128_S16000x128_1_0_0_1_n_n.contr.Idx) :
    (dot_S16000x130_S130x128_S16000x128_1_0_0_1_n_n.lhsIdx i q 0).val = (i 0).val := by
  unfold DotDims.lhsIdx
  rw [dif_neg (show ¬(0 : Fin S16000x130.rank) ∈ dot_S16000x130_S130x128_S16000x128_1_0_0_1_n_n.lhsBatch by decide), dif_pos (show (0 : Fin S16000x130.rank) ∈ dot_S16000x130_S130x128_S16000x128_1_0_0_1_n_n.lhsNonContracting by decide)]
  rfl
/-- … and at the contracted column; -/
theorem lhsN_col (i : S16000x128.Idx) (q : dot_S16000x130_S130x128_S16000x128_1_0_0_1_n_n.contr.Idx) :
    (dot_S16000x130_S130x128_S16000x128_1_0_0_1_n_n.lhsIdx i q 1).val = (q ⟨0, by decide⟩).val :=
  dot_S16000x130_S130x128_S16000x128_1_0_0_1_n_n.lhsIdx_val_of_single rfl i q
/-- its right operand at the contracted row … -/
theorem rhsN_row (i : S16000x128.Idx) (q : dot_S16000x130_S130x128_S16000x128_1_0_0_1_n_n.contr.Idx) :
    (dot_S16000x130_S130x128_S16000x128_1_0_0_1_n_n.rhsIdx i q 0).val = (q ⟨0, by decide⟩).val :=
  dot_S16000x130_S130x128_S16000x128_1_0_0_1_n_n.rhsIdx_val_of_single rfl i q
/-- … and at the output's column. -/
theorem rhsN_col (i : S16000x128.Idx) (q : dot_S16000x130_S130x128_S16000x128_1_0_0_1_n_n.contr.Idx) :
    (dot_S16000x130_S130x128_S16000x128_1_0_0_1_n_n.rhsIdx i q 1).val = (i 1).val := by
  unfold DotDims.rhsIdx
  rw [dif_neg (show ¬(1 : Fin S130x128.rank) ∈ dot_S16000x130_S130x128_S16000x128_1_0_0_1_n_n.rhsBatch by decide), dif_pos (show (1 : Fin S130x128.rank) ∈ dot_S16000x130_S130x128_S16000x128_1_0_0_1_n_n.rhsNonContracting by decide)]
  rfl

/-- The node product into a zero accumulator, read at row `p` and column `q`: the plain sum over the 130
    contracted columns of the left operand's row `p` times the right operand's column `q`. -/
theorem dotN_apply (l : FVec Ideal S16000x130 .bf16) (r : FVec Ideal S130x128 .bf16) (p : Fin 16000) (q : Fin 128) :
    matmul dot_S16000x130_S130x128_S16000x128_1_0_0_1_n_n none l r (constant (F := Ideal) S16000x128 .f32 0x00000000#32) (ix2 p q)
      = ∑ k : Fin 130, l (ix2 p k) * r (ix2 k q) := by
  refine (Ideal.matmul_constant_zero_apply dot_S16000x130_S130x128_S16000x128_1_0_0_1_n_n none l r (ix2 p q)).trans ?_
  rw [← Equiv.sum_comp (contrEquiv1 dot_S16000x130_S130x128_S16000x128_1_0_0_1_n_n 130 rfl rfl).symm]
  refine Finset.sum_congr rfl fun k _ => ?_
  have hk := contrEquiv1_symm_val dot_S16000x130_S130x128_S16000x128_1_0_0_1_n_n 130 rfl rfl k
  have el : dot_S16000x130_S130x128_S16000x128_1_0_0_1_n_n.lhsIdx (ix2 p q) ((contrEquiv1 dot_S16000x130_S130x128_S16000x128_1_0_0_1_n_n 130 rfl rfl).symm k) = ix2 p k := funext fun a => Fin.ext (by
    match a with
    | ⟨0, _⟩ => exact lhsN_row _ _
    | ⟨1, _⟩ => exact (lhsN_col _ _).trans hk)
  have er : dot_S16000x130_S130x128_S16000x128_1_0_0_1_n_n.rhsIdx (ix2 p q) ((contrEquiv1 dot_S16000x130_S130x128_S16000x128_1_0_0_1_n_n 130 rfl rfl).symm k) = ix2 k q := funext fun a => Fin.ext (by
    match a with
    | ⟨0, _⟩ => exact (rhsN_row _ _).trans hk
    | ⟨1, _⟩ => exact rhsN_col _ _)
  rw [el, er]

/-- The edge product's left operand is read at the output's row … -/
theorem lhsE_row (i : S16000x128.Idx) (q : dot_S16000x4_S4x128_S16000x128_1_0_0_1_n_n.contr.Idx) :
    (dot_S16000x4_S4x128_S16000x128_1_0_0_1_n_n.lhsIdx i q 0).val = (i 0).val := by
  unfold DotDims.lhsIdx
  rw [dif_neg (show ¬(0 : Fin S16000x4.rank) ∈ dot_S16000x4_S4x128_S16000x128_1_0_0_1_n_n.lhsBatch by decide), dif_pos (show (0 : Fin S16000x4.rank) ∈ dot_S16000x4_S4x128_S16000x128_1_0_0_1_n_n.lhsNonContracting by decide)]
  rfl
/-- … and at the contracted column; -/
theorem lhsE_col (i : S16000x128.Idx) (q : dot_S16000x4_S4x128_S16000x128_1_0_0_1_n_n.contr.Idx) :
    (dot_S16000x4_S4x128_S16000x128_1_0_0_1_n_n.lhsIdx i q 1).val = (q ⟨0, by decide⟩).val :=
  dot_S16000x4_S4x128_S16000x128_1_0_0_1_n_n.lhsIdx_val_of_single rfl i q
/-- its right operand at the contracted row … -/
theorem rhsE_row (i : S16000x128.Idx) (q : dot_S16000x4_S4x128_S16000x128_1_0_0_1_n_n.contr.Idx) :
    (dot_S16000x4_S4x128_S16000x128_1_0_0_1_n_n.rhsIdx i q 0).val = (q ⟨0, by decide⟩).val :=
  dot_S16000x4_S4x128_S16000x128_1_0_0_1_n_n.rhsIdx_val_of_single rfl i q
/-- … and at the output's column. -/
theorem rhsE_col (i : S16000x128.Idx) (q : dot_S16000x4_S4x128_S16000x128_1_0_0_1_n_n.contr.Idx) :
    (dot_S16000x4_S4x128_S16000x128_1_0_0_1_n_n.rhsIdx i q 1).val = (i 1).val := by
  unfold DotDims.rhsIdx
  rw [dif_neg (show ¬(1 : Fin S4x128.rank) ∈ dot_S16000x4_S4x128_S16000x128_1_0_0_1_n_n.rhsBatch by decide), dif_pos (show (1 : Fin S4x128.rank) ∈ dot_S16000x4_S4x128_S16000x128_1_0_0_1_n_n.rhsNonContracting by decide)]
  rfl

/-- The edge product into a zero accumulator, read at row `p` and column `q`: the plain sum over the 4
    contracted columns of the left operand's row `p` times the right operand's column `q`. -/
theorem dotE_apply (l : FVec Ideal S16000x4 .bf16) (r : FVec Ideal S4x128 .bf16) (p : Fin 16000) (q : Fin 128) :
    matmul dot_S16000x4_S4x128_S16000x128_1_0_0_1_n_n none l r (constant (F := Ideal) S16000x128 .f32 0x00000000#32) (ix2 p q)
      = ∑ k : Fin 4, l (ix2 p k) * r (ix2 k q) := by
  refine (Ideal.matmul_constant_zero_apply dot_S16000x4_S4x128_S16000x128_1_0_0_1_n_n none l r (ix2 p q)).trans ?_
  rw [← Equiv.sum_comp (contrEquiv1 dot_S16000x4_S4x128_S16000x128_1_0_0_1_n_n 4 rfl rfl).symm]
  refine Finset.sum_congr rfl fun k _ => ?_
  have hk := contrEquiv1_symm_val dot_S16000x4_S4x128_S16000x128_1_0_0_1_n_n 4 rfl rfl k
  have el : dot_S16000x4_S4x128_S16000x128_1_0_0_1_n_n.lhsIdx (ix2 p q) ((contrEquiv1 dot_S16000x4_S4x128_S16000x128_1_0_0_1_n_n 4 rfl rfl).symm k) = ix2 p k := funext fun a => Fin.ext (by
    match a with
    | ⟨0, _⟩ => exact lhsE_row _ _
    | ⟨1, _⟩ => exact (lhsE_col _ _).trans hk)
  have er : dot_S16000x4_S4x128_S16000x128_1_0_0_1_n_n.rhsIdx (ix2 p q) ((contrEquiv1 dot_S16000x4_S4x128_S16000x128_1_0_0_1_n_n 4 rfl rfl).symm k) = ix2 k q := funext fun a => Fin.ext (by
    match a with
    | ⟨0, _⟩ => exact (rhsE_row _ _).trans hk
    | ⟨1, _⟩ => exact rhsE_col _ _)
  rw [el, er]

/-- The bias, made a one-row matrix and repeated down the rows, reads the bias's entry `q` in every row. -/
theorem bias_apply (x4 : Vec Ideal S128 .f32) (p : Fin 16000) (q : Fin 128) :
    broadcastTo S16000x128 (shapeCast S1x128 (shapeCast S128 x4 shapeCasts_S128_S128) shapeCasts_S128_S1x128) broadcasts_S1x128_S16000x128 (ix2 p q)
      = x4 (ix1 q) := by
  rw [broadcastTo_apply _ broadcasts_S1x128_S16000x128 (ix2 p q) (ix2 (⟨0, Nat.one_pos⟩ : Fin 1) q) (fun a => by
    match a with
    | ⟨0, _⟩ => rfl
    | ⟨1, _⟩ => rfl)]
  rw [shapeCast_addUnit_apply ![128], shapeCast_self]
  exact congrArg x4 (funext fun a => by match a with | ⟨0, _⟩ => rfl)

/-- What the body stores at row `p`, column `q` of its block, from the five blocks it loads: the change of float format is
    the identity on extended reals, each product into a zero accumulator is the plain sum, and the bias is the same in
    every row. -/
theorem pay_apply (x0 : Vec Ideal S16000x130 .f32) (x1 : Vec Ideal S16000x4 .f32) (x2 : Vec Ideal S130x128 .f32) (x3 : Vec Ideal S4x128 .f32) (x4 : Vec Ideal S128 .f32) (p : Fin 16000) (q : Fin 128) :
    k2_pay1 x0 x1 x2 x3 x4 (ix2 p q)
      = ((∑ k : Fin 130, x0 (ix2 p k) * x2 (ix2 k q)) + ∑ k : Fin 4, x1 (ix2 p k) * x3 (ix2 k q)) + x4 (ix1 q) := by
  unfold k2_pay1
  rw [addf_apply, addf_apply, dotN_apply, dotE_apply, bias_apply]
  simp only [truncf_apply, shapeCast_self]

end Cert.KernelIdeal.Region2

end
-- ==== Proof.Region2.lean ====
/-
  What the third launch of the message kernel leaves in its output array. The grid has 100 points; point t works on rows
  16000 t … 16000 t + 15999 of the 1600000 edges: the sender rows, the edge features and the output are blocked by rows
  at block (t, 0), the two weight matrices and the bias are read whole at every point, and the body stores its 16000 x 128
  block whole.

  The row-blocked windows read rows 16000 t + p of their arrays and the other three read their arrays whole (`blkG_read` …
  `blkB_read`); entry (p, q) of the output block is entry (16000 t + p, q) of the output array (`out_emb`). With the body's
  arithmetic at an entry (`pay_apply`) this makes what point t writes back block t of the message array of the arrays the
  region finds (`flushed_eq`). Row r lies in the block of point r / 16000, so the blocks cover the array (`covered`), and
  the array ends holding the message array (`out_array`).
-/
import proofs.«402375_j12678743458344_1_alg».proof.Proof.Gen.KernelIdeal.Frame
import proofs.«402375_j12678743458344_1_alg».proof.Proof.MsgArr
import proofs.«402375_j12678743458344_1_alg».proof.Proof.Region2Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

/-- The zero offsets of a whole-block access, rank 2 and rank 1. -/
theorem hzz : (![0, 0] : Fin 2 → Nat) = fun _ => 0 := funext fun a => by fin_cases a <;> rfl
theorem hzo : (![0] : Fin 1 → Nat) = fun _ => 0 := funext fun a => by fin_cases a; rfl

/-- The printed index maps at every point of the grid: the two row-blocked inputs and the output are at block `(t, 0)`,
    the two weight matrices and the bias at block `0`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Point `t`'s block of the sender rows is rows `16000 t … 16000 t + 15999` of the array, all its columns. -/
theorem blkG_read (c : Dev nD) (t : Fin cfg2.N) (p : Fin 16000) (k : Fin 130) (e : Fin 1600000)
    (he : e.val = t.val * 16000 + p.val) :
    (iblk2 V c 0 t : Vec Ideal S16000x130 .f32) (ix2 p k) = (V c main_v53 : S1600000x130.Idx → EReal) (ix2 e k) := by
  obtain ⟨ea, eb, ec, ed, -⟩ := idx_facts t
  unfold iblk2
  rw [View.read_apply]
  show V c main_v53 _ = V c main_v53 _
  congr 1
  funext a; apply Fin.ext
  match a with
  | ⟨0, _⟩ => show win2_0.index t (0 : Fin 2) * 16000 + 1 * p.val = e.val; omega
  | ⟨1, _⟩ => show win2_0.index t (1 : Fin 2) * 130 + 1 * k.val = k.val; omega

/-- Point `t`'s block of the edge features is rows `16000 t … 16000 t + 15999` of the array, all its columns. -/
theorem blkF_read (c : Dev nD) (t : Fin cfg2.N) (p : Fin 16000) (k : Fin 4) (e : Fin 1600000)
    (he : e.val = t.val * 16000 + p.val) :
    (iblk2 V c 1 t : Vec Ideal S16000x4 .f32) (ix2 p k) = (V c main_arg3 : S1600000x4.Idx → EReal) (ix2 e k) := by
  obtain ⟨ea, eb, ec, ed, -⟩ := idx_facts t
  unfold iblk2
  rw [View.read_apply]
  show V c main_arg3 _ = V c main_arg3 _
  congr 1
  funext a; apply Fin.ext
  match a with
  | ⟨0, _⟩ => show win2_1.index t (0 : Fin 2) * 16000 + 1 * p.val = e.val; omega
  | ⟨1, _⟩ => show win2_1.index t (1 : Fin 2) * 4 + 1 * k.val = k.val; omega

/-- Every point's block of the node part of the weights is the whole array. -/
theorem blkWn_read (c : Dev nD) (t : Fin cfg2.N) (k : Fin 130) (q : Fin 128) :
    (iblk2 V c 2 t : Vec Ideal S130x128 .f32) (ix2 k q) = (V c main_v56 : S130x128.Idx → EReal) (ix2 k q) := by
  obtain ⟨-, -, -, -, ea, eb, ec, ed, -⟩ := idx_facts t
  unfold iblk2
  rw [View.read_apply]
  show V c main_v56 _ = V c main_v56 _
  congr 1
  funext a; apply Fin.ext
  match a with
  | ⟨0, _⟩ => show win2_2.index t (0 : Fin 2) * 130 + 1 * k.val = k.val; omega
  | ⟨1, _⟩ => show win2_2.index t (1 : Fin 2) * 128 + 1 * q.val = q.val; omega

/-- Every point's block of the edge part of the weights is the whole array. -/
theorem blkWe_read (c : Dev nD) (t : Fin cfg2.N) (k : Fin 4) (q : Fin 128) :
    (iblk2 V c 3 t : Vec Ideal S4x128 .f32) (ix2 k q) = (V c main_v57 : S4x128.Idx → EReal) (ix2 k q) := by
  obtain ⟨-, -, -, -, ea, eb, ec, ed, -⟩ := idx_facts t
  unfold iblk2
  rw [View.read_apply]
  show V c main_v57 _ = V c main_v57 _
  congr 1
  funext a; apply Fin.ext
  match a with
  | ⟨0, _⟩ => show win2_3.index t (0 : Fin 2) * 4 + 1 * k.val = k.val; omega
  | ⟨1, _⟩ => show win2_3.index t (1 : Fin 2) * 128 + 1 * q.val = q.val; omega

/-- Every point's block of the bias is the whole bias. -/
theorem blkB_read (c : Dev nD) (t : Fin cfg2.N) (q : Fin 128) :
    (iblk2 V c 4 t : Vec Ideal S128 .f32) (ix1 q) = (V c main_v59 : S128.Idx → EReal) (ix1 q) := by
  obtain ⟨-, -, -, -, -, -, -, -, ea, -⟩ := idx_facts t
  unfold iblk2
  rw [View.read_apply]
  show V c main_v59 _ = V c main_v59 _
  congr 1
  funext a; apply Fin.ext
  match a with
  | ⟨0, _⟩ => show win2_4.index t (0 : Fin 1) * 128 + 1 * q.val = q.val; omega

/-- Entry `(p, q)` of point `t`'s output block is entry `(16000 t + p, q)` of the output array. -/
theorem out_emb (t : Fin cfg2.N) (p : Fin 16000) (q : Fin 128) (e : Fin 1600000)
    (he : e.val = t.val * 16000 + p.val) :
    ((cfg2.win 5).blk t).view.emb (ix2 p q) = (ix2 e q : S1600000x128.Idx) := by
  obtain ⟨-, -, -, -, -, -, -, -, -, ea, eb⟩ := idx_facts t
  funext a; apply Fin.ext
  match a with
  | ⟨0, _⟩ => show win2_5.index t (0 : Fin 2) * 16000 + 1 * p.val = e.val; omega
  | ⟨1, _⟩ => show win2_5.index t (1 : Fin 2) * 128 + 1 * q.val = q.val; omega

/-- What point `t` writes back is block `t` of the message array of the arrays the region finds. -/
theorem flushed_eq (c : Dev nD) (t : Fin cfg2.N) :
    (dat2 V c).flushed 5 t = ((cfg2.win 5).blk t).view.read (Elt Ideal)
      (Cert.MsgArr.msgArr (V c main_v53) (V c main_arg3) (V c main_v56) (V c main_v57) (V c main_v59)) := by
  show (cfg2.win 5).cut (grid2.coords t) ((dat2 V c).after 5 t) = _
  rw [after2_5]
  unfold out2_5
  rw [View.canon_unit_zero hzz]
  simp only [View.ld_unit_zero (S := S16000x130) hzz, View.ld_unit_zero (S := S16000x4) hzz, View.ld_unit_zero (S := S130x128) hzz, View.ld_unit_zero (S := S4x128) hzz, View.ld_unit_zero (S := S128) hzo]
  refine funext fun (j : S16000x128.Idx) => ?_
  obtain ⟨p, q, rfl⟩ : ∃ (p : Fin 16000) (q : Fin 128), j = ix2 p q := ⟨j 0, j 1, eq_ix2 j⟩
  have ht : t.val < 100 := lt_of_lt_of_eq t.isLt N_2
  have hp : p.val < 16000 := p.isLt
  obtain ⟨e, he⟩ : ∃ e : Fin 1600000, e.val = t.val * 16000 + p.val := ⟨⟨t.val * 16000 + p.val, by omega⟩, rfl⟩
  refine Eq.trans ?_ (congrArg (Cert.MsgArr.msgArr (V c main_v53) (V c main_arg3) (V c main_v56) (V c main_v57) (V c main_v59)) (out_emb t p q e he)).symm
  rw [Cert.MsgArr.msgArr_apply]
  refine (pay_apply (iblk2 V c 0 t) (iblk2 V c 1 t) (iblk2 V c 2 t) (iblk2 V c 3 t) (iblk2 V c 4 t) p q).trans ?_
  rw [blkB_read V c t q]
  refine congrArg₂ (· + ·) (congrArg₂ (· + ·) (Finset.sum_congr rfl fun k _ => ?_) (Finset.sum_congr rfl fun k _ => ?_)) rfl
  · rw [blkG_read V c t p k e he, blkWn_read V c t k q]
  · rw [blkF_read V c t p k e he, blkWe_read V c t k q]

/-- An index of the output array is in point `t`'s block iff each coordinate is in the block's range on its axis. -/
theorem mem_blk (t : Fin cfg2.N) (i : S1600000x128.Idx) :
    i ∈ ((cfg2.win 5).blk t).view.set ↔ ∀ a : Fin 2, win2_5.index t a * S16000x128.size a ≤ (i a).val ∧ (i a).val < win2_5.index t a * S16000x128.size a + S16000x128.size a := by
  show i ∈ ((View.whole main_v60).slice (win2_5.rect t)).set ↔ _
  rw [View.set_slice_whole, Rect.mem_set_unit]
  exact Iff.rfl

/-- The 100 blocks of 16000 rows cover the output array: row `r` is in the block of point `r / 16000`. -/
theorem covered (i : S1600000x128.Idx) :
    ∃ t : Fin cfg2.N, (cfg2.win 5).flush t = true ∧ i ∈ ((cfg2.win 5).blk t).view.set := by
  have hr : (i 0).val < 1600000 := (i 0).isLt
  have hq : (i 1).val < 128 := (i 1).isLt
  have hN : cfg2.N = 100 := N_2
  obtain ⟨t, ht⟩ : ∃ t : Fin cfg2.N, t.val = (i 0).val / 16000 := ⟨⟨(i 0).val / 16000, by rw [hN]; omega⟩, rfl⟩
  obtain ⟨-, -, -, -, -, -, -, -, -, ea, eb⟩ := idx_facts t
  refine ⟨t, flush2_5 t, ?_⟩
  rw [mem_blk]
  intro a
  match a with
  | ⟨0, _⟩ => show win2_5.index t (0 : Fin 2) * 16000 ≤ (i 0).val ∧ (i 0).val < win2_5.index t (0 : Fin 2) * 16000 + 16000; omega
  | ⟨1, _⟩ => show win2_5.index t (1 : Fin 2) * 128 ≤ (i 1).val ∧ (i 1).val < win2_5.index t (1 : Fin 2) * 128 + 128; omega

/-- The output array after the launch is the message array of the arrays the region finds: every point writes back its
    block of it, and the blocks cover the array. -/
theorem out_array (c : Dev nD) :
    (dat2 (F := Ideal) V c).arrAt 5 cfg2.N
      = Cert.MsgArr.msgArr (V c main_v53) (V c main_arg3) (V c main_v56) (V c main_v57) (V c main_v59) :=
  (dat2 (F := Ideal) V c).arrAt_eq_of_cover 5
    (Cert.MsgArr.msgArr (V c main_v53) (V c main_arg3) (V c main_v56) (V c main_v57) (V c main_v59))
    (fun t _ => flushed_eq V c t) covered

end Cert.KernelIdeal.Region2

end
-- ==== Proof.MsgEq.lean ====
/-
  The message array the kernel's launches compute is the reference's message array, when every sender index lies in
  0 .. 99999. Two facts. First, the kernel's program fetches the sender rows under a mask that tests each row index
  against the node range and puts the not-a-number word where the test fails; with every sender index in range no index
  is shifted, both comparisons hold, the `and` over the one-element axis is 1, and the masked fetch is the plain
  gather of the sender rows. Second, the reference contracts the 134 columns of `[sender row | edge features]` against
  the 134 rows of the layer's weights in one sum; the kernel contracts the first 130 columns against the first 130 rows
  and the last 4 against the last 4 and adds the two. A finite sum over 134 terms is the sum over the first 130 plus the
  sum over the last 4 in any additive commutative monoid, so over the extended reals the split needs no finiteness.
-/
import proofs.«402375_j12678743458344_1_alg».proof.Proof.KerDefs
import proofs.«402375_j12678743458344_1_alg».proof.Proof.MsgArr
import proofs.«402375_j12678743458344_1_alg».proof.Proof.Layers
import Idealize.ShloMosaic.Lib.Pipeline.Value
import Idealize.ShloMosaic.Lib.ValueIdx
import Idealize.ShloMosaic.Lib.ValueLayout
import Idealize.ShloMosaic.Lib.ReduceAll
import Idealize.ShloMosaic.PureOps.Ideal.Laws

noncomputable section

open scoped BigOperators

namespace Cert.MsgEq

/-! ## The sender mask is all ones -/

section Mask

open Idealize.ShloMosaic Idealize.ShloMosaic.TcCoe Idealize.ShloMosaic.ValueIdx

/-- A left fold by `and`, started at 1, over words that are all 1 ends at 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = 1#1 := by decide
    rw [List.foldl_cons, h a (by simp), e]
    exact foldl_andi_one f l fun n hn => h n (List.mem_cons_of_mem _ hn)

/-- A reduction by `and` from 1 of an array of ones is 1 at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x _ fun n _ => hx n

/-- Where the word `s k` is nonnegative, "take `a` if `s` is below `z`, else `s`" with `z k = 0` takes `s k`. -/
theorem select_neg_eq {S : Shape} (s a z : IVec S 32) (k : S.Idx) (hz : z k = 0#32)
    (h : IntOp.cmpi .sge (s k) 0#32 = 1#1) : select (cmpi .slt s z) a s k = s k := by
  rw [select_apply]
  have h0 : cmpi .slt s z k = 0#1 := by
    show IntOp.cmpi .slt (s k) (z k) = 0#1
    rw [hz]
    refine eq_zero_of_ne_one fun h' => ?_
    have h1 := IntOp.cmpi_slt.1 h'
    have h2 := IntOp.cmpi_sge.1 h
    omega
  rw [h0, select_zero]

open Cert.KernelIdeal Cert.KernelIdeal.Gen Cert.KernelIdeal.HostFns

variable (s : IVec S1600000 32)
  (hs : ∀ e : S1600000.Idx, IntOp.cmpi .sge (s e) 0#32 = 1#1 ∧ IntOp.cmpi .slt (s e) 100000#32 = 1#1)

include hs in
/-- Every row index is one of the sender indices themselves: none is negative, so none is shifted. -/
theorem rowIdx_eq (i : S1600000x1.Idx) : ∃ e : S1600000.Idx, Cert.Layers.rowIdx s i = s e := by
  unfold Cert.Layers.rowIdx broadcastInDim
  exact ⟨_, select_neg_eq s _ _ _ rfl (hs _).1⟩

include hs in
/-- The mask is 1 everywhere: every row index lies in 0 .. 99999. -/
theorem rowMask_one (j : S1600000x130.Idx) : rowMask s j = 1#1 := by
  unfold rowMask broadcastInDim
  refine reduce_andi_one _ _ _ _ (fun i => ?_) rfl _
  obtain ⟨e, he⟩ := rowIdx_eq s hs i
  show IntOp.andi (IntOp.cmpi .sge (Cert.Layers.rowIdx s i) 0#32) (IntOp.cmpi .sle (Cert.Layers.rowIdx s i) 99999#32) = 1#1
  have h2 := IntOp.cmpi_slt.1 (hs e).2
  have h3 : IntOp.cmpi .sle (s e) 99999#32 = 1#1 := IntOp.cmpi_sle.2 (by
    have a : (100000#32 : BitVec 32).toInt = 100000 := by decide
    have b : (99999#32 : BitVec 32).toInt = 99999 := by decide
    omega)
  rw [he, (hs e).1, h3]
  decide

include hs in
/-- With every sender index in range the kernel's program fetches exactly the sender rows. -/
theorem takeRows_eq (ni : FVec Ideal S100000x130 .f32) :
    takeRows (F := Ideal) ni s = Cert.Layers.senderRows (F := Ideal) ni s := by
  funext i
  unfold takeRows
  rw [select_apply, rowMask_one s hs i, select_one]
  rfl

end Mask

/-! ## The reference's message at an index -/

section RefSide

open Cert.ReferenceIdeal Cert.ReferenceIdeal.Gen
open Idealize.ShloMosaic Idealize.ShloMosaic.TcCoe Idealize.ShloMosaic.ValueIdx

/-- A sum over 134 terms is the sum of the first 130 plus the sum of the last 4. -/
theorem sum_split {M : Type} [AddCommMonoid M] (f : Fin 134 → M) :
    ∑ k : Fin 134, f k
      = (∑ k : Fin 130, f ⟨k.val, by have := k.isLt; omega⟩) + ∑ k : Fin 4, f ⟨130 + k.val, by have := k.isLt; omega⟩ :=
  Fin.sum_univ_add (a := 130) (b := 4) f

theorem lhs_ax0 (i : S1600000x128.Idx) (q : dot_S1600000x134_S134x128_S1600000x128_1_0_0_1_n_n.contr.Idx) :
    (dot_S1600000x134_S134x128_S1600000x128_1_0_0_1_n_n.lhsIdx i q 0).val = (i 0).val := by
  unfold DotDims.lhsIdx
  rw [dif_neg (show ¬(0 : Fin S1600000x134.rank) ∈ dot_S1600000x134_S134x128_S1600000x128_1_0_0_1_n_n.lhsBatch by decide), dif_pos (show (0 : Fin S1600000x134.rank) ∈ dot_S1600000x134_S134x128_S1600000x128_1_0_0_1_n_n.lhsNonContracting by decide)]
  rfl
theorem lhs_ax1 (i : S1600000x128.Idx) (q : dot_S1600000x134_S134x128_S1600000x128_1_0_0_1_n_n.contr.Idx) :
    (dot_S1600000x134_S134x128_S1600000x128_1_0_0_1_n_n.lhsIdx i q 1).val = (q ⟨0, by decide⟩).val :=
  dot_S1600000x134_S134x128_S1600000x128_1_0_0_1_n_n.lhsIdx_val_of_single rfl i q
theorem rhs_ax0 (i : S1600000x128.Idx) (q : dot_S1600000x134_S134x128_S1600000x128_1_0_0_1_n_n.contr.Idx) :
    (dot_S1600000x134_S134x128_S1600000x128_1_0_0_1_n_n.rhsIdx i q 0).val = (q ⟨0, by decide⟩).val :=
  dot_S1600000x134_S134x128_S1600000x128_1_0_0_1_n_n.rhsIdx_val_of_single rfl i q
theorem rhs_ax1 (i : S1600000x128.Idx) (q : dot_S1600000x134_S134x128_S1600000x128_1_0_0_1_n_n.contr.Idx) :
    (dot_S1600000x134_S134x128_S1600000x128_1_0_0_1_n_n.rhsIdx i q 1).val = (i 1).val := by
  unfold DotDims.rhsIdx
  rw [dif_neg (show ¬(1 : Fin S134x128.rank) ∈ dot_S1600000x134_S134x128_S1600000x128_1_0_0_1_n_n.rhsBatch by decide), dif_pos (show (1 : Fin S134x128.rank) ∈ dot_S1600000x134_S134x128_S1600000x128_1_0_0_1_n_n.rhsNonContracting by decide)]
  rfl

/-- The product of a 1600000 x 134 array by a 134 x 128 array at (e, j): the sum over the 134 columns. -/
theorem dot_apply (y0 : FVec Ideal S1600000x134 .f32) (y1 : FVec Ideal S134x128 .f32) (e : Fin 1600000) (j : Fin 128) :
    Host.dotGeneral (F := Ideal) dot_S1600000x134_S134x128_S1600000x128_1_0_0_1_n_n none y0 y1 (ix2 e j) = ∑ k : Fin 134, y0 (ix2 e k) * y1 (ix2 k j) := by
  simp only [Host.dotGeneral]
  rw [Ideal.dotGeneral_apply, ← Equiv.sum_comp (ValueIdx.contrEquiv1 dot_S1600000x134_S134x128_S1600000x128_1_0_0_1_n_n 134 rfl rfl).symm]
  refine Finset.sum_congr rfl fun k _ => ?_
  have hk := ValueIdx.contrEquiv1_symm_val dot_S1600000x134_S134x128_S1600000x128_1_0_0_1_n_n 134 rfl rfl k
  have el : dot_S1600000x134_S134x128_S1600000x128_1_0_0_1_n_n.lhsIdx (ix2 e j) ((ValueIdx.contrEquiv1 dot_S1600000x134_S134x128_S1600000x128_1_0_0_1_n_n 134 rfl rfl).symm k) = ix2 e k := funext fun a => Fin.ext (by
    match a with
    | ⟨0, _⟩ => exact lhs_ax0 _ _
    | ⟨1, _⟩ => exact (lhs_ax1 _ _).trans hk)
  have er : dot_S1600000x134_S134x128_S1600000x128_1_0_0_1_n_n.rhsIdx (ix2 e j) ((ValueIdx.contrEquiv1 dot_S1600000x134_S134x128_S1600000x128_1_0_0_1_n_n 134 rfl rfl).symm k) = ix2 k j := funext fun a => Fin.ext (by
    match a with
    | ⟨0, _⟩ => exact (rhs_ax0 _ _).trans hk
    | ⟨1, _⟩ => exact rhs_ax1 _ _)
  rw [el, er]

/-- The row `[g | ef]` at a column below 130 is `g`'s. -/
theorem cat_left (g : FVec Ideal S1600000x130 .f32) (ef : FVec Ideal S1600000x4 .f32) (e : Fin 1600000) (k : Fin 130) (hk : k.val < 134) :
    concatenate S1600000x134 1 [⟨S1600000x130, g⟩, ⟨S1600000x4, ef⟩] concatenates_S1600000x130_S1600000x4_S1600000x134_d1 (ix2 e ⟨k.val, hk⟩)
      = g (ix2 e k) :=
  concatenate_pair_apply_left 1 g ef _ (ix2 e ⟨k.val, hk⟩) rfl (ix2 e k) (fun b => match b with
    | ⟨0, _⟩ => rfl
    | ⟨1, _⟩ => rfl)

/-- The row `[g | ef]` at column 130 + k is `ef`'s at column k. -/
theorem cat_right (g : FVec Ideal S1600000x130 .f32) (ef : FVec Ideal S1600000x4 .f32) (e : Fin 1600000) (k : Fin 4) (hk : 130 + k.val < 134) :
    concatenate S1600000x134 1 [⟨S1600000x130, g⟩, ⟨S1600000x4, ef⟩] concatenates_S1600000x130_S1600000x4_S1600000x134_d1 (ix2 e ⟨130 + k.val, hk⟩)
      = ef (ix2 e k) :=
  concatenate_pair_apply_right 1 g ef _ (ix2 e ⟨130 + k.val, hk⟩) rfl rfl (ix2 e k) (fun b => match b with
    | ⟨0, _⟩ => fun _ => rfl
    | ⟨1, _⟩ => fun h => absurd rfl h) (by show k.val + 130 = 130 + k.val; omega)

/-- The bias row spread over all edges, at (e, j), is the bias at j. -/
theorem bias_apply (bl : FVec Ideal S128 .f32) (e : Fin 1600000) (j : Fin 128) :
    broadcastInDim S1600000x128 ![0, 1] bcast_S1x128_S1600000x128_0_1 (broadcastInDim S1x128 ![1] bcast_S128_S1x128_1 bl) (ix2 e j)
      = bl (ix1 j) :=
  (broadcastInDim_apply _ bcast_S1x128_S1600000x128_0_1 _ (ix2 e j) (ix2 (0 : Fin 1) j) (fun a => match a with
    | ⟨0, _⟩ => by show 0 = if (1 : Nat) = 1 then 0 else e.val; rw [if_pos rfl]
    | ⟨1, _⟩ => by show j.val = if (128 : Nat) = 1 then 0 else j.val; rw [if_neg (by decide)])).trans
  (broadcastInDim_apply _ bcast_S128_S1x128_1 bl (ix2 (0 : Fin 1) j) (ix1 j) (fun a => match a with
    | ⟨0, _⟩ => by show j.val = if (128 : Nat) = 1 then 0 else j.val; rw [if_neg (by decide)]))

/-- The reference's message at (e, j): the 134-column contraction split at column 130, plus the bias. -/
theorem msgOfRows_apply (g : FVec Ideal S1600000x130 .f32) (ef : FVec Ideal S1600000x4 .f32) (wl : FVec Ideal S134x128 .f32)
    (bl : FVec Ideal S128 .f32) (e : Fin 1600000) (j : Fin 128) :
    Cert.Layers.msgOfRows (F := Ideal) g ef wl bl (ix2 e j)
      = ((∑ k : Fin 130, g (ix2 e k) * wl (ix2 (⟨k.val, by have := k.isLt; omega⟩ : Fin 134) j))
          + ∑ k : Fin 4, ef (ix2 e k) * wl (ix2 (⟨130 + k.val, by have := k.isLt; omega⟩ : Fin 134) j)) + bl (ix1 j) := by
  unfold Cert.Layers.msgOfRows
  rw [addf_apply, dot_apply, bias_apply, sum_split]
  simp only [cat_left, cat_right]

end RefSide

/-! ## The two parts of the weights at an index -/

section Weights

open Cert.KernelIdeal Cert.KernelIdeal.Gen Cert.KernelIdeal.HostFns
open Idealize.ShloMosaic Idealize.ShloMosaic.TcCoe Idealize.ShloMosaic.ValueIdx

/-- Row k of the node part is row k of the whole matrix. -/
theorem wNode_apply (wl : FVec Ideal S134x128 .f32) (k : Fin 130) (j : Fin 128) :
    wNode (F := Ideal) wl (ix2 k j) = wl (ix2 (⟨k.val, by have := k.isLt; omega⟩ : Fin 134) j) := by
  unfold wNode
  exact extractStridedSlice_apply ![0, 0] wl slices_S134x128_S130x128_0_0 (ix2 k j) _ (fun a => match a with
    | ⟨0, _⟩ => by show k.val = 0 + k.val; omega
    | ⟨1, _⟩ => by show j.val = 0 + j.val; omega)

/-- Row k of the edge part is row 130 + k of the whole matrix. -/
theorem wEdge_apply (wl : FVec Ideal S134x128 .f32) (k : Fin 4) (j : Fin 128) :
    wEdge (F := Ideal) wl (ix2 k j) = wl (ix2 (⟨130 + k.val, by have := k.isLt; omega⟩ : Fin 134) j) := by
  unfold wEdge
  exact extractStridedSlice_apply ![130, 0] wl slices_S134x128_S4x128_130_0 (ix2 k j) _ (fun a => match a with
    | ⟨0, _⟩ => by show 130 + k.val = 130 + k.val; rfl
    | ⟨1, _⟩ => by show j.val = 0 + j.val; omega)

end Weights

/-! ## The kernel's message array is the reference's -/

open Cert.KernelIdeal Cert.KernelIdeal.Gen Cert.KernelIdeal.HostFns
open Idealize.ShloMosaic Idealize.ShloMosaic.TcCoe Idealize.ShloMosaic.ValueIdx

theorem msgArr_eq (ni : FVec Ideal S100000x130 .f32) (s : IVec S1600000 32) (ef : FVec Ideal S1600000x4 .f32)
    (wl : FVec Ideal S134x128 .f32) (bl : FVec Ideal S128 .f32)
    (hs : ∀ e : S1600000.Idx, IntOp.cmpi .sge (s e) 0#32 = 1#1 ∧ IntOp.cmpi .slt (s e) 100000#32 = 1#1) :
    Cert.MsgArr.msgArr (takeRows (F := Ideal) ni s) ef (wNode wl) (wEdge wl) bl
      = Cert.Layers.msgOf (F := Ideal) ni s ef wl bl := by
  rw [takeRows_eq s hs ni]
  funext i
  obtain ⟨e, j, rfl⟩ : ∃ (e : Fin 1600000) (j : Fin 128), i = ix2 e j := ⟨i 0, i 1, eq_ix2 i⟩
  rw [Cert.MsgArr.msgArr_apply]
  refine Eq.trans ?_ (msgOfRows_apply (Cert.Layers.senderRows (F := Ideal) ni s) ef wl bl e j).symm
  simp only [wNode_apply, wEdge_apply]

end Cert.MsgEq

end
-- ==== Proof.PreSenders.lean ====
import proofs.«402375_j12678743458344_1_alg».proof.Defs
import proofs.«402375_j12678743458344_1_alg».proof.Proof.Gen.Pre_finite_inputs
import Idealize.ShloMosaic.Lib.ReduceAll
import Idealize.ShloMosaic.Lib.ValueIdx

noncomputable section

namespace Cert.PreSenders

open Idealize.ShloMosaic Idealize.ShloMosaic.TcCoe Idealize.SL.Sem Cert.Pre_finite_inputs.Gen

/-- Every sender index lies in `[0, 100000)`.

    The precondition says that a one-bit scalar is 1 on every device. That scalar is a conjunction (bitwise `and` of
    one-bit words) of ten terms, each an `and`-reduction over a whole array of elementwise comparisons; the last two
    terms compare the sender array with the constants `0` (signed `≥`) and `100000` (signed `<`). A conjunction of
    one-bit words is 1 exactly when both words are 1, so the last two terms are 1; an `and`-reduction from 1 into a
    single scalar that comes out 1 met a 1 at every index, so both comparisons hold at the index `e`. Read at `e`, the
    elementwise comparison against a broadcast scalar constant is the comparison of the `e`-th word with that constant. -/
theorem senders_in_range
    (m : (ℓ : Loc Cert.KernelIdeal.nD Cert.KernelIdeal.τ Cert.KernelIdeal.sig) → Buf (Elt Ideal) ℓ)
    (h : Cert.Pre_KernelIdeal m) (c : Dev Cert.KernelIdeal.nD) (e : Cert.KernelIdeal.S1600000.Idx) :
    IntOp.cmpi .sge (m ((c.tc : Thread Cert.KernelIdeal.nD Cert.KernelIdeal.τ).loc Cert.KernelIdeal.main_arg1) e) 0#32 = 1#1
      ∧ IntOp.cmpi .slt (m ((c.tc : Thread Cert.KernelIdeal.nD Cert.KernelIdeal.τ).loc Cert.KernelIdeal.main_arg1) e) 100000#32 = 1#1 := by
  -- the scalar shape has exactly one index
  haveI : Subsingleton Cert.Pre_finite_inputs.S_.Idx := ⟨fun a b => funext fun d => d.elim0⟩
  -- the predicate's value at the one scalar index, on device `c`
  have e0 := congrFun (h c) ValueIdx.ix0
  unfold Cert.Pre_finite_inputs.fn Cert.Pre_finite_inputs.fn_part1 Cert.Pre_finite_inputs.fn_part2 at e0
  -- outermost conjunction: (first nine terms) ∧ (all senders < 100000)
  obtain ⟨e1, hlt⟩ := IntOp.andi_eq_one.1 e0
  -- next conjunction: (first eight terms, all about floats, left unopened) ∧ (all senders ≥ 0)
  obtain ⟨_, hge⟩ := IntOp.andi_eq_one.1 e1
  -- each all-reduction gives its comparison at the index `e`
  have a := Host.reduce_andi_all _ _ _ _ _ hge e
  have b := Host.reduce_andi_all _ _ _ _ _ hlt e
  -- an elementwise comparison with a broadcast scalar, at `e`, is the comparison of the `e`-th word with the scalar
  exact ⟨a, b⟩

end Cert.PreSenders

end
-- ==== Proof.KerValue.lean ====
/-
  The kernel program's result as a function of its arguments. Walking @main from the launch to the return: before
  each launch the buffers the launch reads hold the sender rows of the current node rows, the edge features, the two
  parts of the layer's weights and its bias; the launch leaves the messages in its output array (the three regions'
  `out_array`), which under the precondition — every sender index names a node — are the messages the plain host
  computation would produce (`msgArr_eq`: the fetch fills no row, and the contraction over the 134 columns is the sum
  of its first 130 and its last 4 terms); the host operations after the launch turn them into the next hidden
  features and voltages. After three rounds the result buffer holds `Layers.net` of the arguments.
-/
import proofs.«402375_j12678743458344_1_alg».proof.Proof.Gen.KernelIdeal.Frame
import proofs.«402375_j12678743458344_1_alg».proof.Proof.FoldA
import proofs.«402375_j12678743458344_1_alg».proof.Proof.FoldB
import proofs.«402375_j12678743458344_1_alg».proof.Proof.Region0
import proofs.«402375_j12678743458344_1_alg».proof.Proof.Region1
import proofs.«402375_j12678743458344_1_alg».proof.Proof.Region2
import proofs.«402375_j12678743458344_1_alg».proof.Proof.MsgEq
import proofs.«402375_j12678743458344_1_alg».proof.Proof.PreSenders

set_option maxRecDepth 16384

noncomputable section

namespace Cert.KernelIdeal.Result

open Cert.KernelIdeal Cert.KernelIdeal.Gen Cert.KernelIdeal.HostFns
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first launch's entry -/

theorem w3_v9 : W3 m ρ c (Proc.devRef .tc main_v9) = takeRows (F := Ideal) (Cert.Layers.nodeIn Cert.Layers.v0 (Cert.Layers.h0 (m ((c.tc : Thread nD τ).loc main_arg0)) (m ((c.tc : Thread nD τ).loc main_arg4)) (m ((c.tc : Thread nD τ).loc main_arg5)))) (m ((c.tc : Thread nD τ).loc main_arg1)) :=
  Fold.s0_v9 (W0 m ρ c)
theorem w3_v12 : W3 m ρ c (Proc.devRef .tc main_v12) = wNode (F := Ideal) (Cert.Layers.wMsg0 (m ((c.tc : Thread nD τ).loc main_arg6))) := Fold.s0_v12 (W0 m ρ c)
theorem w3_v13 : W3 m ρ c (Proc.devRef .tc main_v13) = wEdge (F := Ideal) (Cert.Layers.wMsg0 (m ((c.tc : Thread nD τ).loc main_arg6))) := Fold.s0_v13 (W0 m ρ c)
theorem w3_v15 : W3 m ρ c (Proc.devRef .tc main_v15) = Cert.Layers.bMsg0 (F := Ideal) (m ((c.tc : Thread nD τ).loc main_arg7)) := Fold.s0_v15 (W0 m ρ c)
theorem w3_v3 : W3 m ρ c (Proc.devRef .tc main_v3) = Cert.Layers.v0 (F := Ideal) := Fold.s0_v3 (W0 m ρ c)
theorem w3_arg1 : W3 m ρ c (Proc.devRef .tc main_arg1) = (m ((c.tc : Thread nD τ).loc main_arg1)) := Fold.s0_arg1 (W0 m ρ c)
theorem w3_arg2 : W3 m ρ c (Proc.devRef .tc main_arg2) = (m ((c.tc : Thread nD τ).loc main_arg2)) := Fold.s0_arg2 (W0 m ρ c)
theorem w3_arg3 : W3 m ρ c (Proc.devRef .tc main_arg3) = (m ((c.tc : Thread nD τ).loc main_arg3)) := Fold.s0_arg3 (W0 m ρ c)
theorem w3_arg6 : W3 m ρ c (Proc.devRef .tc main_arg6) = (m ((c.tc : Thread nD τ).loc main_arg6)) := Fold.s0_arg6 (W0 m ρ c)
theorem w3_arg7 : W3 m ρ c (Proc.devRef .tc main_arg7) = (m ((c.tc : Thread nD τ).loc main_arg7)) := Fold.s0_arg7 (W0 m ρ c)
theorem w3_arg8 : W3 m ρ c (Proc.devRef .tc main_arg8) = (m ((c.tc : Thread nD τ).loc main_arg8)) := Fold.s0_arg8 (W0 m ρ c)
theorem w3_arg9 : W3 m ρ c (Proc.devRef .tc main_arg9) = (m ((c.tc : Thread nD τ).loc main_arg9)) := Fold.s0_arg9 (W0 m ρ c)

/-! ## The first launch, and its exit -/

theorem w4_v16 (hpre : Cert.Pre_KernelIdeal m) : W4 m ρ c (Proc.devRef .tc main_v16) = (Cert.Layers.msg1 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  refine (W4_arr m ρ c 5).trans ((Region0.out_array (V3 m ρ) c).trans ?_)
  show Cert.MsgArr.msgArr (W3 m ρ c (Proc.devRef .tc main_v9)) (W3 m ρ c (Proc.devRef .tc main_arg3)) (W3 m ρ c (Proc.devRef .tc main_v12)) (W3 m ρ c (Proc.devRef .tc main_v13)) (W3 m ρ c (Proc.devRef .tc main_v15)) = _
  rw [w3_v9, w3_arg3, w3_v12, w3_v13, w3_v15]
  exact Cert.MsgEq.msgArr_eq _ _ _ _ _ (Cert.PreSenders.senders_in_range m hpre c)
theorem w4_v3 : W4 m ρ c (Proc.devRef .tc main_v3) = Cert.Layers.v0 (F := Ideal) := (W4_of_ne m ρ c main_v3 (by decide)).trans (w3_v3 m ρ c)
theorem w4_arg1 : W4 m ρ c (Proc.devRef .tc main_arg1) = (m ((c.tc : Thread nD τ).loc main_arg1)) := (W4_of_ne m ρ c main_arg1 (by decide)).trans (w3_arg1 m ρ c)
theorem w4_arg2 : W4 m ρ c (Proc.devRef .tc main_arg2) = (m ((c.tc : Thread nD τ).loc main_arg2)) := (W4_of_ne m ρ c main_arg2 (by decide)).trans (w3_arg2 m ρ c)
theorem w4_arg6 : W4 m ρ c (Proc.devRef .tc main_arg6) = (m ((c.tc : Thread nD τ).loc main_arg6)) := (W4_of_ne m ρ c main_arg6 (by decide)).trans (w3_arg6 m ρ c)
theorem w4_arg7 : W4 m ρ c (Proc.devRef .tc main_arg7) = (m ((c.tc : Thread nD τ).loc main_arg7)) := (W4_of_ne m ρ c main_arg7 (by decide)).trans (w3_arg7 m ρ c)
theorem w4_arg8 : W4 m ρ c (Proc.devRef .tc main_arg8) = (m ((c.tc : Thread nD τ).loc main_arg8)) := (W4_of_ne m ρ c main_arg8 (by decide)).trans (w3_arg8 m ρ c)
theorem w4_arg9 : W4 m ρ c (Proc.devRef .tc main_arg9) = (m ((c.tc : Thread nD τ).loc main_arg9)) := (W4_of_ne m ρ c main_arg9 (by decide)).trans (w3_arg9 m ρ c)
theorem w4_arg3 : W4 m ρ c (Proc.devRef .tc main_arg3) = (m ((c.tc : Thread nD τ).loc main_arg3)) :=
  ((W4_arr m ρ c 1).trans (((dat0 (V3 m ρ) c).arrAt_in 1 rfl _).trans (A_eq0 (V3 m ρ) c 1))).trans (w3_arg3 m ρ c)

/-! ## At the second launch's entry -/

theorem w9_v31 (hpre : Cert.Pre_KernelIdeal m) : W9 m ρ c (Proc.devRef .tc main_v31) = takeRows (F := Ideal) (Cert.Layers.nodeIn (Cert.Layers.v1 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (Cert.Layers.h1 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))) (m ((c.tc : Thread nD τ).loc main_arg1)) := by
  refine (Fold.s1_v31 (W4 m ρ c)).trans ?_
  rw [w4_v3, w4_v16 m ρ c hpre, w4_arg1, w4_arg2, w4_arg8, w4_arg9]
  rfl
theorem w9_v34 : W9 m ρ c (Proc.devRef .tc main_v34) = wNode (F := Ideal) (Cert.Layers.wMsg1 (m ((c.tc : Thread nD τ).loc main_arg6))) := (Fold.s1_v34 (W4 m ρ c)).trans (by rw [w4_arg6])
theorem w9_v35 : W9 m ρ c (Proc.devRef .tc main_v35) = wEdge (F := Ideal) (Cert.Layers.wMsg1 (m ((c.tc : Thread nD τ).loc main_arg6))) := (Fold.s1_v35 (W4 m ρ c)).trans (by rw [w4_arg6])
theorem w9_v37 : W9 m ρ c (Proc.devRef .tc main_v37) = Cert.Layers.bMsg1 (F := Ideal) (m ((c.tc : Thread nD τ).loc main_arg7)) := (Fold.s1_v37 (W4 m ρ c)).trans (by rw [w4_arg7])
theorem w9_v29 (hpre : Cert.Pre_KernelIdeal m) : W9 m ρ c (Proc.devRef .tc main_v29) = (Cert.Layers.v1 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  refine (Fold.s1_v29 (W4 m ρ c)).trans ?_
  rw [w4_v3, w4_v16 m ρ c hpre, w4_arg2, w4_arg8, w4_arg9]
  rfl
theorem w9_arg1 : W9 m ρ c (Proc.devRef .tc main_arg1) = (m ((c.tc : Thread nD τ).loc main_arg1)) := (Fold.s1_arg1 (W4 m ρ c)).trans (w4_arg1 m ρ c)
theorem w9_arg2 : W9 m ρ c (Proc.devRef .tc main_arg2) = (m ((c.tc : Thread nD τ).loc main_arg2)) := (Fold.s1_arg2 (W4 m ρ c)).trans (w4_arg2 m ρ c)
theorem w9_arg3 : W9 m ρ c (Proc.devRef .tc main_arg3) = (m ((c.tc : Thread nD τ).loc main_arg3)) := (Fold.s1_arg3 (W4 m ρ c)).trans (w4_arg3 m ρ c)
theorem w9_arg6 : W9 m ρ c (Proc.devRef .tc main_arg6) = (m ((c.tc : Thread nD τ).loc main_arg6)) := (Fold.s1_arg6 (W4 m ρ c)).trans (w4_arg6 m ρ c)
theorem w9_arg7 : W9 m ρ c (Proc.devRef .tc main_arg7) = (m ((c.tc : Thread nD τ).loc main_arg7)) := (Fold.s1_arg7 (W4 m ρ c)).trans (w4_arg7 m ρ c)
theorem w9_arg8 : W9 m ρ c (Proc.devRef .tc main_arg8) = (m ((c.tc : Thread nD τ).loc main_arg8)) := (Fold.s1_arg8 (W4 m ρ c)).trans (w4_arg8 m ρ c)
theorem w9_arg9 : W9 m ρ c (Proc.devRef .tc main_arg9) = (m ((c.tc : Thread nD τ).loc main_arg9)) := (Fold.s1_arg9 (W4 m ρ c)).trans (w4_arg9 m ρ c)

/-! ## The second launch, and its exit -/

theorem w10_v38 (hpre : Cert.Pre_KernelIdeal m) : W10 m ρ c (Proc.devRef .tc main_v38) = (Cert.Layers.msg2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  refine (W10_arr m ρ c 5).trans ((Region1.out_array (V9 m ρ) c).trans ?_)
  show Cert.MsgArr.msgArr (W9 m ρ c (Proc.devRef .tc main_v31)) (W9 m ρ c (Proc.devRef .tc main_arg3)) (W9 m ρ c (Proc.devRef .tc main_v34)) (W9 m ρ c (Proc.devRef .tc main_v35)) (W9 m ρ c (Proc.devRef .tc main_v37)) = _
  rw [w9_v31 m ρ c hpre, w9_arg3, w9_v34, w9_v35, w9_v37]
  exact Cert.MsgEq.msgArr_eq _ _ _ _ _ (Cert.PreSenders.senders_in_range m hpre c)
theorem w10_v29 (hpre : Cert.Pre_KernelIdeal m) : W10 m ρ c (Proc.devRef .tc main_v29) = (Cert.Layers.v1 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := (W10_of_ne m ρ c main_v29 (by decide)).trans (w9_v29 m ρ c hpre)
theorem w10_arg1 : W10 m ρ c (Proc.devRef .tc main_arg1) = (m ((c.tc : Thread nD τ).loc main_arg1)) := (W10_of_ne m ρ c main_arg1 (by decide)).trans (w9_arg1 m ρ c)
theorem w10_arg2 : W10 m ρ c (Proc.devRef .tc main_arg2) = (m ((c.tc : Thread nD τ).loc main_arg2)) := (W10_of_ne m ρ c main_arg2 (by decide)).trans (w9_arg2 m ρ c)
theorem w10_arg6 : W10 m ρ c (Proc.devRef .tc main_arg6) = (m ((c.tc : Thread nD τ).loc main_arg6)) := (W10_of_ne m ρ c main_arg6 (by decide)).trans (w9_arg6 m ρ c)
theorem w10_arg7 : W10 m ρ c (Proc.devRef .tc main_arg7) = (m ((c.tc : Thread nD τ).loc main_arg7)) := (W10_of_ne m ρ c main_arg7 (by decide)).trans (w9_arg7 m ρ c)
theorem w10_arg8 : W10 m ρ c (Proc.devRef .tc main_arg8) = (m ((c.tc : Thread nD τ).loc main_arg8)) := (W10_of_ne m ρ c main_arg8 (by decide)).trans (w9_arg8 m ρ c)
theorem w10_arg9 : W10 m ρ c (Proc.devRef .tc main_arg9) = (m ((c.tc : Thread nD τ).loc main_arg9)) := (W10_of_ne m ρ c main_arg9 (by decide)).trans (w9_arg9 m ρ c)
theorem w10_arg3 : W10 m ρ c (Proc.devRef .tc main_arg3) = (m ((c.tc : Thread nD τ).loc main_arg3)) :=
  ((W10_arr m ρ c 1).trans (((dat1 (V9 m ρ) c).arrAt_in 1 rfl _).trans (A_eq1 (V9 m ρ) c 1))).trans (w9_arg3 m ρ c)

/-! ## At the third launch's entry -/

theorem w15_v53 (hpre : Cert.Pre_KernelIdeal m) : W15 m ρ c (Proc.devRef .tc main_v53) = takeRows (F := Ideal) (Cert.Layers.nodeIn (Cert.Layers.v2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (Cert.Layers.h2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))) (m ((c.tc : Thread nD τ).loc main_arg1)) := by
  refine (Fold.s2_v53 (W10 m ρ c)).trans ?_
  rw [w10_v29 m ρ c hpre, w10_v38 m ρ c hpre, w10_arg1, w10_arg2, w10_arg8, w10_arg9]
  rfl
theorem w15_v56 : W15 m ρ c (Proc.devRef .tc main_v56) = wNode (F := Ideal) (Cert.Layers.wMsg2 (m ((c.tc : Thread nD τ).loc main_arg6))) := (Fold.s2_v56 (W10 m ρ c)).trans (by rw [w10_arg6])
theorem w15_v57 : W15 m ρ c (Proc.devRef .tc main_v57) = wEdge (F := Ideal) (Cert.Layers.wMsg2 (m ((c.tc : Thread nD τ).loc main_arg6))) := (Fold.s2_v57 (W10 m ρ c)).trans (by rw [w10_arg6])
theorem w15_v59 : W15 m ρ c (Proc.devRef .tc main_v59) = Cert.Layers.bMsg2 (F := Ideal) (m ((c.tc : Thread nD τ).loc main_arg7)) := (Fold.s2_v59 (W10 m ρ c)).trans (by rw [w10_arg7])
theorem w15_v51 (hpre : Cert.Pre_KernelIdeal m) : W15 m ρ c (Proc.devRef .tc main_v51) = (Cert.Layers.v2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  refine (Fold.s2_v51 (W10 m ρ c)).trans ?_
  rw [w10_v29 m ρ c hpre, w10_v38 m ρ c hpre, w10_arg2, w10_arg8, w10_arg9]
  rfl
theorem w15_arg2 : W15 m ρ c (Proc.devRef .tc main_arg2) = (m ((c.tc : Thread nD τ).loc main_arg2)) := (Fold.s2_arg2 (W10 m ρ c)).trans (w10_arg2 m ρ c)
theorem w15_arg3 : W15 m ρ c (Proc.devRef .tc main_arg3) = (m ((c.tc : Thread nD τ).loc main_arg3)) := (Fold.s2_arg3 (W10 m ρ c)).trans (w10_arg3 m ρ c)
theorem w15_arg8 : W15 m ρ c (Proc.devRef .tc main_arg8) = (m ((c.tc : Thread nD τ).loc main_arg8)) := (Fold.s2_arg8 (W10 m ρ c)).trans (w10_arg8 m ρ c)
theorem w15_arg9 : W15 m ρ c (Proc.devRef .tc main_arg9) = (m ((c.tc : Thread nD τ).loc main_arg9)) := (Fold.s2_arg9 (W10 m ρ c)).trans (w10_arg9 m ρ c)

/-! ## The third launch, its exit, and the result -/

theorem w16_v60 (hpre : Cert.Pre_KernelIdeal m) : W16 m ρ c (Proc.devRef .tc main_v60) = (Cert.Layers.msg3 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  refine (W16_arr m ρ c 5).trans ((Region2.out_array (V15 m ρ) c).trans ?_)
  show Cert.MsgArr.msgArr (W15 m ρ c (Proc.devRef .tc main_v53)) (W15 m ρ c (Proc.devRef .tc main_arg3)) (W15 m ρ c (Proc.devRef .tc main_v56)) (W15 m ρ c (Proc.devRef .tc main_v57)) (W15 m ρ c (Proc.devRef .tc main_v59)) = _
  rw [w15_v53 m ρ c hpre, w15_arg3, w15_v56, w15_v57, w15_v59]
  exact Cert.MsgEq.msgArr_eq _ _ _ _ _ (Cert.PreSenders.senders_in_range m hpre c)
theorem w16_v51 (hpre : Cert.Pre_KernelIdeal m) : W16 m ρ c (Proc.devRef .tc main_v51) = (Cert.Layers.v2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := (W16_of_ne m ρ c main_v51 (by decide)).trans (w15_v51 m ρ c hpre)
theorem w16_arg2 : W16 m ρ c (Proc.devRef .tc main_arg2) = (m ((c.tc : Thread nD τ).loc main_arg2)) := (W16_of_ne m ρ c main_arg2 (by decide)).trans (w15_arg2 m ρ c)
theorem w16_arg8 : W16 m ρ c (Proc.devRef .tc main_arg8) = (m ((c.tc : Thread nD τ).loc main_arg8)) := (W16_of_ne m ρ c main_arg8 (by decide)).trans (w15_arg8 m ρ c)
theorem w16_arg9 : W16 m ρ c (Proc.devRef .tc main_arg9) = (m ((c.tc : Thread nD τ).loc main_arg9)) := (W16_of_ne m ρ c main_arg9 (by decide)).trans (w15_arg9 m ρ c)

/-- The result buffer at the return: three rounds of message passing on the arguments. -/
theorem result_eq (hpre : Cert.Pre_KernelIdeal m) : W19 m ρ c (Proc.devRef .tc main_v73) = (Cert.Layers.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  refine (Fold.s3_v73 (W16 m ρ c)).trans ?_
  rw [w16_v51 m ρ c hpre, w16_v60 m ρ c hpre, w16_arg2, w16_arg8, w16_arg9]
  rfl

end Cert.KernelIdeal.Result

end
-- ==== Proof.lean ====
/- The proof of `Cert.Claim`: a Pallas kernel for the dense step of three rounds of message passing on a graph
   (100000 nodes, 1600000 edges) against the plain jnp computation, over the extended reals.
   Both programs do the same host work around the dense step — the first node rows, the fetch of each edge's sender
   row, the sum of the messages into the receiving nodes, the clip at zero, the voltage step — and differ in two
   places. The reference multiplies the 134-entry row `[sender row | edge features]` by the layer's 134 x 128 weights;
   the kernel multiplies the 130-entry sender row by the first 130 rows of the weights and the 4 edge features by the
   last 4 rows, block of 16000 edges by block, and adds the two products: a sum over 134 terms is the sum of its first
   130 and its last 4, in any additive commutative monoid, so nothing about finiteness is used. And the kernel's
   program fetches the sender rows with a fill for indices outside the node range where the reference's indexing
   clamps them: under the precondition that every sender index names a node (the domain on which the reference's
   own indexing is in range) the fill never happens. The frames of the two kernel programs are the generated ones;
   the reference's frame is its run with the result dropped; nothing was rewritten by the idealization, so
   `preserves` is trivial. -/
import proofs.«402375_j12678743458344_1_alg».proof.Defs
import proofs.«402375_j12678743458344_1_alg».proof.Proof.Gen.Kernel
import proofs.«402375_j12678743458344_1_alg».proof.Proof.Gen.Kernel.Skeleton
import proofs.«402375_j12678743458344_1_alg».proof.Proof.Gen.Kernel.Launch
import proofs.«402375_j12678743458344_1_alg».proof.Proof.Gen.Kernel.Points
import proofs.«402375_j12678743458344_1_alg».proof.Proof.Gen.Kernel.Frame
import proofs.«402375_j12678743458344_1_alg».proof.Proof.Gen.KernelIdeal
import proofs.«402375_j12678743458344_1_alg».proof.Proof.Gen.KernelIdeal.Skeleton
import proofs.«402375_j12678743458344_1_alg».proof.Proof.Gen.KernelIdeal.Launch
import proofs.«402375_j12678743458344_1_alg».proof.Proof.Gen.KernelIdeal.Points
import proofs.«402375_j12678743458344_1_alg».proof.Proof.Gen.KernelIdeal.Frame
import proofs.«402375_j12678743458344_1_alg».proof.Proof.Gen.ReferenceIdeal
import proofs.«402375_j12678743458344_1_alg».proof.Proof.Gen.Pre_finite_inputs
import proofs.«402375_j12678743458344_1_alg».proof.Proof.KerRun
import proofs.«402375_j12678743458344_1_alg».proof.Proof.RefRun
import proofs.«402375_j12678743458344_1_alg».proof.Proof.KerValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the three rounds' voltages of the (agreeing) arguments in their result buffers. -/
theorem algebraic : Cert.algebraic_KernelIdeal_ReferenceIdeal := by
  intro m ρ m' ρ' hpre hagree
  refine ⟨fun c => Cert.Layers.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Result.result_eq m ρ c hpre), (h c).2⟩)
      (Cert.KernelIdeal.GenP.run_result (F := Ideal) m ρ)
  · refine (θ_run Cert.ReferenceIdeal.defs _ _).mono (fun r h c => ⟨(h c).1.trans ?_, (h c).2⟩)
      (Cert.ReferenceIdeal.ValueP.run (F := Ideal) m' ρ')
    unfold Cert.ReferenceIdeal.ValueP.res_main_v97
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
